-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1250000 : Shape := ⟨1, ![1250000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_arg1 : IVec S1250000 32) (main_v13 : IVec S_ 1) (main_v15 : IVec S1250000 1) (main_c_5 : IVec S_ 32) : IVec S_ 1 :=
  let main_v16 : IVec S1250000 32 := broadcastInDim S1250000 ![] bcast_S_S1250000 main_c_5
  let main_v17 : IVec S1250000 1 := cmpi .slt main_arg1 main_v16
  let main_v18 : IVec S1250000 1 := andi main_v15 main_v17
  let main_c_6 : IVec S_ 1 := constantI S_ 1 1#1
  let main_v19 : IVec S_ 1 := (fun x v => Host.reduce IntOp.andi x v reducesTo_S1250000_S_d0 h_S_) main_v18 main_c_6
  let main_v20 : IVec S_ 1 := andi main_v13 main_v19
  main_v20

def fn {F : FTy → Type} [FloatOps F] (main_arg0 : FVec F S50000x64 .f32) (main_arg1 : IVec S1250000 32) (main_arg2 : IVec S1250000 32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S1250000 32 := broadcastInDim S1250000 ![] bcast_S_S1250000 main_c_4
  let main_v15 : IVec S1250000 1 := cmpi .sge main_arg1 main_v14
  let main_c_5 : IVec S_ 32 := constantI S_ 32 50000#32
  fn_part1 (F := F) main_arg1 main_v13 main_v15 main_c_5
-- ==== Kernel.lean ====
abbrev S50000x64 : Shape := ⟨2, ![50000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S50176x64 : Shape := ⟨2, ![50176, 64]⟩
abbrev S1253376 : Shape := ⟨1, ![1253376]⟩
abbrev S1253376x1 : Shape := ⟨2, ![1253376, 1]⟩
abbrev S1x1253376 : Shape := ⟨2, ![1, 1253376]⟩
abbrev S1253376x64 : Shape := ⟨2, ![1253376, 64]⟩
abbrev S4096x1 : Shape := ⟨2, ![4096, 1]⟩
abbrev S512x64 : Shape := ⟨2, ![512, 64]⟩
abbrev S4096x64 : Shape := ⟨2, ![4096, 64]⟩
abbrev S1x512 : Shape := ⟨2, ![1, 512]⟩
abbrev S4096x512 : Shape := ⟨2, ![4096, 512]⟩
abbrev S1x64 : Shape := ⟨2, ![1, 64]⟩
abbrev S1x4096 : Shape := ⟨2, ![1, 4096]⟩
abbrev S512x1 : Shape := ⟨2, ![512, 1]⟩
abbrev S512x4096 : Shape := ⟨2, ![512, 4096]⟩

abbrev nBuf : Space → Nat
  | .hbm => 22
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S50000x64, .bf16⟩
  | .hbm, ⟨6, _⟩ => ⟨S_, .i32⟩
  | .hbm, ⟨7, _⟩ => ⟨S_, .bf16⟩
  | .hbm, ⟨8, _⟩ => ⟨S50176x64, .bf16⟩
  | .hbm, ⟨9, _⟩ => ⟨S_, .i32⟩
  | .hbm, ⟨10, _⟩ => ⟨S_, .i32⟩
  | .hbm, ⟨11, _⟩ => ⟨S1253376, .i32⟩
  | .hbm, ⟨12, _⟩ => ⟨S_, .i32⟩
  | .hbm, ⟨13, _⟩ => ⟨S_, .i32⟩
  | .hbm, ⟨14, _⟩ => ⟨S1253376, .i32⟩
  | .hbm, ⟨15, _⟩ => ⟨S1253376x1, .i32⟩
  | .hbm, ⟨16, _⟩ => ⟨S1x1253376, .i32⟩
  | .hbm, ⟨17, _⟩ => ⟨S1253376x64, .bf16⟩
  | .hbm, ⟨18, _⟩ => ⟨S64x64, .f32⟩
  | .hbm, ⟨19, _⟩ => ⟨S1x64, .f32⟩
  | .hbm, ⟨20, _⟩ => ⟨S50176x64, .f32⟩
  | .hbm, ⟨21, _⟩ => ⟨S50000x64, .f32⟩
  | .local _ .vmem, ⟨0, _⟩ => ⟨S4096x1, .i32⟩
  | .local _ .vmem, ⟨1, _⟩ => ⟨S4096x1, .i32⟩
  | .local _ .vmem, ⟨2, _⟩ => ⟨S512x64, .bf16⟩
  | .local _ .vmem, ⟨3, _⟩ => ⟨S512x64, .bf16⟩
  | .local _ .vmem, ⟨4, _⟩ => ⟨S4096x64, .bf16⟩
  | .local _ .vmem, ⟨5, _⟩ => ⟨S4096x64, .bf16⟩
  | .local _ .vmem, ⟨6, _⟩ => ⟨S4096x64, .f32⟩
  | .local _ .vmem, ⟨7, _⟩ => ⟨S1x4096, .i32⟩
  | .local _ .vmem, ⟨8, _⟩ => ⟨S1x4096, .i32⟩
  | .local _ .vmem, ⟨9, _⟩ => ⟨S4096x64, .bf16⟩
  | .local _ .vmem, ⟨10, _⟩ => ⟨S4096x64, .bf16⟩
  | .local _ .vmem, ⟨11, _⟩ => ⟨S64x64, .f32⟩
  | .local _ .vmem, ⟨12, _⟩ => ⟨S1x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_c_1 : Ref sig .tc := ⟨.hbm, 12, rfl⟩
abbrev main_call2_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![306, 98], ![false, false]⟩

def k0_cond2 (i : grid0.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![98, 306], ![false, false]⟩

def k1_cond2 (i : grid1.Coords) : BitVec 1 :=
  let arg1 : BitVec 32 := BitVec.ofNat 32 (i 1).val
  let c305_i32 : BitVec 32 := 305#32
  let v23 : BitVec 1 := Scalar.cmpi .eq arg1 c305_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bitsLt_bf16_f32 : FTy.bits .bf16 < FTy.bits .f32
  pads_S50000x64_S50176x64_01760_000 : S50000x64.Pads (![0, 0] : Fin 2 → Nat) ![176, 0] ![0, 0] S50176x64
  h_S_ : 0 < S_.numel
  pads_S1250000_S1253376_033760 : S1250000.Pads (![0] : Fin 1 → Nat) ![3376] ![0] S1253376
  shapeCasts_S1253376_S1253376x1 : S1253376.ShapeCasts S1253376x1
  shapeCasts_S1253376_S1x1253376 : S1253376.ShapeCasts S1x1253376
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S1x512_d1_w32 : S1x512.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x512 : S4096x1.Broadcasts S4096x512
  broadcasts_S1x512_S4096x512 : S1x512.Broadcasts S4096x512
  natLt_1_32 : 1 < 32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S4096x64_S4096x64_0_0 : (Rect.unit (s := S4096x64) ![0, 0] S4096x64.size inb_S4096x64_S4096x64_0_0).PackedRows (EltTy.packing .bf16)
  transposes_S64x64_S64x64_1_0 : S64x64.Transposes [1, 0] S64x64
  shapeCasts_S64_S1x64 : S64.ShapeCasts S1x64
  iota_S512x1_d0_w32 : S512x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  broadcasts_S512x1_S512x4096 : S512x1.Broadcasts S512x4096
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  slices_S50176x64_S50000x64_0_0 : S50176x64.Slices ![0, 0] S50000x64
  dot_S4096x512_S512x64_S4096x64_1_0_0_1_n_n_wf : DotDims.WF S4096x512 S512x64 S4096x64 [1] [0] [0] [1] [] []
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S1253376x1.size a
  hwx0_0 : ∀ i : grid0.Coords, EltTy.bits .i32 = 32 ∨ (Rect.block (s := S1253376x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S50176x64.size a
  hwx0_1 : ∀ i : grid0.Coords, EltTy.bits .bf16 = 32 ∨ (Rect.block (s := S50176x64) S512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S1253376x64.size a
  hwx0_2 : ∀ i : grid0.Coords, EltTy.bits .bf16 = 32 ∨ (Rect.block (s := S1253376x64) S4096x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1253376.size a
  hwx1_0 : ∀ i : grid1.Coords, EltTy.bits .i32 = 32 ∨ (Rect.block (s := S1x1253376) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S1253376x64.size a
  hwx1_1 : ∀ i : grid1.Coords, EltTy.bits .bf16 = 32 ∨ (Rect.block (s := S1253376x64) S4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x64.size a ≤ S50176x64.size a
  hwx1_4 : ∀ i : grid1.Coords, EltTy.bits .f32 = 32 ∨ (Rect.block (s := S50176x64) S512x64.size (cc1_transform_4 i) (hinb1_4 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_v4) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S50000x64 : Shape := ⟨2, ![50000, 64]⟩
abbrev S1250000 : Shape := ⟨1, ![1250000]⟩
abbrev S64x64 : Shape := ⟨2, ![64, 64]⟩
abbrev S64 : Shape := ⟨1, ![64]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 23
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1250000, .i32⟩
  | .hbm, ⟨2, _⟩ => ⟨S1250000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1250000, .i32⟩
  | .hbm, ⟨7, _⟩ => ⟨S1250000, .i1⟩
  | .hbm, ⟨8, _⟩ => ⟨S_, .i32⟩
  | .hbm, ⟨9, _⟩ => ⟨S1250000, .i32⟩
  | .hbm, ⟨10, _⟩ => ⟨S1250000, .i32⟩
  | .hbm, ⟨11, _⟩ => ⟨S1250000, .i32⟩
  | .hbm, ⟨12, _⟩ => ⟨S1250000x1, .i32⟩
  | .hbm, ⟨13, _⟩ => ⟨S1250000x64, .f32⟩
  | .hbm, ⟨14, _⟩ => ⟨S_, .f32⟩
  | .hbm, ⟨15, _⟩ => ⟨S50000x64, .f32⟩
  | .hbm, ⟨16, _⟩ => ⟨S1250000x1, .i32⟩
  | .hbm, ⟨17, _⟩ => ⟨S50000x64, .f32⟩
  | .hbm, ⟨18, _⟩ => ⟨S64x64, .f32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S50000x64_S64x64_S50000x64_1_0_0_1_n_n_wf : DotDims.WF S50000x64 S64x64 S50000x64 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Fold.lean ====
/-
  What every unscoped buffer of the TensorCore holds before the first kernel region: a fold from the launch memory
  through the seven host stretches that prepare the kernels' operands — the feature table cast and padded with
  176 zero rows, the source and destination words each padded with 3376 copies of the sentinel node 50175 and
  reshaped to a column and to a row.
-/
import proofs.«403988_j42975442764291_1_alg».proof.Proof.Gen.KernelIdeal.Launch

noncomputable section

namespace Cert.KernelIdeal.Whole

open Idealize.ShloMosaic Idealize.ShloMosaic.TcCoe
open Idealize.SL Idealize.SL.Sem
open Cert.KernelIdeal Cert.KernelIdeal.Gen

variable {F : FTy → Type} [FloatOps F]

/-- What a core's TensorCore buffers hold when a region is entered. -/
abbrev Entry (F : FTy → Type) [FloatOps F] : Type :=
  (c : Dev nD) → (b : Ref sig .tc) → Buf (Elt F) ((c : Thread nD τ).loc b)

variable (m : (ℓ : Loc nD τ sig) → Buf (Elt F) ℓ)

/-! ## The buffers' contents at each boundary -/

/-- At launch. -/
abbrev B0 : Dev nD → Valuation τ sig (Elt F) := fun c b => m (c, b)
/-- After the host stretch `hostOps0`. -/
abbrev B1 : Dev nD → Valuation τ sig (Elt F) := fun c => StableHlo.after hostOps0 (B0 m c)
/-- After the host stretch `hostOps0_1`. -/
abbrev B2 : Dev nD → Valuation τ sig (Elt F) := fun c => StableHlo.after hostOps0_1 (B1 m c)
/-- After the host stretch `hostOps0_2`. -/
abbrev B3 : Dev nD → Valuation τ sig (Elt F) := fun c => StableHlo.after hostOps0_2 (B2 m c)
/-- After the host stretch `hostOps0_3`. -/
abbrev B4 : Dev nD → Valuation τ sig (Elt F) := fun c => StableHlo.after hostOps0_3 (B3 m c)
/-- After the host stretch `hostOps0_4`. -/
abbrev B5 : Dev nD → Valuation τ sig (Elt F) := fun c => StableHlo.after hostOps0_4 (B4 m c)
/-- After the host stretch `hostOps0_5`. -/
abbrev B6 : Dev nD → Valuation τ sig (Elt F) := fun c => StableHlo.after hostOps0_5 (B5 m c)
/-- After the host stretch `hostOps0_6`. -/
abbrev B7 : Dev nD → Valuation τ sig (Elt F) := fun c => StableHlo.after hostOps0_6 (B6 m c)
/-- Region 0's entry contents, read at the TensorCore's references. -/
abbrev E7 : Entry F := fun c b => B7 m c b

end Cert.KernelIdeal.Whole

end
-- ==== Proof.Sched.lean ====
/-
  The schedule of the two kernel regions in closed form.

  Region 0 runs a 306 × 98 grid and region 1 a 98 × 306 grid, row-major, so point `t` has coordinates
  `(t / 98, t % 98)` and `(t / 306, t % 306)`: the second coordinate is the step of the reduction, the first names the
  output block. Everything the kernels' control and the pipeline's copies decide from a point is a function of
  those two numbers: the body resets its accumulator at step `0` and stores its output at the last step, each window's
  block index is one coordinate (or constant), and the output block is written back exactly at the last step of
  its row. All of it by arithmetic on `t / P` and `t % P`; no point of the grids is enumerated.
-/
import proofs.«403988_j42975442764291_1_alg».proof.Proof.Gen.KernelIdeal.Launch

noncomputable section

namespace Cert.KernelIdeal.Sched

open Idealize.ShloMosaic Idealize.ShloMosaic.TcCoe
open Idealize.SL Idealize.SL.Sem
open Cert.KernelIdeal Cert.KernelIdeal.Gen

variable {F : FTy → Type} [FloatOps F]

/-! ## A step word against a literal -/

/-- The kernels test "the step is `L`" as `extui (step == L) ≠ 0`; for a step below `2 ^ 32` that is the equation
    of numbers. -/
theorem step_test (j L : ℕ) (hj : j < 2 ^ 32) (hL : L < 2 ^ 32) :
    (Scalar.cmpi .ne (Scalar.extui (Scalar.cmpi .eq (BitVec.ofNat 32 j) (BitVec.ofNat 32 L))) 0#32) = 1#1 ↔ j = L := by
  have hiff : BitVec.ofNat 32 j = BitVec.ofNat 32 L ↔ j = L := by
    constructor
    · intro h
      have := congrArg BitVec.toNat h
      rwa [BitVec.toNat_ofNat, BitVec.toNat_ofNat, Nat.mod_eq_of_lt hj, Nat.mod_eq_of_lt hL] at this
    · intro h; rw [h]
  by_cases h : j = L
  · subst h
    simp only [iff_true]
    simp [Scalar.cmpi, Scalar.extui, IntOp.cmpi]
  · have hb : (BitVec.ofNat 32 j == BitVec.ofNat 32 L) = false := beq_eq_false_iff_ne.mpr fun e => h (hiff.mp e)
    simp only [h, iff_false]
    simp only [Scalar.cmpi, Scalar.extui, IntOp.cmpi, hb]
    decide

/-! ## Region 0: the 306 × 98 grid -/

theorem stride0_0 : grid0.stride 0 = 98 := by decide
theorem stride0_1 : grid0.stride 1 = 1 := by decide

/-- The first coordinate of point `t` is `t / 98`: the output block's row. -/
theorem coords0_0 (t : Fin grid0.N) : (grid0.coords t 0).val = t.val / 98 := by
  have hN : t.val < 29988 := lt_of_lt_of_eq t.isLt N_0
  show t.val / grid0.stride 0 % 306 = _
  rw [stride0_0]; omega

/-- The second coordinate of point `t` is `t % 98`: the step of the reduction. -/
theorem coords0_1 (t : Fin grid0.N) : (grid0.coords t 1).val = t.val % 98 := by
  show t.val / grid0.stride 1 % 98 = _
  rw [stride0_1, Nat.div_one]

/-- The body's first branch: the step is `0`. -/
abbrev cond0_0 (i : grid0.Coords) : Prop := (Scalar.cmpi .ne (Scalar.extui (Scalar.cmpi .eq (BitVec.ofNat 32 (i 1).val) 0#32)) 0#32) = 1#1
/-- The body's second branch: the step is the last, `97`. -/
abbrev cond0_1 (i : grid0.Coords) : Prop := k0_cond2 i = 1#1

theorem hcond0_0 (t : Fin cfg0.N) : cond0_0 (grid0.coords t) ↔ t.val % 98 = 0 := by
  have h := step_test (grid0.coords t 1).val 0 (lt_trans (grid0.coords t 1).isLt (by decide)) (by decide)
  show (Scalar.cmpi .ne (Scalar.extui (Scalar.cmpi .eq (BitVec.ofNat 32 (grid0.coords t 1).val) 0#32)) 0#32) = 1#1 ↔ _
  rw [coords0_1] at h ⊢
  exact h

theorem hcond0_1 (t : Fin cfg0.N) : cond0_1 (grid0.coords t) ↔ t.val % 98 = 97 := by
  have h := step_test (grid0.coords t 1).val 97 (lt_trans (grid0.coords t 1).isLt (by decide)) (by decide)
  show k0_cond2 (grid0.coords t) = 1#1 ↔ _
  unfold k0_cond2
  rw [coords0_1] at h ⊢
  exact h

/-- Each window's block index at point `t`: the source-word column and the output follow the row `t / 98`, the
    feature block follows the step `t % 98`. -/
theorem index0_0 (t : Fin grid0.N) : win0_0.index t = ![t.val / 98, 0] := by
  have hN : t.val < 29988 := lt_of_lt_of_eq t.isLt N_0
  show cc0_transform_0 (grid0.coords t) = _
  unfold cc0_transform_0
  have h0 : (BitVec.ofNat 32 (grid0.coords t 0).val).toNat = t.val / 98 := by
    rw [BitVec.toNat_ofNat, coords0_0]; omega
  simp only [h0]; rfl
theorem index0_1 (t : Fin grid0.N) : win0_1.index t = ![t.val % 98, 0] := by
  show cc0_transform_1 (grid0.coords t) = _
  unfold cc0_transform_1
  have h0 : (BitVec.ofNat 32 (grid0.coords t 1).val).toNat = t.val % 98 := by
    rw [BitVec.toNat_ofNat, coords0_1]; omega
  simp only [h0]; rfl
theorem index0_2 (t : Fin grid0.N) : win0_2.index t = ![t.val / 98, 0] := by
  have hN : t.val < 29988 := lt_of_lt_of_eq t.isLt N_0
  show cc0_transform_2 (grid0.coords t) = _
  unfold cc0_transform_2
  have h0 : (BitVec.ofNat 32 (grid0.coords t 0).val).toNat = t.val / 98 := by
    rw [BitVec.toNat_ofNat, coords0_0]; omega
  simp only [h0]; rfl

/-- The output block is written back exactly at the last step of its row. -/
theorem flush0_2 (t : Fin cfg0.N) : (cfg0.win 2).flush t = true ↔ t.val % 98 = 97 := by
  have hN : t.val < 29988 := lt_of_lt_of_eq t.isLt N_0
  show win0_2.flush t = true ↔ _
  unfold Pipeline.Window.flush
  rw [show win0_2.isOut = true from rfl, Bool.true_and, Bool.or_eq_true, decide_eq_true_iff, decide_eq_true_iff]
  constructor
  · rintro (h | ⟨h, hne⟩)
    · have hNeq : grid0.N = 29988 := N_0
      omega
    · rw [index0_2, index0_2] at hne
      by_contra hc
      apply hne
      have e : (t.val + 1) / 98 = t.val / 98 := by omega
      show ![(t.val + 1) / 98, 0] = _
      rw [e]
  · intro h
    by_cases hl : t.val + 1 = grid0.N
    · exact Or.inl hl
    · have hNeq : grid0.N = 29988 := N_0
      refine Or.inr ⟨by omega, ?_⟩
      rw [index0_2, index0_2]
      intro heq
      have h0 := congrFun heq 0
      have h0' : (t.val + 1) / 98 = t.val / 98 := h0
      omega

/-- The kernel body at point `t`, on the staging memrefs the pipeline calls it with and on its scratch. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

/-! ## Region 1: the 98 × 306 grid -/

theorem stride1_0 : grid1.stride 0 = 306 := by decide
theorem stride1_1 : grid1.stride 1 = 1 := by decide

/-- The first coordinate of point `t` is `t / 306`: the output block's row of nodes. -/
theorem coords1_0 (t : Fin grid1.N) : (grid1.coords t 0).val = t.val / 306 := by
  have hN : t.val < 29988 := lt_of_lt_of_eq t.isLt N_1
  show t.val / grid1.stride 0 % 98 = _
  rw [stride1_0]; omega

/-- The second coordinate of point `t` is `t % 306`: the step of the reduction over edge blocks. -/
theorem coords1_1 (t : Fin grid1.N) : (grid1.coords t 1).val = t.val % 306 := by
  show t.val / grid1.stride 1 % 306 = _
  rw [stride1_1, Nat.div_one]

/-- The body's first branch: the step is `0`. -/
abbrev cond1_0 (i : grid1.Coords) : Prop := (Scalar.cmpi .ne (Scalar.extui (Scalar.cmpi .eq (BitVec.ofNat 32 (i 1).val) 0#32)) 0#32) = 1#1
/-- The body's second branch: the step is the last, `305`. -/
abbrev cond1_1 (i : grid1.Coords) : Prop := k1_cond2 i = 1#1

theorem hcond1_0 (t : Fin cfg1.N) : cond1_0 (grid1.coords t) ↔ t.val % 306 = 0 := by
  have h := step_test (grid1.coords t 1).val 0 (lt_trans (grid1.coords t 1).isLt (by decide)) (by decide)
  show (Scalar.cmpi .ne (Scalar.extui (Scalar.cmpi .eq (BitVec.ofNat 32 (grid1.coords t 1).val) 0#32)) 0#32) = 1#1 ↔ _
  rw [coords1_1] at h ⊢
  exact h

theorem hcond1_1 (t : Fin cfg1.N) : cond1_1 (grid1.coords t) ↔ t.val % 306 = 305 := by
  have h := step_test (grid1.coords t 1).val 305 (lt_trans (grid1.coords t 1).isLt (by decide)) (by decide)
  show k1_cond2 (grid1.coords t) = 1#1 ↔ _
  unfold k1_cond2
  rw [coords1_1] at h ⊢
  exact h

/-- Each window's block index at point `t`: the destination words and the messages follow the step `t % 306`,
    the two parameters of the linear layer are one block, the output follows the row `t / 306`. -/
theorem index1_0 (t : Fin grid1.N) : win1_0.index t = ![0, t.val % 306] := by
  show cc1_transform_0 (grid1.coords t) = _
  unfold cc1_transform_0
  have h0 : (BitVec.ofNat 32 (grid1.coords t 1).val).toNat = t.val % 306 := by
    rw [BitVec.toNat_ofNat, coords1_1]; omega
  simp only [h0]; rfl
theorem index1_1 (t : Fin grid1.N) : win1_1.index t = ![t.val % 306, 0] := by
  show cc1_transform_1 (grid1.coords t) = _
  unfold cc1_transform_1
  have h0 : (BitVec.ofNat 32 (grid1.coords t 1).val).toNat = t.val % 306 := by
    rw [BitVec.toNat_ofNat, coords1_1]; omega
  simp only [h0]; rfl
theorem index1_2 (t : Fin grid1.N) : win1_2.index t = ![0, 0] := rfl
theorem index1_3 (t : Fin grid1.N) : win1_3.index t = ![0, 0] := rfl
theorem index1_4 (t : Fin grid1.N) : win1_4.index t = ![t.val / 306, 0] := by
  have hN : t.val < 29988 := lt_of_lt_of_eq t.isLt N_1
  show cc1_transform_4 (grid1.coords t) = _
  unfold cc1_transform_4
  have h0 : (BitVec.ofNat 32 (grid1.coords t 0).val).toNat = t.val / 306 := by
    rw [BitVec.toNat_ofNat, coords1_0]; omega
  simp only [h0]; rfl

/-- The output block is written back exactly at the last step of its row. -/
theorem flush1_4 (t : Fin cfg1.N) : (cfg1.win 4).flush t = true ↔ t.val % 306 = 305 := by
  have hN : t.val < 29988 := lt_of_lt_of_eq t.isLt N_1
  show win1_4.flush t = true ↔ _
  unfold Pipeline.Window.flush
  rw [show win1_4.isOut = true from rfl, Bool.true_and, Bool.or_eq_true, decide_eq_true_iff, decide_eq_true_iff]
  constructor
  · rintro (h | ⟨h, hne⟩)
    · have hNeq : grid1.N = 29988 := N_1
      omega
    · rw [index1_4, index1_4] at hne
      by_contra hc
      apply hne
      have e : (t.val + 1) / 306 = t.val / 306 := by omega
      show ![(t.val + 1) / 306, 0] = _
      rw [e]
  · intro h
    by_cases hl : t.val + 1 = grid1.N
    · exact Or.inl hl
    · have hNeq : grid1.N = 29988 := N_1
      refine Or.inr ⟨by omega, ?_⟩
      rw [index1_4, index1_4]
      intro heq
      have h0 := congrFun heq 0
      have h0' : (t.val + 1) / 306 = t.val / 306 := h0
      omega

/-- The kernel body at point `t`, on the staging memrefs the pipeline calls it with and on its scratch. -/
abbrev bodyAt1 (t : Fin cfg1.N) : Prog (TpuEff nD τ sig (Elt F) Λ₀ .tc) PUnit :=
  cc1__scatter_linear_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _)

end Cert.KernelIdeal.Sched

end
-- ==== Proof.Gather.Common.lean ====
/-
  Region 0 (the gather call): what its three control cases share.

  The body, at a grid point `(row, step)` of the 306 × 98 grid: at step 0 it overwrites its accumulator with zeros; at
  every step it adds to the accumulator the product of a one-hot mask (built from the row's index column and the
  step's node numbers) with the step's feature block; at step 97 it rounds the accumulator into the output block. Below:
  at which coordinates the output window is idle (a consequence of the last-step test alone), the operands the body is
  called with at a point, and the region's invariant with the accumulator singled out.
-/
import proofs.«403988_j42975442764291_1_alg».proof.Proof.Gen.KernelIdeal.Launch
import proofs.«403988_j42975442764291_1_alg».proof.Proof.Gen.KernelIdeal.Skeleton
import proofs.«403988_j42975442764291_1_alg».proof.Proof.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Sched

/-! ## Where the windows are idle

The output window's idleness is, by definition, the negation of the last-step test; so both facts below hold at ANY
coordinates, from the test alone, and no grid point is enumerated. -/

/-- Window 0 (the index column) is an input: never idle. -/
theorem liveAt0_0 (i : grid0.Coords) : cfg0.idle 0 i = false := rfl
/-- Window 1 (the feature block) is an input: never idle. -/
theorem liveAt0_1 (i : grid0.Coords) : cfg0.idle 1 i = false := rfl
/-- Off the last reduction step the output window is idle: the body stores nothing into it. -/
theorem idleAt0_2 (i : grid0.Coords) (h : ¬cond0_1 i) : cfg0.idle 2 i = true := by
  show (!(k0_cond2 i == 1#1)) = true
  simp only [Bool.not_eq_true', beq_eq_false_iff_ne, ne_eq]; exact h
/-- At the last reduction step the output window is live: the body stores its whole block. -/
theorem liveAt0_2 (i : grid0.Coords) (h : cond0_1 i) : cfg0.idle 2 i = false := by
  show (!(k0_cond2 i == 1#1)) = false
  simp only [Bool.not_eq_false', beq_iff_eq]; exact h
/-- Off the last reduction step the output block is not written back. -/
theorem noFlush0_2 (t : Fin cfg0.N) (h : ¬cond0_1 (grid0.coords t)) : (cfg0.win 2).flush t = false := by
  rw [← Bool.not_eq_true]
  exact fun hf => h ((hcond0_1 t).mpr ((flush0_2 t).mp hf))

/-! ## The body's operands at a point -/

/-- One staging buffer of the output window, through which its contents are stated (a cover's read-back does not
    depend on the choice). -/
abbrev VO0_2 : View sig .tc .vmem S4096x64 .bf16 := (Memref.whole cc0_stg2_0 : Memref sig .tc .vmem S4096x64 .bf16).view
/-- Each window's current staging memref at point `t`, and its wholeness. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S4096x64 .f32 := Memref.whole cc0_scratch0
/-- The accumulator as a view: what it holds between points is stated through it. -/
abbrev VS0_0 : View sig .tc .vmem S4096x64 .f32 := scM0_0.view

/-- The core's scoped buffers this region never touches (the other pallas_call's staging buffers and accumulator), each
    whole at some contents: carried through the region unread. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant as the launch hands it over: the accumulator as a memref owned at some contents, the
    untouched scoped buffers, and the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; unfold rest0; simp only [scM0_0, owns_whole]; try rfl

end Cert.KernelIdeal.Gather

end
-- ==== Proof.Gather.RunFirst.lean ====
/-
  Region 0, the FIRST reduction step of a row: the body's triple. The accumulator is overwritten with zeros and then
  receives the step's one-hot product; the output block is not touched.
-/
import proofs.«403988_j42975442764291_1_alg».proof.Proof.Gather.Common

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Sched

set_option maxHeartbeats 1000000 in
/-- FIRST reduction step (the step test holds, the last-step test does not). The pieces the body's stores leave — none in
    the output block `L2`; in the accumulator `LS0` the zero block, then the zero block plus this step's one-hot product —
    WITH the triple: on whole memrefs, the index column at `x0`, the feature block at `x1`, the output block at any `xi2`
    (handed back untouched) and the accumulator at ANYTHING (it is loaded only for a value nothing reads, then overwritten
    whole), the body runs to the continuation holding the inputs and the output block as they were and the accumulator
    with its pieces written. -/
noncomputable def kernelRun0_A (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) :
    Σ' (L2 : List (View.Piece (Elt F) S4096x64 .bf16)), { LS0 : List (View.Piece (Elt F) S4096x64 .f32) //
      ∀ (xi2 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gather

end
-- ==== Proof.Gather.RunMid.lean ====
/-
  Region 0, a MIDDLE reduction step of a row: the body's triple. The accumulator, at what the step before left, receives
  the step's one-hot product; the output block is not touched.
-/
import proofs.«403988_j42975442764291_1_alg».proof.Proof.Gather.RunFirst

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Sched

set_option maxHeartbeats 1000000 in
/-- A MIDDLE reduction step (neither test holds). The pieces the body's stores leave — none in the output block `L2`; in
    the accumulator `LS0` what it held plus this step's one-hot product — WITH the triple: on whole memrefs, the index
    column at `x0`, the feature block at `x1`, the output block at any `xi2` (handed back untouched) and the
    accumulator at what the step before left, `xs0`, the body runs to the continuation holding the inputs and the
    output block as they were and the accumulator with its pieces written. -/
noncomputable def kernelRun0_B (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) :
    Σ' (L2 : List (View.Piece (Elt F) S4096x64 .bf16)), { LS0 : List (View.Piece (Elt F) S4096x64 .f32) //
      ∀ (xi2 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Gather

end
-- ==== Proof.Gather.RunLast.lean ====
/-
  Region 0, the LAST reduction step of a row: the body's triple. The accumulator, at what the step before left, receives
  the step's one-hot product and is then rounded into the output block, which is overwritten whole.
-/
import proofs.«403988_j42975442764291_1_alg».proof.Proof.Gather.RunMid

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Sched

set_option maxHeartbeats 1000000 in
/-- The LAST reduction step (the last-step test holds, the step test does not). The pieces the body's stores leave — in the
    accumulator `LS0` what it held plus this step's one-hot product; in the output block `L2` the rounded accumulator —
    WITH the triple: on whole memrefs, the index column at `x0`, the feature block at `x1`, the output block at ANYTHING
    (it is loaded only for a value nothing reads, then overwritten whole) and the accumulator at what the step before left,
    `xs0`, the body runs to the continuation holding the inputs as they were and the output block and the accumulator
    with their pieces written. -/
noncomputable def kernelRun0_C (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) :
    Σ' (L2 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Gather

end
-- ==== Proof.Gather.Frame.lean ====
/-
  Region 0 (the gather call): the pipeline's proof data with the accumulator tracked between grid points, and the body
  obligation.

  The grid is 306 rows of 98 reduction steps, run row-major, so position `n` is step `n % 98` of row `n / 98`. The
  accumulator is overwritten at step 0 and grows by one one-hot product per step; the output block is stored once, at
  step 97, from the accumulator. `outsAt0` names, by recursion on the position, what the output window's buffer and the
  accumulator hold after each point; the region invariant carries the accumulator at that value from a point to the
  next; everything is stated at a parameter `V`, the TensorCore's buffer contents when the region is entered.
-/
import proofs.«403988_j42975442764291_1_alg».proof.Proof.Gather.RunLast

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Sched

/-! ## What each case leaves in the output block and in the accumulator -/

/-- The FIRST step stores nothing into the output block (the window is idle there and not written back): no pieces — a
    placeholder that nothing consults. -/
def out0_A_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) : Vec F S4096x64 .bf16 :=
  VO0_2.read (Elt F) (VO0_2.writes (Elt F) VO0_2.junk (kernelRun0_A c i arg2 harg2 arg3 harg3 arg4 harg4 arg5 harg5 hc0 hc1 x0 x1).1)

/-- The FIRST step's pieces for the accumulator (the zero block, then the sum) cover it: each is the whole block. -/
theorem scover0_A_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) (y : S4096x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4096x64.size (by sl_kernel_rfl) y

/-- What the FIRST step leaves in the accumulator: its pieces read back. -/
def sout0_A_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) : Vec F S4096x64 .f32 :=
  VS0_0.read (Elt F) (VS0_0.writes (Elt F) VS0_0.junk (kernelRun0_A c i arg2 harg2 arg3 harg3 arg4 harg4 arg5 harg5 hc0 hc1 x0 x1).2.1)

/-- A MIDDLE step stores nothing into the output block: no pieces — a placeholder that nothing consults. -/
def out0_B_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) : Vec F S4096x64 .bf16 :=
  VO0_2.read (Elt F) (VO0_2.writes (Elt F) VO0_2.junk (kernelRun0_B c i arg2 harg2 arg3 harg3 arg4 harg4 arg5 harg5 hc0 hc1 x0 x1 xs0).1)

/-- A MIDDLE step's one piece for the accumulator (the sum) covers it: it is the whole block. -/
theorem scover0_B_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) (y : S4096x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4096x64.size (by sl_kernel_rfl) y

/-- What a MIDDLE step leaves in the accumulator: its piece read back. -/
def sout0_B_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) : Vec F S4096x64 .f32 :=
  VS0_0.read (Elt F) (VS0_0.writes (Elt F) VS0_0.junk (kernelRun0_B c i arg2 harg2 arg3 harg3 arg4 harg4 arg5 harg5 hc0 hc1 x0 x1 xs0).2.1)

/-- The LAST step's one piece for the output block (the rounded accumulator) covers it: it is the whole block. -/
theorem cover0_C_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) (y : S4096x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4096x64.size (by sl_kernel_rfl) y

/-- What the LAST step leaves in the output block: its piece read back. -/
def out0_C_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) : Vec F S4096x64 .bf16 :=
  VO0_2.read (Elt F) (VO0_2.writes (Elt F) VO0_2.junk (kernelRun0_C c i arg2 harg2 arg3 harg3 arg4 harg4 arg5 harg5 hc0 hc1 x0 x1 xs0).1)

/-- The LAST step's one piece for the accumulator (the sum) covers it. -/
theorem scover0_C_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) (y : S4096x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4096x64.size (by sl_kernel_rfl) y

/-- What the LAST step leaves in the accumulator: its piece read back. -/
def sout0_C_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) : Vec F S4096x64 .f32 :=
  VS0_0.read (Elt F) (VS0_0.writes (Elt F) VS0_0.junk (kernelRun0_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The index column's current staging buffer holds its block at every point — fetched there (the first step of a row) or
    not (the block index, the row, has not moved) — for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the feature block, fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- THE ACCUMULATION. What the output window's staging buffer and the accumulator hold after the body at position `n` (a
    pair, in that order): the case the step `n % 98` selects, run at the point's memrefs and input blocks; a MIDDLE or LAST
    step over what the accumulator held after position `n - 1`, the FIRST step of a row over nothing (it overwrites).
    Step `0` and step `97` at once is no case. -/
def outsAt0 (c : Dev nD) : (n : ℕ) → n < cfg0.N → Vec F S4096x64 .bf16 × Vec F S4096x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 98 = 0 then
      if h1 : (n + 1) % 98 = 97 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 98 = 97 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a FIRST step: that case's contents. -/
theorem outsAt0_A (c : Dev nD) (t : Fin cfg0.N) (h0 : t.val % 98 = 0) (h1 : ¬t.val % 98 = 97) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a MIDDLE step: that case's contents, over what the point before left in the accumulator. -/
theorem outsAt0_B (c : Dev nD) (t : Fin cfg0.N) (h0 : ¬t.val % 98 = 0) (h1 : ¬t.val % 98 = 97) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a LAST step: that case's contents, over what the point before left in the accumulator. -/
theorem outsAt0_C (c : Dev nD) (t : Fin cfg0.N) (h0 : ¬t.val % 98 = 0) (h1 : t.val % 98 = 97) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left in it, the untouched scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the gather pipeline on core `c`: the arrays as the region finds them; after the body at point `t`
    each input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the step `t % 98` says which case the point is in; the
    invariant hands the body the accumulator at what the point before left (at anything before the first point — and the
    FIRST step of a later row takes it at anything too, since it overwrites) and takes it back at this point's contents,
    the read-back of a cover; off the last step the output window is idle and not written back, so its buffer is handed
    back as found; at the last step it is left at the read-back of its cover; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 29988 := lt_of_lt_of_eq t.isLt (show cfg0.N = 29988 from N_0)
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 (grid0.coords t)], after0_0]
      rw [show (dat0 V c).leavesExact 1 t = owns (c : Thread nD τ) (ms0_1 t) fullShare ((dat0 V c).after 1 t) from by
        unfold Dat.leavesExact; rw [liveAt0_1 (grid0.coords t)], after0_1]
      rw [Dat.leavesExact_idle (dat0 V c) 2 t (idleAt0_2 _ (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 98 = 97
    · rw [show (dat0 V c).leavesExact 0 t = owns (c : Thread nD τ) (ms0_0 t) fullShare ((dat0 V c).after 0 t) from by
        unfold Dat.leavesExact; rw [liveAt0_0 (grid0.coords t)], after0_0]
      rw [show (dat0 V c).leavesExact 1 t = owns (c : Thread nD τ) (ms0_1 t) fullShare ((dat0 V c).after 1 t) from by
        unfold Dat.leavesExact; rw [liveAt0_1 (grid0.coords t)], after0_1]
      rw [show (dat0 V c).leavesExact 2 t = owns (c : Thread nD τ) (ms0_2 t) fullShare ((dat0 V c).after 2 t) from by
        unfold Dat.leavesExact; rw [liveAt0_2 _ ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 (grid0.coords t)], after0_0]
      rw [show (dat0 V c).leavesExact 1 t = owns (c : Thread nD τ) (ms0_1 t) fullShare ((dat0 V c).after 1 t) from by
        unfold Dat.leavesExact; rw [liveAt0_1 (grid0.coords t)], after0_1]
      rw [Dat.leavesExact_idle (dat0 V c) 2 t (idleAt0_2 _ (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but none the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 29988 := N_0; omega)

end Region

end Cert.KernelIdeal.Gather

end
-- ==== Proof.Scatter.Common.lean ====
import proofs.«403988_j42975442764291_1_alg».proof.Proof.Gen.KernelIdeal.Launch
import proofs.«403988_j42975442764291_1_alg».proof.Proof.Gen.KernelIdeal.Skeleton
import proofs.«403988_j42975442764291_1_alg».proof.Proof.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched

variable {F : FTy → Type} [FloatOps F]

local notation "𝕄" => MT nD τ sig Unit (Elt F) ℕ (UR sig nD τ) ℕ

/-! # The second pallas_call (the scatter and the linear layer): what its three control cases share

The grid is 98 × 306, run row-major; the second coordinate is the reduction step. The body zeroes its accumulator at
step 0, adds one product of a one-hot mask and a data block at every step, and at step 305 writes the linear layer of
the accumulator into the output block. So a point is FIRST (step 0), LAST (step 305) or MID (neither). -/

/-! ## Where the windows are idle -/

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- The output window is idle exactly where the last-step condition fails: the configuration's table is the negation
    of that condition, at any coordinates. -/
theorem idle1_4_of_not (i : grid1.Coords) (h : ¬cond1_1 i) : cfg1.idle 4 i = true := by
  show (!(k1_cond2 i == 1#1)) = true
  simp only [Bool.not_eq_true', beq_eq_false_iff_ne, ne_eq]; exact h
theorem idle1_4_of (i : grid1.Coords) (h : cond1_1 i) : cfg1.idle 4 i = false := by
  show (!(k1_cond2 i == 1#1)) = false
  simp only [Bool.not_eq_false', beq_iff_eq]; exact h

/-- The block is written back at the last step only (the schedule's closed form), so not where the condition fails. -/
theorem noFlush1_4_of (t : Fin cfg1.N) (h : ¬cond1_1 (grid1.coords t)) : (cfg1.win 4).flush t = false := by
  rw [Bool.eq_false_iff]; intro hf; exact h ((hcond1_1 t).mpr ((flush1_4 t).mp hf))

/-- At the points of case FIRST the output is idle and not written back. -/
theorem idleAt1_4_A : ∀ t : Fin cfg1.N, cond1_0 (grid1.coords t) → ¬cond1_1 (grid1.coords t) → cfg1.idle 4 (grid1.coords t) = true :=
  fun t _ h => idle1_4_of_not _ h
theorem noFlush1_4_A : ∀ t : Fin cfg1.N, cond1_0 (grid1.coords t) → ¬cond1_1 (grid1.coords t) → (cfg1.win 4).flush t = false :=
  fun t _ h => noFlush1_4_of t h
/-- At the points of case MID likewise. -/
theorem idleAt1_4_B : ∀ t : Fin cfg1.N, ¬cond1_0 (grid1.coords t) → ¬cond1_1 (grid1.coords t) → cfg1.idle 4 (grid1.coords t) = true :=
  fun t _ h => idle1_4_of_not _ h
theorem noFlush1_4_B : ∀ t : Fin cfg1.N, ¬cond1_0 (grid1.coords t) → ¬cond1_1 (grid1.coords t) → (cfg1.win 4).flush t = false :=
  fun t _ h => noFlush1_4_of t h
/-- At the points of case LAST the output is live: the body stores its block. -/
theorem liveAt1_4_C : ∀ t : Fin cfg1.N, ¬cond1_0 (grid1.coords t) → cond1_1 (grid1.coords t) → cfg1.idle 4 (grid1.coords t) = false :=
  fun t _ h => idle1_4_of _ h

/-! ## The memrefs the body is called on -/

/-- One staging buffer of the output window, through which its contents are stated (the choice does not matter). -/
abbrev VO1_4 : View sig .tc .vmem S512x64 .f32 := (Memref.whole cc1_stg4_0 : Memref sig .tc .vmem S512x64 .f32).view
/-- Each window's current staging memref at point `t`, and its wholeness. -/
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
/-- The accumulator: a whole scoped buffer of the call's own, passed beside the windows. -/
abbrev scM1_0 : Memref sig .tc .vmem S512x64 .f32 := Memref.whole cc1_scratch0
/-- The accumulator as a view: what it holds between points is stated through it. -/
abbrev VS1_0 : View sig .tc .vmem S512x64 .f32 := scM1_0.view

/-! ## The region invariant -/

/-- The core's scoped buffers that belong to the first pallas_call (its six staging buffers and its accumulator), each
    whole at some contents: this call never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- Eight conjuncts and a ninth: the last of the eight set apart from the first seven (associativity of `∗`). -/
theorem regroup8 (B0 B1 B2 B3 B4 B5 B6 B7 G : sProp 𝕄) :
    iprop((B0 ∗ B1 ∗ B2 ∗ B3 ∗ B4 ∗ B5 ∗ B6 ∗ B7) ∗ G) = iprop(((B0 ∗ B1 ∗ B2 ∗ B3 ∗ B4 ∗ B5 ∗ B6) ∗ B7) ∗ G) := by
  have h₁ : iprop((B0 ∗ B1 ∗ B2 ∗ B3 ∗ B4 ∗ B5 ∗ B6 ∗ B7) ∗ G) ⊢ iprop(((B0 ∗ B1 ∗ B2 ∗ B3 ∗ B4 ∗ B5 ∗ B6) ∗ B7) ∗ G) := by
    iintro ⟨⟨H0, H1, H2, H3, H4, H5, H6, H7⟩, Hg⟩
    isplitr [Hg]
    · isplitr [H7]
      · isplitl [H0]; · iexact H0
        isplitl [H1]; · iexact H1
        isplitl [H2]; · iexact H2
        isplitl [H3]; · iexact H3
        isplitl [H4]; · iexact H4
        isplitl [H5]; · iexact H5
        iexact H6
      · iexact H7
    · iexact Hg
  have h₂ : iprop(((B0 ∗ B1 ∗ B2 ∗ B3 ∗ B4 ∗ B5 ∗ B6) ∗ B7) ∗ G) ⊢ iprop((B0 ∗ B1 ∗ B2 ∗ B3 ∗ B4 ∗ B5 ∗ B6 ∗ B7) ∗ G) := by
    iintro ⟨⟨⟨H0, H1, H2, H3, H4, H5, H6⟩, H7⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact Hg
  exact BI.equiv_iff.mp ⟨h₁, h₂⟩

/-- What the launch hands the region: the other call's scoped buffers, the accumulator owned as a memref at some
    contents, and the generator register at some state. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA; rw [scopedRest1_eq]; unfold others1; simp only [scM1_0, owns_whole]
  exact regroup8 _ _ _ _ _ _ _ _ _

end Cert.KernelIdeal.Scatter

end
-- ==== Proof.Scatter.RunFirst.lean ====
import proofs.«403988_j42975442764291_1_alg».proof.Proof.Scatter.Common

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched

variable {F : FTy → Type} [FloatOps F]

local notation "𝕄" => MT nD τ sig Unit (Elt F) ℕ (UR sig nD τ) ℕ

set_option maxHeartbeats 1000000 in
/-- CASE FIRST (the step is 0 and not the last). On whole memrefs — the four inputs' at their contents, the output's at
    contents `xi4` that it hands back untouched, the accumulator's at anything — the body runs to the continuation
    holding the inputs' as they were, the output's as it was and the accumulator's with the pieces `LS0` written: the
    block of zeros, then the sum of that block and the product of the one-hot mask with the data block. The pieces
    are found by running the body. -/
noncomputable def kernelRun1_A (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) :
    Σ' (L4 : List (View.Piece (Elt F) S512x64 .f32)), { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Scatter

end
-- ==== Proof.Scatter.RunMid.lean ====
import proofs.«403988_j42975442764291_1_alg».proof.Proof.Scatter.RunFirst

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched

variable {F : FTy → Type} [FloatOps F]

local notation "𝕄" => MT nD τ sig Unit (Elt F) ℕ (UR sig nD τ) ℕ

set_option maxHeartbeats 1000000 in
/-- CASE MID (the step is neither 0 nor the last). On whole memrefs — the four inputs' at their contents, the output's
    at contents `xi4` that it hands back untouched, the accumulator's at what the step before left, `xs0` — the body
    runs to the continuation holding the inputs' as they were, the output's as it was and the accumulator's with the
    piece `LS0` written: the sum of `xs0` and the product of the one-hot mask with the data block. -/
noncomputable def kernelRun1_B (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) :
    Σ' (L4 : List (View.Piece (Elt F) S512x64 .f32)), { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Scatter

end
-- ==== Proof.Scatter.RunLast.lean ====
import proofs.«403988_j42975442764291_1_alg».proof.Proof.Scatter.RunMid

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched

variable {F : FTy → Type} [FloatOps F]

local notation "𝕄" => MT nD τ sig Unit (Elt F) ℕ (UR sig nD τ) ℕ

set_option maxHeartbeats 1000000 in
/-- CASE LAST (the step is the last and not 0). On whole memrefs — the four inputs' at their contents, the output's at
    anything, the accumulator's at what the step before left, `xs0` — the body runs to the continuation holding the
    inputs' as they were, the accumulator's with the piece `LS0` written (the sum of `xs0` and the product of the
    one-hot mask with the data block) and the output's with the piece `L4` written: the linear layer of the
    accumulator just stored. -/
noncomputable def kernelRun1_C (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) :
    Σ' (L4 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Scatter

end
-- ==== Proof.Scatter.Frame.lean ====
import proofs.«403988_j42975442764291_1_alg».proof.Proof.Scatter.RunLast

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched

variable {F : FTy → Type} [FloatOps F]

local notation "𝕄" => MT nD τ sig Unit (Elt F) ℕ (UR sig nD τ) ℕ

/-! # The second pallas_call: its proof data with the accumulator tracked, and the body obligation

Everything is stated at a parameter `V`: the TensorCore's buffer contents when the call is entered. -/

section Region
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched, the block index has not moved. The four
    input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output's buffer -/

/-- Case FIRST stores nothing into the output (idle there, and not written back): no pieces, a placeholder nothing
    consults. -/
def out1_A_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) : Vec F S512x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case FIRST's pieces for the accumulator cover it: two stores of the whole block. -/
theorem scover1_A_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) (y : S512x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x64.size (by sl_kernel_rfl) y

/-- What case FIRST leaves in the accumulator: its pieces read back. -/
def sout1_A_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) : Vec F S512x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Case MID stores nothing into the output either. -/
def out1_B_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) : Vec F S512x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case MID's piece for the accumulator covers it: one store of the whole block. -/
theorem scover1_B_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) (y : S512x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S512x64.size (by sl_kernel_rfl) y

/-- What case MID leaves in the accumulator. -/
def sout1_B_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) : Vec F S512x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Case LAST's piece for the output covers its block: one store of the whole block. -/
theorem cover1_C_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) (y : S512x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x64.size (by sl_kernel_rfl) y

/-- What case LAST leaves in the output's staging buffer: its piece read back. -/
def out1_C_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) : Vec F S512x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case LAST's piece for the accumulator covers it. -/
theorem scover1_C_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) (y : S512x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x64.size (by sl_kernel_rfl) y

/-- What case LAST leaves in the accumulator. -/
def sout1_C_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) : Vec F S512x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output's buffer and the accumulator hold after each point -/

/-- THE ACCUMULATION. After the body at position `n`: the output's staging buffer (first) and the accumulator (second).
    The step `n % 306` selects the case; cases MID and LAST read the accumulator at what position `n - 1` left, case
    FIRST reads nothing of it. A step that is both 0 and 305 does not exist. -/
def outsAt1 (c : Dev nD) : (n : ℕ) → n < cfg1.N → Vec F S512x64 .f32 × Vec F S512x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 306 = 0 then
      if h1 : (n + 1) % 306 = 305 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 306 = 305 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case FIRST. -/
theorem outsAt1_A (c : Dev nD) (t : Fin cfg1.N) (h0 : t.val % 306 = 0) (h1 : ¬t.val % 306 = 305) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case MID: over what the point before left in the accumulator. -/
theorem outsAt1_B (c : Dev nD) (t : Fin cfg1.N) (h0 : ¬t.val % 306 = 0) (h1 : ¬t.val % 306 = 305) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case LAST: over what the point before left in the accumulator. -/
theorem outsAt1_C (c : Dev nD) (t : Fin cfg1.N) (h0 : ¬t.val % 306 = 0) (h1 : t.val % 306 = 305) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands over (the accumulator at
    anything); afterwards the other call's scoped buffers, the accumulator at what the point before left in it, and the
    generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the call on core `c`: the arrays as the call finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the step `t % 306` says which case the point is in,
    so that case's run applies. The invariant hands the body the accumulator at what the point before left (at anything
    at the very first point) and takes it back at this point's contents, by the cover of the case's pieces; at steps
    other than the last the output's buffer goes back as it came; the other call's buffers, the generator register and
    what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val % 306 = 0
  · by_cases h1 : t.val % 306 = 305
    · exfalso; omega
    · -- FIRST
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 306 = 305
    · -- LAST
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- MID
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 29988 := N_1; omega)

end Region

end Cert.KernelIdeal.Scatter

end
-- ==== Proof.Whole.lean ====
/-
  The program as a whole: eleven stretches run one after the other on the TensorCore — seven stretches of host
  operations (the feature table cast and padded with zero rows, the two index vectors padded with the sentinel node
  and reshaped), the first kernel region, two host operations (the weight transposed, the bias as a row), the second
  kernel region, and the final slice.

  What every unscoped buffer holds at each boundary is a fold from the launch memory (`B0 … B11`): a host stretch
  applies its operations, a kernel region leaves each of its arrays at what the write-backs of its pipeline leave
  (the inputs as entered) and every other buffer untouched. With each region's proof data (its accumulator tracked
  point by point, its body obligation proved at every point), every weakly fair execution terminates with every
  unscoped buffer at the last boundary's contents: in particular the arguments as launched and the result at the
  slice of region 1's output.
-/
import proofs.«403988_j42975442764291_1_alg».proof.Proof.Gen.KernelIdeal.Launch
import proofs.«403988_j42975442764291_1_alg».proof.Proof.Gen.KernelIdeal.Regions
import proofs.«403988_j42975442764291_1_alg».proof.Proof.Fold
import proofs.«403988_j42975442764291_1_alg».proof.Proof.Gather.Frame
import proofs.«403988_j42975442764291_1_alg».proof.Proof.Scatter.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Gather Cert.KernelIdeal.Scatter

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each region and the stretches that follow -/

/-- After region 0: its arrays at what its pipeline leaves, every other buffer as entered. -/
def B8 (c : Dev nD) : Valuation τ sig (Elt F) :=
  Pipeline.withArrays spec0 c (B7 m c) fun w => (dat0 (E7 m) c).arrAt w cfg0.N
theorem B8_arr (c : Dev nD) (w : Fin cfg0.W) :
    B8 m c (Proc.devRef .tc (Pipeline.arrRef spec0 w)) = (dat0 (E7 m) c).arrAt w cfg0.N := by
  unfold B8; exact Pipeline.withArrays_arr spec0 launch0.win.arr_inj c _ _ w
theorem B8_of_ne (c : Dev nD) (b : Ref sig .tc) (hb : ∀ w, Pipeline.arrRef spec0 w ≠ b) :
    B8 m c (Proc.devRef .tc b) = B7 m c (Proc.devRef .tc b) := by
  unfold B8; exact Pipeline.withArrays_of_ne spec0 c _ _ b hb
abbrev E8 : Entry F := fun c b => B8 m c b
theorem hF0 (c : Dev nD) (w : Fin cfg0.W) : (dat0 (E7 m) c).arrAt w cfg0.N = E8 m c (Pipeline.arrRef spec0 w) :=
  (B8_arr m c w).symm
theorem hrest0 (c : Dev nD) : ∀ b, b ∉ Finset.univ.image (Pipeline.arrRef spec0) → E8 m c b = E7 m c b :=
  fun b hb => B8_of_ne m c b fun w e => hb (Finset.mem_image.mpr ⟨w, Finset.mem_univ _, e⟩)

/-- After the host stretch `hostOps1`: region 1's entry. -/
abbrev B9 : Dev nD → Valuation τ sig (Elt F) := fun c => StableHlo.after hostOps1 (B8 m c)
abbrev E9 : Entry F := fun c b => B9 m c b
/-- After region 1. -/
def B10 (c : Dev nD) : Valuation τ sig (Elt F) :=
  Pipeline.withArrays spec1 c (B9 m c) fun w => (dat1 (E9 m) c).arrAt w cfg1.N
theorem B10_arr (c : Dev nD) (w : Fin cfg1.W) :
    B10 m c (Proc.devRef .tc (Pipeline.arrRef spec1 w)) = (dat1 (E9 m) c).arrAt w cfg1.N := by
  unfold B10; exact Pipeline.withArrays_arr spec1 launch1.win.arr_inj c _ _ w
theorem B10_of_ne (c : Dev nD) (b : Ref sig .tc) (hb : ∀ w, Pipeline.arrRef spec1 w ≠ b) :
    B10 m c (Proc.devRef .tc b) = B9 m c (Proc.devRef .tc b) := by
  unfold B10; exact Pipeline.withArrays_of_ne spec1 c _ _ b hb
abbrev E10 : Entry F := fun c b => B10 m c b
theorem hF1 (c : Dev nD) (w : Fin cfg1.W) : (dat1 (E9 m) c).arrAt w cfg1.N = E10 m c (Pipeline.arrRef spec1 w) :=
  (B10_arr m c w).symm
theorem hrest1 (c : Dev nD) : ∀ b, b ∉ Finset.univ.image (Pipeline.arrRef spec1) → E10 m c b = E9 m c b :=
  fun b hb => B10_of_ne m c b fun w e => hb (Finset.mem_image.mpr ⟨w, Finset.mem_univ _, e⟩)

/-- After the final slice: the end. -/
abbrev B11 : Dev nD → Valuation τ sig (Elt F) := fun c => StableHlo.after hostOps2 (B10 m c)

/-! ## A buffer no stretch writes and no region stages ends as launched -/

theorem B11_of_untouched (c : Dev nD) (b : Ref sig .tc)
    (h0 : b ∉ hostOps0_W) (h1 : b ∉ hostOps0_1_W) (h2 : b ∉ hostOps0_2_W) (h3 : b ∉ hostOps0_3_W) (h4 : b ∉ hostOps0_4_W)
    (h5 : b ∉ hostOps0_5_W) (h6 : b ∉ hostOps0_6_W) (h7 : ∀ w, Pipeline.arrRef spec0 w ≠ b) (h8 : b ∉ hostOps1_W)
    (h9 : ∀ w, Pipeline.arrRef spec1 w ≠ b) (h10 : b ∉ hostOps2_W) :
    B11 m c (Proc.devRef .tc b) = m ((c : Thread nD τ).loc b) :=
  (StableHlo.after_of_writes_sub hostOps2 _ hostOps2_writes h10).trans <|
  (B10_of_ne m c b h9).trans <|
  (StableHlo.after_of_writes_sub hostOps1 _ hostOps1_writes h8).trans <|
  (B8_of_ne m c b h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The five arguments end as launched. -/
theorem B11_main_arg0 (c : Dev nD) : B11 m c (Proc.devRef .tc main_arg0) = m ((c : Thread nD τ).loc main_arg0) :=
  B11_of_untouched m c main_arg0 (by decide) (by decide) (by decide) (by decide) (by decide) (by decide) (by decide) (by decide) (by decide) (by decide) (by decide)
theorem B11_main_arg1 (c : Dev nD) : B11 m c (Proc.devRef .tc main_arg1) = m ((c : Thread nD τ).loc main_arg1) :=
  B11_of_untouched m c main_arg1 (by decide) (by decide) (by decide) (by decide) (by decide) (by decide) (by decide) (by decide) (by decide) (by decide) (by decide)
theorem B11_main_arg2 (c : Dev nD) : B11 m c (Proc.devRef .tc main_arg2) = m ((c : Thread nD τ).loc main_arg2) :=
  B11_of_untouched m c main_arg2 (by decide) (by decide) (by decide) (by decide) (by decide) (by decide) (by decide) (by decide) (by decide) (by decide) (by decide)
theorem B11_main_arg3 (c : Dev nD) : B11 m c (Proc.devRef .tc main_arg3) = m ((c : Thread nD τ).loc main_arg3) :=
  B11_of_untouched m c main_arg3 (by decide) (by decide) (by decide) (by decide) (by decide) (by decide) (by decide) (by decide) (by decide) (by decide) (by decide)
theorem B11_main_arg4 (c : Dev nD) : B11 m c (Proc.devRef .tc main_arg4) = m ((c : Thread nD τ).loc main_arg4) :=
  B11_of_untouched m c main_arg4 (by decide) (by decide) (by decide) (by decide) (by decide) (by decide) (by decide) (by decide) (by decide) (by decide) (by decide)

/-! ## The proof data family and the thread state -/

/-- Each pipeline's proof data at its region's entry contents — a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents, the
    generator register at some state. -/
abbrev Tₙ (c : Dev nD) : sProp 𝕄 := iprop(StableHlo.held (c : Thread nD τ) (Pipeline.ucRefs τ sig) (B11 m c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state "every unscoped buffer at the boundary's contents, the generator register at
    some state, nothing owed": its arrays are split out of the unscoped buffers at entry and put back at what the
    pipeline leaves at exit; the generator register and the scoped rest go into the class's invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun w => A_eq0 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E7 m) c)
    unfold Pipeline.ΦA
    iintro ⟨Hp, -, Hr⟩
    isplitl [Hr]; · iexact Hr
    iexact Hp
  hout c := by
    refine BIBase.Entails.trans (hout0 (E7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state "every unscoped buffer at the boundary's contents, the generator register at
    some state, nothing owed": its arrays are split out of the unscoped buffers at entry and put back at what the
    pipeline leaves at exit; the generator register and the scoped rest go into the class's invariant and come back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E9 m) c).loose
  hwaits := Pipeline.hwaits_of_owed_zero _ _ _ _ L lv 1 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun w => A_eq1 (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E9 m) c)
    unfold Pipeline.ΦA
    iintro ⟨Hp, -, Hr⟩
    isplitl [Hr]; · iexact Hr
    iexact Hp
  hout c := by
    refine BIBase.Entails.trans (hout1 (E9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .host (hseg hostOps0_5 hostOps0_5_sub hostOps0_5_fresh (B5 m)),
    .host (hseg hostOps0_6 hostOps0_6_sub hostOps0_6_fresh (B6 m)),
    .region (reg0 m),
    .host (hseg hostOps1 hostOps1_sub hostOps1_fresh (B8 m)),
    .region (reg1 m),
    .host (hseg hostOps2 hostOps2_sub hostOps2_fresh (B10 m)) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (B11 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B11_main_arg0 m c),
     (h c _ (mem_uc main_arg1 (by decide))).trans (B11_main_arg1 m c),
     (h c _ (mem_uc main_arg2 (by decide))).trans (B11_main_arg2 m c),
     (h c _ (mem_uc main_arg3 (by decide))).trans (B11_main_arg3 m c),
     (h c _ (mem_uc main_arg4 (by decide))).trans (B11_main_arg4 m c)⟩) (run_main m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v10) = B11 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v10 (by decide)),
     (h c _ (mem_uc main_arg0 (by decide))).trans (B11_main_arg0 m c),
     (h c _ (mem_uc main_arg1 (by decide))).trans (B11_main_arg1 m c),
     (h c _ (mem_uc main_arg2 (by decide))).trans (B11_main_arg2 m c),
     (h c _ (mem_uc main_arg3 (by decide))).trans (B11_main_arg3 m c),
     (h c _ (mem_uc main_arg4 (by decide))).trans (B11_main_arg4 m c)⟩) (run_main m ρ)
-- ==== Proof.Bits.Fold.lean ====
/-
  What every unscoped buffer of the TensorCore holds before the first kernel region: a fold from the launch memory
  through the seven host stretches that prepare the kernels' operands — the feature table cast and padded with
  176 zero rows, the source and destination words each padded with 3376 copies of the sentinel node 50175 and
  reshaped to a column and to a row.
-/
import proofs.«403988_j42975442764291_1_alg».proof.Proof.Gen.Kernel.Launch

noncomputable section

namespace Cert.Kernel.Whole

open Idealize.ShloMosaic Idealize.ShloMosaic.TcCoe
open Idealize.SL Idealize.SL.Sem
open Cert.Kernel Cert.Kernel.Gen

variable {F : FTy → Type} [FloatOps F]

/-- What a core's TensorCore buffers hold when a region is entered. -/
abbrev Entry (F : FTy → Type) [FloatOps F] : Type :=
  (c : Dev nD) → (b : Ref sig .tc) → Buf (Elt F) ((c : Thread nD τ).loc b)

variable (m : (ℓ : Loc nD τ sig) → Buf (Elt F) ℓ)

/-! ## The buffers' contents at each boundary -/

/-- At launch. -/
abbrev B0 : Dev nD → Valuation τ sig (Elt F) := fun c b => m (c, b)
/-- After the host stretch `hostOps0`. -/
abbrev B1 : Dev nD → Valuation τ sig (Elt F) := fun c => StableHlo.after hostOps0 (B0 m c)
/-- After the host stretch `hostOps0_1`. -/
abbrev B2 : Dev nD → Valuation τ sig (Elt F) := fun c => StableHlo.after hostOps0_1 (B1 m c)
/-- After the host stretch `hostOps0_2`. -/
abbrev B3 : Dev nD → Valuation τ sig (Elt F) := fun c => StableHlo.after hostOps0_2 (B2 m c)
/-- After the host stretch `hostOps0_3`. -/
abbrev B4 : Dev nD → Valuation τ sig (Elt F) := fun c => StableHlo.after hostOps0_3 (B3 m c)
/-- After the host stretch `hostOps0_4`. -/
abbrev B5 : Dev nD → Valuation τ sig (Elt F) := fun c => StableHlo.after hostOps0_4 (B4 m c)
/-- After the host stretch `hostOps0_5`. -/
abbrev B6 : Dev nD → Valuation τ sig (Elt F) := fun c => StableHlo.after hostOps0_5 (B5 m c)
/-- After the host stretch `hostOps0_6`. -/
abbrev B7 : Dev nD → Valuation τ sig (Elt F) := fun c => StableHlo.after hostOps0_6 (B6 m c)
/-- Region 0's entry contents, read at the TensorCore's references. -/
abbrev E7 : Entry F := fun c b => B7 m c b

end Cert.Kernel.Whole

end
-- ==== Proof.Bits.Sched.lean ====
/-
  The schedule of the two kernel regions in closed form.

  Region 0 runs a 306 × 98 grid and region 1 a 98 × 306 grid, row-major, so point `t` has coordinates
  `(t / 98, t % 98)` and `(t / 306, t % 306)`: the second coordinate is the step of the reduction, the first names the
  output block. Everything the kernels' control and the pipeline's copies decide from a point is a function of
  those two numbers: the body resets its accumulator at step `0` and stores its output at the last step, each window's
  block index is one coordinate (or constant), and the output block is written back exactly at the last step of
  its row. All of it by arithmetic on `t / P` and `t % P`; no point of the grids is enumerated.
-/
import proofs.«403988_j42975442764291_1_alg».proof.Proof.Gen.Kernel.Launch

noncomputable section

namespace Cert.Kernel.Sched

open Idealize.ShloMosaic Idealize.ShloMosaic.TcCoe
open Idealize.SL Idealize.SL.Sem
open Cert.Kernel Cert.Kernel.Gen

variable {F : FTy → Type} [FloatOps F]

/-! ## A step word against a literal -/

/-- The kernels test "the step is `L`" as `extui (step == L) ≠ 0`; for a step below `2 ^ 32` that is the equation
    of numbers. -/
theorem step_test (j L : ℕ) (hj : j < 2 ^ 32) (hL : L < 2 ^ 32) :
    (Scalar.cmpi .ne (Scalar.extui (Scalar.cmpi .eq (BitVec.ofNat 32 j) (BitVec.ofNat 32 L))) 0#32) = 1#1 ↔ j = L := by
  have hiff : BitVec.ofNat 32 j = BitVec.ofNat 32 L ↔ j = L := by
    constructor
    · intro h
      have := congrArg BitVec.toNat h
      rwa [BitVec.toNat_ofNat, BitVec.toNat_ofNat, Nat.mod_eq_of_lt hj, Nat.mod_eq_of_lt hL] at this
    · intro h; rw [h]
  by_cases h : j = L
  · subst h
    simp only [iff_true]
    simp [Scalar.cmpi, Scalar.extui, IntOp.cmpi]
  · have hb : (BitVec.ofNat 32 j == BitVec.ofNat 32 L) = false := beq_eq_false_iff_ne.mpr fun e => h (hiff.mp e)
    simp only [h, iff_false]
    simp only [Scalar.cmpi, Scalar.extui, IntOp.cmpi, hb]
    decide

/-! ## Region 0: the 306 × 98 grid -/

theorem stride0_0 : grid0.stride 0 = 98 := by decide
theorem stride0_1 : grid0.stride 1 = 1 := by decide

/-- The first coordinate of point `t` is `t / 98`: the output block's row. -/
theorem coords0_0 (t : Fin grid0.N) : (grid0.coords t 0).val = t.val / 98 := by
  have hN : t.val < 29988 := lt_of_lt_of_eq t.isLt N_0
  show t.val / grid0.stride 0 % 306 = _
  rw [stride0_0]; omega

/-- The second coordinate of point `t` is `t % 98`: the step of the reduction. -/
theorem coords0_1 (t : Fin grid0.N) : (grid0.coords t 1).val = t.val % 98 := by
  show t.val / grid0.stride 1 % 98 = _
  rw [stride0_1, Nat.div_one]

/-- The body's first branch: the step is `0`. -/
abbrev cond0_0 (i : grid0.Coords) : Prop := (Scalar.cmpi .ne (Scalar.extui (Scalar.cmpi .eq (BitVec.ofNat 32 (i 1).val) 0#32)) 0#32) = 1#1
/-- The body's second branch: the step is the last, `97`. -/
abbrev cond0_1 (i : grid0.Coords) : Prop := k0_cond2 i = 1#1

theorem hcond0_0 (t : Fin cfg0.N) : cond0_0 (grid0.coords t) ↔ t.val % 98 = 0 := by
  have h := step_test (grid0.coords t 1).val 0 (lt_trans (grid0.coords t 1).isLt (by decide)) (by decide)
  show (Scalar.cmpi .ne (Scalar.extui (Scalar.cmpi .eq (BitVec.ofNat 32 (grid0.coords t 1).val) 0#32)) 0#32) = 1#1 ↔ _
  rw [coords0_1] at h ⊢
  exact h

theorem hcond0_1 (t : Fin cfg0.N) : cond0_1 (grid0.coords t) ↔ t.val % 98 = 97 := by
  have h := step_test (grid0.coords t 1).val 97 (lt_trans (grid0.coords t 1).isLt (by decide)) (by decide)
  show k0_cond2 (grid0.coords t) = 1#1 ↔ _
  unfold k0_cond2
  rw [coords0_1] at h ⊢
  exact h

/-- Each window's block index at point `t`: the source-word column and the output follow the row `t / 98`, the
    feature block follows the step `t % 98`. -/
theorem index0_0 (t : Fin grid0.N) : win0_0.index t = ![t.val / 98, 0] := by
  have hN : t.val < 29988 := lt_of_lt_of_eq t.isLt N_0
  show cc0_transform_0 (grid0.coords t) = _
  unfold cc0_transform_0
  have h0 : (BitVec.ofNat 32 (grid0.coords t 0).val).toNat = t.val / 98 := by
    rw [BitVec.toNat_ofNat, coords0_0]; omega
  simp only [h0]; rfl
theorem index0_1 (t : Fin grid0.N) : win0_1.index t = ![t.val % 98, 0] := by
  show cc0_transform_1 (grid0.coords t) = _
  unfold cc0_transform_1
  have h0 : (BitVec.ofNat 32 (grid0.coords t 1).val).toNat = t.val % 98 := by
    rw [BitVec.toNat_ofNat, coords0_1]; omega
  simp only [h0]; rfl
theorem index0_2 (t : Fin grid0.N) : win0_2.index t = ![t.val / 98, 0] := by
  have hN : t.val < 29988 := lt_of_lt_of_eq t.isLt N_0
  show cc0_transform_2 (grid0.coords t) = _
  unfold cc0_transform_2
  have h0 : (BitVec.ofNat 32 (grid0.coords t 0).val).toNat = t.val / 98 := by
    rw [BitVec.toNat_ofNat, coords0_0]; omega
  simp only [h0]; rfl

/-- The output block is written back exactly at the last step of its row. -/
theorem flush0_2 (t : Fin cfg0.N) : (cfg0.win 2).flush t = true ↔ t.val % 98 = 97 := by
  have hN : t.val < 29988 := lt_of_lt_of_eq t.isLt N_0
  show win0_2.flush t = true ↔ _
  unfold Pipeline.Window.flush
  rw [show win0_2.isOut = true from rfl, Bool.true_and, Bool.or_eq_true, decide_eq_true_iff, decide_eq_true_iff]
  constructor
  · rintro (h | ⟨h, hne⟩)
    · have hNeq : grid0.N = 29988 := N_0
      omega
    · rw [index0_2, index0_2] at hne
      by_contra hc
      apply hne
      have e : (t.val + 1) / 98 = t.val / 98 := by omega
      show ![(t.val + 1) / 98, 0] = _
      rw [e]
  · intro h
    by_cases hl : t.val + 1 = grid0.N
    · exact Or.inl hl
    · have hNeq : grid0.N = 29988 := N_0
      refine Or.inr ⟨by omega, ?_⟩
      rw [index0_2, index0_2]
      intro heq
      have h0 := congrFun heq 0
      have h0' : (t.val + 1) / 98 = t.val / 98 := h0
      omega

/-- The kernel body at point `t`, on the staging memrefs the pipeline calls it with and on its scratch. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

/-! ## Region 1: the 98 × 306 grid -/

theorem stride1_0 : grid1.stride 0 = 306 := by decide
theorem stride1_1 : grid1.stride 1 = 1 := by decide

/-- The first coordinate of point `t` is `t / 306`: the output block's row of nodes. -/
theorem coords1_0 (t : Fin grid1.N) : (grid1.coords t 0).val = t.val / 306 := by
  have hN : t.val < 29988 := lt_of_lt_of_eq t.isLt N_1
  show t.val / grid1.stride 0 % 98 = _
  rw [stride1_0]; omega

/-- The second coordinate of point `t` is `t % 306`: the step of the reduction over edge blocks. -/
theorem coords1_1 (t : Fin grid1.N) : (grid1.coords t 1).val = t.val % 306 := by
  show t.val / grid1.stride 1 % 306 = _
  rw [stride1_1, Nat.div_one]

/-- The body's first branch: the step is `0`. -/
abbrev cond1_0 (i : grid1.Coords) : Prop := (Scalar.cmpi .ne (Scalar.extui (Scalar.cmpi .eq (BitVec.ofNat 32 (i 1).val) 0#32)) 0#32) = 1#1
/-- The body's second branch: the step is the last, `305`. -/
abbrev cond1_1 (i : grid1.Coords) : Prop := k1_cond2 i = 1#1

theorem hcond1_0 (t : Fin cfg1.N) : cond1_0 (grid1.coords t) ↔ t.val % 306 = 0 := by
  have h := step_test (grid1.coords t 1).val 0 (lt_trans (grid1.coords t 1).isLt (by decide)) (by decide)
  show (Scalar.cmpi .ne (Scalar.extui (Scalar.cmpi .eq (BitVec.ofNat 32 (grid1.coords t 1).val) 0#32)) 0#32) = 1#1 ↔ _
  rw [coords1_1] at h ⊢
  exact h

theorem hcond1_1 (t : Fin cfg1.N) : cond1_1 (grid1.coords t) ↔ t.val % 306 = 305 := by
  have h := step_test (grid1.coords t 1).val 305 (lt_trans (grid1.coords t 1).isLt (by decide)) (by decide)
  show k1_cond2 (grid1.coords t) = 1#1 ↔ _
  unfold k1_cond2
  rw [coords1_1] at h ⊢
  exact h

/-- Each window's block index at point `t`: the destination words and the messages follow the step `t % 306`,
    the two parameters of the linear layer are one block, the output follows the row `t / 306`. -/
theorem index1_0 (t : Fin grid1.N) : win1_0.index t = ![0, t.val % 306] := by
  show cc1_transform_0 (grid1.coords t) = _
  unfold cc1_transform_0
  have h0 : (BitVec.ofNat 32 (grid1.coords t 1).val).toNat = t.val % 306 := by
    rw [BitVec.toNat_ofNat, coords1_1]; omega
  simp only [h0]; rfl
theorem index1_1 (t : Fin grid1.N) : win1_1.index t = ![t.val % 306, 0] := by
  show cc1_transform_1 (grid1.coords t) = _
  unfold cc1_transform_1
  have h0 : (BitVec.ofNat 32 (grid1.coords t 1).val).toNat = t.val % 306 := by
    rw [BitVec.toNat_ofNat, coords1_1]; omega
  simp only [h0]; rfl
theorem index1_2 (t : Fin grid1.N) : win1_2.index t = ![0, 0] := rfl
theorem index1_3 (t : Fin grid1.N) : win1_3.index t = ![0, 0] := rfl
theorem index1_4 (t : Fin grid1.N) : win1_4.index t = ![t.val / 306, 0] := by
  have hN : t.val < 29988 := lt_of_lt_of_eq t.isLt N_1
  show cc1_transform_4 (grid1.coords t) = _
  unfold cc1_transform_4
  have h0 : (BitVec.ofNat 32 (grid1.coords t 0).val).toNat = t.val / 306 := by
    rw [BitVec.toNat_ofNat, coords1_0]; omega
  simp only [h0]; rfl

/-- The output block is written back exactly at the last step of its row. -/
theorem flush1_4 (t : Fin cfg1.N) : (cfg1.win 4).flush t = true ↔ t.val % 306 = 305 := by
  have hN : t.val < 29988 := lt_of_lt_of_eq t.isLt N_1
  show win1_4.flush t = true ↔ _
  unfold Pipeline.Window.flush
  rw [show win1_4.isOut = true from rfl, Bool.true_and, Bool.or_eq_true, decide_eq_true_iff, decide_eq_true_iff]
  constructor
  · rintro (h | ⟨h, hne⟩)
    · have hNeq : grid1.N = 29988 := N_1
      omega
    · rw [index1_4, index1_4] at hne
      by_contra hc
      apply hne
      have e : (t.val + 1) / 306 = t.val / 306 := by omega
      show ![(t.val + 1) / 306, 0] = _
      rw [e]
  · intro h
    by_cases hl : t.val + 1 = grid1.N
    · exact Or.inl hl
    · have hNeq : grid1.N = 29988 := N_1
      refine Or.inr ⟨by omega, ?_⟩
      rw [index1_4, index1_4]
      intro heq
      have h0 := congrFun heq 0
      have h0' : (t.val + 1) / 306 = t.val / 306 := h0
      omega

/-- The kernel body at point `t`, on the staging memrefs the pipeline calls it with and on its scratch. -/
abbrev bodyAt1 (t : Fin cfg1.N) : Prog (TpuEff nD τ sig (Elt F) Λ₀ .tc) PUnit :=
  cc1__scatter_linear_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _)

end Cert.Kernel.Sched

end
-- ==== Proof.Bits.Gather.Common.lean ====
/-
  Region 0 (the gather call): what its three control cases share.

  The body, at a grid point `(row, step)` of the 306 × 98 grid: at step 0 it overwrites its accumulator with zeros; at
  every step it adds to the accumulator the product of a one-hot mask (built from the row's index column and the
  step's node numbers) with the step's feature block; at step 97 it rounds the accumulator into the output block. Below:
  at which coordinates the output window is idle (a consequence of the last-step test alone), the operands the body is
  called with at a point, and the region's invariant with the accumulator singled out.
-/
import proofs.«403988_j42975442764291_1_alg».proof.Proof.Gen.Kernel.Launch
import proofs.«403988_j42975442764291_1_alg».proof.Proof.Gen.Kernel.Skeleton
import proofs.«403988_j42975442764291_1_alg».proof.Proof.Bits.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Sched

/-! ## Where the windows are idle

The output window's idleness is, by definition, the negation of the last-step test; so both facts below hold at ANY
coordinates, from the test alone, and no grid point is enumerated. -/

/-- Window 0 (the index column) is an input: never idle. -/
theorem liveAt0_0 (i : grid0.Coords) : cfg0.idle 0 i = false := rfl
/-- Window 1 (the feature block) is an input: never idle. -/
theorem liveAt0_1 (i : grid0.Coords) : cfg0.idle 1 i = false := rfl
/-- Off the last reduction step the output window is idle: the body stores nothing into it. -/
theorem idleAt0_2 (i : grid0.Coords) (h : ¬cond0_1 i) : cfg0.idle 2 i = true := by
  show (!(k0_cond2 i == 1#1)) = true
  simp only [Bool.not_eq_true', beq_eq_false_iff_ne, ne_eq]; exact h
/-- At the last reduction step the output window is live: the body stores its whole block. -/
theorem liveAt0_2 (i : grid0.Coords) (h : cond0_1 i) : cfg0.idle 2 i = false := by
  show (!(k0_cond2 i == 1#1)) = false
  simp only [Bool.not_eq_false', beq_iff_eq]; exact h
/-- Off the last reduction step the output block is not written back. -/
theorem noFlush0_2 (t : Fin cfg0.N) (h : ¬cond0_1 (grid0.coords t)) : (cfg0.win 2).flush t = false := by
  rw [← Bool.not_eq_true]
  exact fun hf => h ((hcond0_1 t).mpr ((flush0_2 t).mp hf))

/-! ## The body's operands at a point -/

/-- One staging buffer of the output window, through which its contents are stated (a cover's read-back does not
    depend on the choice). -/
abbrev VO0_2 : View sig .tc .vmem S4096x64 .bf16 := (Memref.whole cc0_stg2_0 : Memref sig .tc .vmem S4096x64 .bf16).view
/-- Each window's current staging memref at point `t`, and its wholeness. -/
abbrev ms0_0 (t : Fin cfg0.N) : Memref sig .tc .vmem S4096x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S4096x64 .f32 := Memref.whole cc0_scratch0
/-- The accumulator as a view: what it holds between points is stated through it. -/
abbrev VS0_0 : View sig .tc .vmem S4096x64 .f32 := scM0_0.view

/-- The core's scoped buffers this region never touches (the other pallas_call's staging buffers and accumulator), each
    whole at some contents: carried through the region unread. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant as the launch hands it over: the accumulator as a memref owned at some contents, the
    untouched scoped buffers, and the generator register at some state. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; unfold rest0; simp only [scM0_0, owns_whole]; try rfl

end Cert.Kernel.Gather

end
-- ==== Proof.Bits.Gather.RunFirst.lean ====
/-
  Region 0, the FIRST reduction step of a row: the body's triple. The accumulator is overwritten with zeros and then
  receives the step's one-hot product; the output block is not touched.
-/
import proofs.«403988_j42975442764291_1_alg».proof.Proof.Bits.Gather.Common

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Sched

set_option maxHeartbeats 1000000 in
/-- FIRST reduction step (the step test holds, the last-step test does not). The pieces the body's stores leave — none in
    the output block `L2`; in the accumulator `LS0` the zero block, then the zero block plus this step's one-hot product —
    WITH the triple: on whole memrefs, the index column at `x0`, the feature block at `x1`, the output block at any `xi2`
    (handed back untouched) and the accumulator at ANYTHING (it is loaded only for a value nothing reads, then overwritten
    whole), the body runs to the continuation holding the inputs and the output block as they were and the accumulator
    with its pieces written. -/
noncomputable def kernelRun0_A (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) :
    Σ' (L2 : List (View.Piece (Elt F) S4096x64 .bf16)), { LS0 : List (View.Piece (Elt F) S4096x64 .f32) //
      ∀ (xi2 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gather

end
-- ==== Proof.Bits.Gather.RunMid.lean ====
/-
  Region 0, a MIDDLE reduction step of a row: the body's triple. The accumulator, at what the step before left, receives
  the step's one-hot product; the output block is not touched.
-/
import proofs.«403988_j42975442764291_1_alg».proof.Proof.Bits.Gather.RunFirst

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Sched

set_option maxHeartbeats 1000000 in
/-- A MIDDLE reduction step (neither test holds). The pieces the body's stores leave — none in the output block `L2`; in
    the accumulator `LS0` what it held plus this step's one-hot product — WITH the triple: on whole memrefs, the index
    column at `x0`, the feature block at `x1`, the output block at any `xi2` (handed back untouched) and the
    accumulator at what the step before left, `xs0`, the body runs to the continuation holding the inputs and the
    output block as they were and the accumulator with its pieces written. -/
noncomputable def kernelRun0_B (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) :
    Σ' (L2 : List (View.Piece (Elt F) S4096x64 .bf16)), { LS0 : List (View.Piece (Elt F) S4096x64 .f32) //
      ∀ (xi2 : Vec F S4096x64 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Gather

end
-- ==== Proof.Bits.Gather.RunLast.lean ====
/-
  Region 0, the LAST reduction step of a row: the body's triple. The accumulator, at what the step before left, receives
  the step's one-hot product and is then rounded into the output block, which is overwritten whole.
-/
import proofs.«403988_j42975442764291_1_alg».proof.Proof.Bits.Gather.RunMid

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Sched

set_option maxHeartbeats 1000000 in
/-- The LAST reduction step (the last-step test holds, the step test does not). The pieces the body's stores leave — in the
    accumulator `LS0` what it held plus this step's one-hot product; in the output block `L2` the rounded accumulator —
    WITH the triple: on whole memrefs, the index column at `x0`, the feature block at `x1`, the output block at ANYTHING
    (it is loaded only for a value nothing reads, then overwritten whole) and the accumulator at what the step before left,
    `xs0`, the body runs to the continuation holding the inputs as they were and the output block and the accumulator
    with their pieces written. -/
noncomputable def kernelRun0_C (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) :
    Σ' (L2 : List (View.Piece (Elt F) S4096x64 .bf16)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Gather

end
-- ==== Proof.Bits.Gather.Frame.lean ====
/-
  Region 0 (the gather call): the pipeline's proof data with the accumulator tracked between grid points, and the body
  obligation.

  The grid is 306 rows of 98 reduction steps, run row-major, so position `n` is step `n % 98` of row `n / 98`. The
  accumulator is overwritten at step 0 and grows by one one-hot product per step; the output block is stored once, at
  step 97, from the accumulator. `outsAt0` names, by recursion on the position, what the output window's buffer and the
  accumulator hold after each point; the region invariant carries the accumulator at that value from a point to the
  next; everything is stated at a parameter `V`, the TensorCore's buffer contents when the region is entered.
-/
import proofs.«403988_j42975442764291_1_alg».proof.Proof.Bits.Gather.RunLast

set_option maxRecDepth 16384

noncomputable section

namespace Cert.Kernel.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

open Cert.Kernel.Sched

/-! ## What each case leaves in the output block and in the accumulator -/

/-- The FIRST step stores nothing into the output block (the window is idle there and not written back): no pieces — a
    placeholder that nothing consults. -/
def out0_A_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) : Vec F S4096x64 .bf16 :=
  VO0_2.read (Elt F) (VO0_2.writes (Elt F) VO0_2.junk (kernelRun0_A c i arg2 harg2 arg3 harg3 arg4 harg4 arg5 harg5 hc0 hc1 x0 x1).1)

/-- The FIRST step's pieces for the accumulator (the zero block, then the sum) cover it: each is the whole block. -/
theorem scover0_A_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) (y : S4096x64.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4096x64.size (by sl_kernel_rfl) y

/-- What the FIRST step leaves in the accumulator: its pieces read back. -/
def sout0_A_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) : Vec F S4096x64 .f32 :=
  VS0_0.read (Elt F) (VS0_0.writes (Elt F) VS0_0.junk (kernelRun0_A c i arg2 harg2 arg3 harg3 arg4 harg4 arg5 harg5 hc0 hc1 x0 x1).2.1)

/-- A MIDDLE step stores nothing into the output block: no pieces — a placeholder that nothing consults. -/
def out0_B_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) : Vec F S4096x64 .bf16 :=
  VO0_2.read (Elt F) (VO0_2.writes (Elt F) VO0_2.junk (kernelRun0_B c i arg2 harg2 arg3 harg3 arg4 harg4 arg5 harg5 hc0 hc1 x0 x1 xs0).1)

/-- A MIDDLE step's one piece for the accumulator (the sum) covers it: it is the whole block. -/
theorem scover0_B_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) (y : S4096x64.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4096x64.size (by sl_kernel_rfl) y

/-- What a MIDDLE step leaves in the accumulator: its piece read back. -/
def sout0_B_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) : Vec F S4096x64 .f32 :=
  VS0_0.read (Elt F) (VS0_0.writes (Elt F) VS0_0.junk (kernelRun0_B c i arg2 harg2 arg3 harg3 arg4 harg4 arg5 harg5 hc0 hc1 x0 x1 xs0).2.1)

/-- The LAST step's one piece for the output block (the rounded accumulator) covers it: it is the whole block. -/
theorem cover0_C_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) (y : S4096x64.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4096x64.size (by sl_kernel_rfl) y

/-- What the LAST step leaves in the output block: its piece read back. -/
def out0_C_2 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) : Vec F S4096x64 .bf16 :=
  VO0_2.read (Elt F) (VO0_2.writes (Elt F) VO0_2.junk (kernelRun0_C c i arg2 harg2 arg3 harg3 arg4 harg4 arg5 harg5 hc0 hc1 x0 x1 xs0).1)

/-- The LAST step's one piece for the accumulator (the sum) covers it. -/
theorem scover0_C_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) (y : S4096x64.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4096x64.size (by sl_kernel_rfl) y

/-- What the LAST step leaves in the accumulator: its piece read back. -/
def sout0_C_0 (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) : Vec F S4096x64 .f32 :=
  VS0_0.read (Elt F) (VS0_0.writes (Elt F) VS0_0.junk (kernelRun0_C c i arg2 harg2 arg3 harg3 arg4 harg4 arg5 harg5 hc0 hc1 x0 x1 xs0).2.1)

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The index column's current staging buffer holds its block at every point — fetched there (the first step of a row) or
    not (the block index, the row, has not moved) — for any proof data whose array is the entry contents and whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the feature block, fetched at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the accumulator hold after each point -/

/-- THE ACCUMULATION. What the output window's staging buffer and the accumulator hold after the body at position `n` (a
    pair, in that order): the case the step `n % 98` selects, run at the point's memrefs and input blocks; a MIDDLE or LAST
    step over what the accumulator held after position `n - 1`, the FIRST step of a row over nothing (it overwrites).
    Step `0` and step `97` at once is no case. -/
def outsAt0 (c : Dev nD) : (n : ℕ) → n < cfg0.N → Vec F S4096x64 .bf16 × Vec F S4096x64 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 98 = 0 then
      if h1 : (n + 1) % 98 = 97 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 98 = 97 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a FIRST step: that case's contents. -/
theorem outsAt0_A (c : Dev nD) (t : Fin cfg0.N) (h0 : t.val % 98 = 0) (h1 : ¬t.val % 98 = 97) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a MIDDLE step: that case's contents, over what the point before left in the accumulator. -/
theorem outsAt0_B (c : Dev nD) (t : Fin cfg0.N) (h0 : ¬t.val % 98 = 0) (h1 : ¬t.val % 98 = 97) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a LAST step: that case's contents, over what the point before left in the accumulator. -/
theorem outsAt0_C (c : Dev nD) (t : Fin cfg0.N) (h0 : ¬t.val % 98 = 0) (h1 : t.val % 98 = 97) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the accumulator at what the point before left in it, the untouched scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the gather pipeline on core `c`: the arrays as the region finds them; after the body at point `t`
    each input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' memrefs hold their blocks; the step `t % 98` says which case the point is in; the
    invariant hands the body the accumulator at what the point before left (at anything before the first point — and the
    FIRST step of a later row takes it at anything too, since it overwrites) and takes it back at this point's contents,
    the read-back of a cover; off the last step the output window is idle and not written back, so its buffer is handed
    back as found; at the last step it is left at the read-back of its cover; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 29988 := lt_of_lt_of_eq t.isLt (show cfg0.N = 29988 from N_0)
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 (grid0.coords t)], after0_0]
      rw [show (dat0 V c).leavesExact 1 t = owns (c : Thread nD τ) (ms0_1 t) fullShare ((dat0 V c).after 1 t) from by
        unfold Dat.leavesExact; rw [liveAt0_1 (grid0.coords t)], after0_1]
      rw [Dat.leavesExact_idle (dat0 V c) 2 t (idleAt0_2 _ (fun h => h1 ((hcond0_1 t).mp h))) (noFlush0_2 t (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, HR⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _)
            iexact HR
          iexact Hg
        isplitl [Ho]; · iexact Ho
        isplitl [H0]; · iexact H0
        isplitl [H1]; · iexact H1
        iexists _; iexact H2
  · have hz : t.val ≠ 0 := fun e => h0 (by rw [e])
    by_cases h1 : t.val % 98 = 97
    · rw [show (dat0 V c).leavesExact 0 t = owns (c : Thread nD τ) (ms0_0 t) fullShare ((dat0 V c).after 0 t) from by
        unfold Dat.leavesExact; rw [liveAt0_0 (grid0.coords t)], after0_0]
      rw [show (dat0 V c).leavesExact 1 t = owns (c : Thread nD τ) (ms0_1 t) fullShare ((dat0 V c).after 1 t) from by
        unfold Dat.leavesExact; rw [liveAt0_1 (grid0.coords t)], after0_1]
      rw [show (dat0 V c).leavesExact 2 t = owns (c : Thread nD τ) (ms0_2 t) fullShare ((dat0 V c).after 2 t) from by
        unfold Dat.leavesExact; rw [liveAt0_2 _ ((hcond0_1 t).mpr h1)], after0_2]
      rw [outsAt0_C V c t h0 h1]
      unfold out0_C_2 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 (grid0.coords t)], after0_0]
      rw [show (dat0 V c).leavesExact 1 t = owns (c : Thread nD τ) (ms0_1 t) fullShare ((dat0 V c).after 1 t) from by
        unfold Dat.leavesExact; rw [liveAt0_1 (grid0.coords t)], after0_1]
      rw [Dat.leavesExact_idle (dat0 V c) 2 t (idleAt0_2 _ (fun h => h1 ((hcond0_1 t).mp h))) (noFlush0_2 t (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but none the invariant gives the launch's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 29988 := N_0; omega)

end Region

end Cert.Kernel.Gather

end
-- ==== Proof.Bits.Scatter.Common.lean ====
import proofs.«403988_j42975442764291_1_alg».proof.Proof.Gen.Kernel.Launch
import proofs.«403988_j42975442764291_1_alg».proof.Proof.Gen.Kernel.Skeleton
import proofs.«403988_j42975442764291_1_alg».proof.Proof.Bits.Sched
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Sched

variable {F : FTy → Type} [FloatOps F]

local notation "𝕄" => MT nD τ sig Unit (Elt F) ℕ (UR sig nD τ) ℕ

/-! # The second pallas_call (the scatter and the linear layer): what its three control cases share

The grid is 98 × 306, run row-major; the second coordinate is the reduction step. The body zeroes its accumulator at
step 0, adds one product of a one-hot mask and a data block at every step, and at step 305 writes the linear layer of
the accumulator into the output block. So a point is FIRST (step 0), LAST (step 305) or MID (neither). -/

/-! ## Where the windows are idle -/

/-- The four input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- The output window is idle exactly where the last-step condition fails: the configuration's table is the negation
    of that condition, at any coordinates. -/
theorem idle1_4_of_not (i : grid1.Coords) (h : ¬cond1_1 i) : cfg1.idle 4 i = true := by
  show (!(k1_cond2 i == 1#1)) = true
  simp only [Bool.not_eq_true', beq_eq_false_iff_ne, ne_eq]; exact h
theorem idle1_4_of (i : grid1.Coords) (h : cond1_1 i) : cfg1.idle 4 i = false := by
  show (!(k1_cond2 i == 1#1)) = false
  simp only [Bool.not_eq_false', beq_iff_eq]; exact h

/-- The block is written back at the last step only (the schedule's closed form), so not where the condition fails. -/
theorem noFlush1_4_of (t : Fin cfg1.N) (h : ¬cond1_1 (grid1.coords t)) : (cfg1.win 4).flush t = false := by
  rw [Bool.eq_false_iff]; intro hf; exact h ((hcond1_1 t).mpr ((flush1_4 t).mp hf))

/-- At the points of case FIRST the output is idle and not written back. -/
theorem idleAt1_4_A : ∀ t : Fin cfg1.N, cond1_0 (grid1.coords t) → ¬cond1_1 (grid1.coords t) → cfg1.idle 4 (grid1.coords t) = true :=
  fun t _ h => idle1_4_of_not _ h
theorem noFlush1_4_A : ∀ t : Fin cfg1.N, cond1_0 (grid1.coords t) → ¬cond1_1 (grid1.coords t) → (cfg1.win 4).flush t = false :=
  fun t _ h => noFlush1_4_of t h
/-- At the points of case MID likewise. -/
theorem idleAt1_4_B : ∀ t : Fin cfg1.N, ¬cond1_0 (grid1.coords t) → ¬cond1_1 (grid1.coords t) → cfg1.idle 4 (grid1.coords t) = true :=
  fun t _ h => idle1_4_of_not _ h
theorem noFlush1_4_B : ∀ t : Fin cfg1.N, ¬cond1_0 (grid1.coords t) → ¬cond1_1 (grid1.coords t) → (cfg1.win 4).flush t = false :=
  fun t _ h => noFlush1_4_of t h
/-- At the points of case LAST the output is live: the body stores its block. -/
theorem liveAt1_4_C : ∀ t : Fin cfg1.N, ¬cond1_0 (grid1.coords t) → cond1_1 (grid1.coords t) → cfg1.idle 4 (grid1.coords t) = false :=
  fun t _ h => idle1_4_of _ h

/-! ## The memrefs the body is called on -/

/-- One staging buffer of the output window, through which its contents are stated (the choice does not matter). -/
abbrev VO1_4 : View sig .tc .vmem S512x64 .f32 := (Memref.whole cc1_stg4_0 : Memref sig .tc .vmem S512x64 .f32).view
/-- Each window's current staging memref at point `t`, and its wholeness. -/
abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x64 .f32 := win1_4.stage (cfg1.slots t 4)
abbrev hs1_4 (t : Fin cfg1.N) : (ms1_4 t).IsWhole := hstage1_4 ((cfg1.slots t 4).cast nbuf1_4)
/-- The accumulator: a whole scoped buffer of the call's own, passed beside the windows. -/
abbrev scM1_0 : Memref sig .tc .vmem S512x64 .f32 := Memref.whole cc1_scratch0
/-- The accumulator as a view: what it holds between points is stated through it. -/
abbrev VS1_0 : View sig .tc .vmem S512x64 .f32 := scM1_0.view

/-! ## The region invariant -/

/-- The core's scoped buffers that belong to the first pallas_call (its six staging buffers and its accumulator), each
    whole at some contents: this call never touches them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- Eight conjuncts and a ninth: the last of the eight set apart from the first seven (associativity of `∗`). -/
theorem regroup8 (B0 B1 B2 B3 B4 B5 B6 B7 G : sProp 𝕄) :
    iprop((B0 ∗ B1 ∗ B2 ∗ B3 ∗ B4 ∗ B5 ∗ B6 ∗ B7) ∗ G) = iprop(((B0 ∗ B1 ∗ B2 ∗ B3 ∗ B4 ∗ B5 ∗ B6) ∗ B7) ∗ G) := by
  have h₁ : iprop((B0 ∗ B1 ∗ B2 ∗ B3 ∗ B4 ∗ B5 ∗ B6 ∗ B7) ∗ G) ⊢ iprop(((B0 ∗ B1 ∗ B2 ∗ B3 ∗ B4 ∗ B5 ∗ B6) ∗ B7) ∗ G) := by
    iintro ⟨⟨H0, H1, H2, H3, H4, H5, H6, H7⟩, Hg⟩
    isplitr [Hg]
    · isplitr [H7]
      · isplitl [H0]; · iexact H0
        isplitl [H1]; · iexact H1
        isplitl [H2]; · iexact H2
        isplitl [H3]; · iexact H3
        isplitl [H4]; · iexact H4
        isplitl [H5]; · iexact H5
        iexact H6
      · iexact H7
    · iexact Hg
  have h₂ : iprop(((B0 ∗ B1 ∗ B2 ∗ B3 ∗ B4 ∗ B5 ∗ B6) ∗ B7) ∗ G) ⊢ iprop((B0 ∗ B1 ∗ B2 ∗ B3 ∗ B4 ∗ B5 ∗ B6 ∗ B7) ∗ G) := by
    iintro ⟨⟨⟨H0, H1, H2, H3, H4, H5, H6⟩, H7⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact Hg
  exact BI.equiv_iff.mp ⟨h₁, h₂⟩

/-- What the launch hands the region: the other call's scoped buffers, the accumulator owned as a memref at some
    contents, and the generator register at some state. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA; rw [scopedRest1_eq]; unfold others1; simp only [scM1_0, owns_whole]
  exact regroup8 _ _ _ _ _ _ _ _ _

end Cert.Kernel.Scatter

end
-- ==== Proof.Bits.Scatter.RunFirst.lean ====
import proofs.«403988_j42975442764291_1_alg».proof.Proof.Bits.Scatter.Common

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Sched

variable {F : FTy → Type} [FloatOps F]

local notation "𝕄" => MT nD τ sig Unit (Elt F) ℕ (UR sig nD τ) ℕ

set_option maxHeartbeats 1000000 in
/-- CASE FIRST (the step is 0 and not the last). On whole memrefs — the four inputs' at their contents, the output's at
    contents `xi4` that it hands back untouched, the accumulator's at anything — the body runs to the continuation
    holding the inputs' as they were, the output's as it was and the accumulator's with the pieces `LS0` written: the
    block of zeros, then the sum of that block and the product of the one-hot mask with the data block. The pieces
    are found by running the body. -/
noncomputable def kernelRun1_A (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) :
    Σ' (L4 : List (View.Piece (Elt F) S512x64 .f32)), { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Scatter

end
-- ==== Proof.Bits.Scatter.RunMid.lean ====
import proofs.«403988_j42975442764291_1_alg».proof.Proof.Bits.Scatter.RunFirst

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Sched

variable {F : FTy → Type} [FloatOps F]

local notation "𝕄" => MT nD τ sig Unit (Elt F) ℕ (UR sig nD τ) ℕ

set_option maxHeartbeats 1000000 in
/-- CASE MID (the step is neither 0 nor the last). On whole memrefs — the four inputs' at their contents, the output's
    at contents `xi4` that it hands back untouched, the accumulator's at what the step before left, `xs0` — the body
    runs to the continuation holding the inputs' as they were, the output's as it was and the accumulator's with the
    piece `LS0` written: the sum of `xs0` and the product of the one-hot mask with the data block. -/
noncomputable def kernelRun1_B (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) :
    Σ' (L4 : List (View.Piece (Elt F) S512x64 .f32)), { LS0 : List (View.Piece (Elt F) S512x64 .f32) //
      ∀ (xi4 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨[], ?_, fun xi4 E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Scatter

end
-- ==== Proof.Bits.Scatter.RunLast.lean ====
import proofs.«403988_j42975442764291_1_alg».proof.Proof.Bits.Scatter.RunMid

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Sched

variable {F : FTy → Type} [FloatOps F]

local notation "𝕄" => MT nD τ sig Unit (Elt F) ℕ (UR sig nD τ) ℕ

set_option maxHeartbeats 1000000 in
/-- CASE LAST (the step is the last and not 0). On whole memrefs — the four inputs' at their contents, the output's at
    anything, the accumulator's at what the step before left, `xs0` — the body runs to the continuation holding the
    inputs' as they were, the accumulator's with the piece `LS0` written (the sum of `xs0` and the product of the
    one-hot mask with the data block) and the output's with the piece `L4` written: the linear layer of the
    accumulator just stored. -/
noncomputable def kernelRun1_C (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) :
    Σ' (L4 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__scatter_linear_kernel i arg2 harg2 arg3 harg3 arg4 harg4 arg5 harg5 arg6 harg6 arg7 harg7) K } := by
  refine ⟨?_, ?_, fun E K => ?run⟩
  case run =>
    simp only [cc1__scatter_linear_kernel_eq_skeleton]; unfold cc1__scatter_linear_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Scatter

end
-- ==== Proof.Bits.Scatter.Frame.lean ====
import proofs.«403988_j42975442764291_1_alg».proof.Proof.Bits.Scatter.RunLast

set_option maxRecDepth 16384

noncomputable section

namespace Cert.Kernel.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Sched

variable {F : FTy → Type} [FloatOps F]

local notation "𝕄" => MT nD τ sig Unit (Elt F) ℕ (UR sig nD τ) ℕ

/-! # The second pallas_call: its proof data with the accumulator tracked, and the body obligation

Everything is stated at a parameter `V`: the TensorCore's buffer contents when the call is entered. -/

section Region
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place: unfetched, the block index has not moved. The four
    input windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator and in the output's buffer -/

/-- Case FIRST stores nothing into the output (idle there, and not written back): no pieces, a placeholder nothing
    consults. -/
def out1_A_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) : Vec F S512x64 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case FIRST's pieces for the accumulator cover it: two stores of the whole block. -/
theorem scover1_A_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) (y : S512x64.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S512x64.size (by sl_kernel_rfl) y

/-- What case FIRST leaves in the accumulator: its pieces read back. -/
def sout1_A_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) : Vec F S512x64 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- Case MID stores nothing into the output either. -/
def out1_B_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) : Vec F S512x64 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case MID's piece for the accumulator covers it: one store of the whole block. -/
theorem scover1_B_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) (y : S512x64.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S512x64.size (by sl_kernel_rfl) y

/-- What case MID leaves in the accumulator. -/
def sout1_B_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) : Vec F S512x64 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- Case LAST's piece for the output covers its block: one store of the whole block. -/
theorem cover1_C_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) (y : S512x64.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S512x64.size (by sl_kernel_rfl) y

/-- What case LAST leaves in the output's staging buffer: its piece read back. -/
def out1_C_4 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) : Vec F S512x64 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case LAST's piece for the accumulator covers it. -/
theorem scover1_C_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) (y : S512x64.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S512x64.size (by sl_kernel_rfl) y

/-- What case LAST leaves in the accumulator. -/
def sout1_C_0 (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) : Vec F S512x64 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the output's buffer and the accumulator hold after each point -/

/-- THE ACCUMULATION. After the body at position `n`: the output's staging buffer (first) and the accumulator (second).
    The step `n % 306` selects the case; cases MID and LAST read the accumulator at what position `n - 1` left, case
    FIRST reads nothing of it. A step that is both 0 and 305 does not exist. -/
def outsAt1 (c : Dev nD) : (n : ℕ) → n < cfg1.N → Vec F S512x64 .f32 × Vec F S512x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 306 = 0 then
      if h1 : (n + 1) % 306 = 305 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 306 = 305 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at a point of case FIRST. -/
theorem outsAt1_A (c : Dev nD) (t : Fin cfg1.N) (h0 : t.val % 306 = 0) (h1 : ¬t.val % 306 = 305) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case MID: over what the point before left in the accumulator. -/
theorem outsAt1_B (c : Dev nD) (t : Fin cfg1.N) (h0 : ¬t.val % 306 = 0) (h1 : ¬t.val % 306 = 305) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case LAST: over what the point before left in the accumulator. -/
theorem outsAt1_C (c : Dev nD) (t : Fin cfg1.N) (h0 : ¬t.val % 306 = 0) (h1 : t.val % 306 = 305) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The invariant before position `n`: before the first point what the launch hands over (the accumulator at
    anything); afterwards the other call's scoped buffers, the accumulator at what the point before left in it, and the
    generator register at some state. -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the call on core `c`: the arrays as the call finds them (`V`); after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks; the step `t % 306` says which case the point is in,
    so that case's run applies. The invariant hands the body the accumulator at what the point before left (at anything
    at the very first point) and takes it back at this point's contents, by the cover of the case's pieces; at steps
    other than the last the output's buffer goes back as it came; the other call's buffers, the generator register and
    what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  by_cases h0 : t.val % 306 = 0
  · by_cases h1 : t.val % 306 = 305
    · exfalso; omega
    · -- FIRST
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover1_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 306 = 305
    · -- LAST
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- MID
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HR HS0 Hg]
      · isplitl [HR HS0]
        · isplitl [HR]; · iexact HR
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 29988 := N_1; omega)

end Region

end Cert.Kernel.Scatter

end
-- ==== Proof.Bits.Whole.lean ====
/-
  The program as a whole: eleven stretches run one after the other on the TensorCore — seven stretches of host
  operations (the feature table cast and padded with zero rows, the two index vectors padded with the sentinel node
  and reshaped), the first kernel region, two host operations (the weight transposed, the bias as a row), the second
  kernel region, and the final slice.

  What every unscoped buffer holds at each boundary is a fold from the launch memory (`B0 … B11`): a host stretch
  applies its operations, a kernel region leaves each of its arrays at what the write-backs of its pipeline leave
  (the inputs as entered) and every other buffer untouched. With each region's proof data (its accumulator tracked
  point by point, its body obligation proved at every point), every weakly fair execution terminates with every
  unscoped buffer at the last boundary's contents: in particular the arguments as launched and the result at the
  slice of region 1's output.
-/
import proofs.«403988_j42975442764291_1_alg».proof.Proof.Gen.Kernel.Launch
import proofs.«403988_j42975442764291_1_alg».proof.Proof.Gen.Kernel.Regions
import proofs.«403988_j42975442764291_1_alg».proof.Proof.Bits.Fold
import proofs.«403988_j42975442764291_1_alg».proof.Proof.Bits.Gather.Frame
import proofs.«403988_j42975442764291_1_alg».proof.Proof.Bits.Scatter.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Gather Cert.Kernel.Scatter

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents after each region and the stretches that follow -/

/-- After region 0: its arrays at what its pipeline leaves, every other buffer as entered. -/
def B8 (c : Dev nD) : Valuation τ sig (Elt F) :=
  Pipeline.withArrays spec0 c (B7 m c) fun w => (dat0 (E7 m) c).arrAt w cfg0.N
theorem B8_arr (c : Dev nD) (w : Fin cfg0.W) :
    B8 m c (Proc.devRef .tc (Pipeline.arrRef spec0 w)) = (dat0 (E7 m) c).arrAt w cfg0.N := by
  unfold B8; exact Pipeline.withArrays_arr spec0 launch0.win.arr_inj c _ _ w
theorem B8_of_ne (c : Dev nD) (b : Ref sig .tc) (hb : ∀ w, Pipeline.arrRef spec0 w ≠ b) :
    B8 m c (Proc.devRef .tc b) = B7 m c (Proc.devRef .tc b) := by
  unfold B8; exact Pipeline.withArrays_of_ne spec0 c _ _ b hb
abbrev E8 : Entry F := fun c b => B8 m c b
theorem hF0 (c : Dev nD) (w : Fin cfg0.W) : (dat0 (E7 m) c).arrAt w cfg0.N = E8 m c (Pipeline.arrRef spec0 w) :=
  (B8_arr m c w).symm
theorem hrest0 (c : Dev nD) : ∀ b, b ∉ Finset.univ.image (Pipeline.arrRef spec0) → E8 m c b = E7 m c b :=
  fun b hb => B8_of_ne m c b fun w e => hb (Finset.mem_image.mpr ⟨w, Finset.mem_univ _, e⟩)

/-- After the host stretch `hostOps1`: region 1's entry. -/
abbrev B9 : Dev nD → Valuation τ sig (Elt F) := fun c => StableHlo.after hostOps1 (B8 m c)
abbrev E9 : Entry F := fun c b => B9 m c b
/-- After region 1. -/
def B10 (c : Dev nD) : Valuation τ sig (Elt F) :=
  Pipeline.withArrays spec1 c (B9 m c) fun w => (dat1 (E9 m) c).arrAt w cfg1.N
theorem B10_arr (c : Dev nD) (w : Fin cfg1.W) :
    B10 m c (Proc.devRef .tc (Pipeline.arrRef spec1 w)) = (dat1 (E9 m) c).arrAt w cfg1.N := by
  unfold B10; exact Pipeline.withArrays_arr spec1 launch1.win.arr_inj c _ _ w
theorem B10_of_ne (c : Dev nD) (b : Ref sig .tc) (hb : ∀ w, Pipeline.arrRef spec1 w ≠ b) :
    B10 m c (Proc.devRef .tc b) = B9 m c (Proc.devRef .tc b) := by
  unfold B10; exact Pipeline.withArrays_of_ne spec1 c _ _ b hb
abbrev E10 : Entry F := fun c b => B10 m c b
theorem hF1 (c : Dev nD) (w : Fin cfg1.W) : (dat1 (E9 m) c).arrAt w cfg1.N = E10 m c (Pipeline.arrRef spec1 w) :=
  (B10_arr m c w).symm
theorem hrest1 (c : Dev nD) : ∀ b, b ∉ Finset.univ.image (Pipeline.arrRef spec1) → E10 m c b = E9 m c b :=
  fun b hb => B10_of_ne m c b fun w e => hb (Finset.mem_image.mpr ⟨w, Finset.mem_univ _, e⟩)

/-- After the final slice: the end. -/
abbrev B11 : Dev nD → Valuation τ sig (Elt F) := fun c => StableHlo.after hostOps2 (B10 m c)

/-! ## A buffer no stretch writes and no region stages ends as launched -/

theorem B11_of_untouched (c : Dev nD) (b : Ref sig .tc)
    (h0 : b ∉ hostOps0_W) (h1 : b ∉ hostOps0_1_W) (h2 : b ∉ hostOps0_2_W) (h3 : b ∉ hostOps0_3_W) (h4 : b ∉ hostOps0_4_W)
    (h5 : b ∉ hostOps0_5_W) (h6 : b ∉ hostOps0_6_W) (h7 : ∀ w, Pipeline.arrRef spec0 w ≠ b) (h8 : b ∉ hostOps1_W)
    (h9 : ∀ w, Pipeline.arrRef spec1 w ≠ b) (h10 : b ∉ hostOps2_W) :
    B11 m c (Proc.devRef .tc b) = m ((c : Thread nD τ).loc b) :=
  (StableHlo.after_of_writes_sub hostOps2 _ hostOps2_writes h10).trans <|
  (B10_of_ne m c b h9).trans <|
  (StableHlo.after_of_writes_sub hostOps1 _ hostOps1_writes h8).trans <|
  (B8_of_ne m c b h7).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The five arguments end as launched. -/
theorem B11_main_arg0 (c : Dev nD) : B11 m c (Proc.devRef .tc main_arg0) = m ((c : Thread nD τ).loc main_arg0) :=
  B11_of_untouched m c main_arg0 (by decide) (by decide) (by decide) (by decide) (by decide) (by decide) (by decide) (by decide) (by decide) (by decide) (by decide)
theorem B11_main_arg1 (c : Dev nD) : B11 m c (Proc.devRef .tc main_arg1) = m ((c : Thread nD τ).loc main_arg1) :=
  B11_of_untouched m c main_arg1 (by decide) (by decide) (by decide) (by decide) (by decide) (by decide) (by decide) (by decide) (by decide) (by decide) (by decide)
theorem B11_main_arg2 (c : Dev nD) : B11 m c (Proc.devRef .tc main_arg2) = m ((c : Thread nD τ).loc main_arg2) :=
  B11_of_untouched m c main_arg2 (by decide) (by decide) (by decide) (by decide) (by decide) (by decide) (by decide) (by decide) (by decide) (by decide) (by decide)
theorem B11_main_arg3 (c : Dev nD) : B11 m c (Proc.devRef .tc main_arg3) = m ((c : Thread nD τ).loc main_arg3) :=
  B11_of_untouched m c main_arg3 (by decide) (by decide) (by decide) (by decide) (by decide) (by decide) (by decide) (by decide) (by decide) (by decide) (by decide)
theorem B11_main_arg4 (c : Dev nD) : B11 m c (Proc.devRef .tc main_arg4) = m ((c : Thread nD τ).loc main_arg4) :=
  B11_of_untouched m c main_arg4 (by decide) (by decide) (by decide) (by decide) (by decide) (by decide) (by decide) (by decide) (by decide) (by decide) (by decide)

/-! ## The proof data family and the thread state -/

/-- Each pipeline's proof data at its region's entry contents — a literal match, so that the pinned configuration
    at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E7 m) c
  | ⟨1, _⟩ => fun c => dat1 (E9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents, the
    generator register at some state. -/
abbrev Tₙ (c : Dev nD) : sProp 𝕄 := iprop(StableHlo.held (c : Thread nD τ) (Pipeline.ucRefs τ sig) (B11 m c) ∗ ∃ r, prngReg c r)

/-! ## The regions as segments -/

-- a library lemma stated over `pin pcs a p` unifies with the pinned configuration only when unification may unfold
-- plain definitions in a metavariable's type
set_option backward.isDefEq.respectTransparency.types false in
/-- Region 0 over the thread state "every unscoped buffer at the boundary's contents, the generator register at
    some state, nothing owed": its arrays are split out of the unscoped buffers at entry and put back at what the
    pipeline leaves at exit; the generator register and the scoped rest go into the class's invariant and come back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E7 m) c).loose
  hwaits := Pipeline.hwaits_of_owed_zero _ _ _ _ L lv 0 fun _ _ => rfl
  pre c := iprop(StableHlo.held (c : Thread nD τ) (Pipeline.ucRefs τ sig) (B7 m c) ∗ R c)
  post c := iprop(StableHlo.held (c : Thread nD τ) (Pipeline.ucRefs τ sig) (B8 m c) ∗ R c)
  X c := iprop(∃ r, prngReg c r)
  Y c := iprop(∃ r, prngReg c r)
  Z c := Pipeline.unscopedRest (Ix := Unit) (Name := ℕ) (U := UR sig nD τ) (Lvl := ℕ) spec0 c (E7 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E7 m c) fun w => A_eq0 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E7 m) c)
    unfold Pipeline.ΦA
    iintro ⟨Hp, -, Hr⟩
    isplitl [Hr]; · iexact Hr
    iexact Hp
  hout c := by
    refine BIBase.Entails.trans (hout0 (E7 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E7 m c) (E8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state "every unscoped buffer at the boundary's contents, the generator register at
    some state, nothing owed": its arrays are split out of the unscoped buffers at entry and put back at what the
    pipeline leaves at exit; the generator register and the scoped rest go into the class's invariant and come back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E9 m) c).loose
  hwaits := Pipeline.hwaits_of_owed_zero _ _ _ _ L lv 1 fun _ _ => rfl
  pre c := iprop(StableHlo.held (c : Thread nD τ) (Pipeline.ucRefs τ sig) (B9 m c) ∗ R c)
  post c := iprop(StableHlo.held (c : Thread nD τ) (Pipeline.ucRefs τ sig) (B10 m c) ∗ R c)
  X c := iprop(∃ r, prngReg c r)
  Y c := iprop(∃ r, prngReg c r)
  Z c := Pipeline.unscopedRest (Ix := Unit) (Name := ℕ) (U := UR sig nD τ) (Lvl := ℕ) spec1 c (E9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E9 m c) fun w => A_eq1 (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E9 m) c)
    unfold Pipeline.ΦA
    iintro ⟨Hp, -, Hr⟩
    isplitl [Hr]; · iexact Hr
    iexact Hp
  hout c := by
    refine BIBase.Entails.trans (hout1 (E9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E9 m c) (E10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .host (hseg hostOps0_5 hostOps0_5_sub hostOps0_5_fresh (B5 m)),
    .host (hseg hostOps0_6 hostOps0_6_sub hostOps0_6_fresh (B6 m)),
    .region (reg0 m),
    .host (hseg hostOps1 hostOps1_sub hostOps1_fresh (B8 m)),
    .region (reg1 m),
    .host (hseg hostOps2 hostOps2_sub hostOps2_fresh (B10 m)) ]

/-- @main is the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of @main terminates, nothing faulting,
    and every final memory holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B11 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (B11 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B11 m c b)
    (hfin := fun c s' => by
      iintro ⟨⟨Hh, -⟩, HSI⟩
      unfold StableHlo.held
      imodintro
      iapply (pointsTo_read_all (Pipeline.ucRefs τ sig) (fun b => (((c : Thread nD τ)).1, b)) (B11 m c) s')
      isplitl [Hh] <;> iassumption)
    (hQ := fun s h c => h c)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B11_main_arg0 m c),
     (h c _ (mem_uc main_arg1 (by decide))).trans (B11_main_arg1 m c),
     (h c _ (mem_uc main_arg2 (by decide))).trans (B11_main_arg2 m c),
     (h c _ (mem_uc main_arg3 (by decide))).trans (B11_main_arg3 m c),
     (h c _ (mem_uc main_arg4 (by decide))).trans (B11_main_arg4 m c)⟩) (run_main m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v10) = B11 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v10 (by decide)),
     (h c _ (mem_uc main_arg0 (by decide))).trans (B11_main_arg0 m c),
     (h c _ (mem_uc main_arg1 (by decide))).trans (B11_main_arg1 m c),
     (h c _ (mem_uc main_arg2 (by decide))).trans (B11_main_arg2 m c),
     (h c _ (mem_uc main_arg3 (by decide))).trans (B11_main_arg3 m c),
     (h c _ (mem_uc main_arg4 (by decide))).trans (B11_main_arg4 m c)⟩) (run_main m ρ)
-- ==== Proof.EntryValues.lean ====
/-
  The two index operands of the kernel regions, read at a position.

  Before the first region the program prepares its operands on the host. The source words and the destination
  words, 1250000 each, are each padded at the end with 3376 copies of the word 50175 (a node past the table's real
  rows), to 1253376 words; the padded source vector is reshaped to a column [1253376, 1] and the padded destination
  vector to a row [1, 1253376]. Read at position e, each is the launch's word for e below 1250000 and the word 50175
  from there on.

  The preparation is seven stretches of host operations. Each stretch that writes one of the buffers involved is read
  once, from arbitrary contents of the buffers; a stretch that does not write a buffer leaves it as it was. A reshape
  keeps the row-major position, and both the column's position (e, 0) and the row's position (0, e) have row-major
  position e.
-/
import proofs.«403988_j42975442764291_1_alg».proof.Proof.Fold
import proofs.«403988_j42975442764291_1_alg».proof.Proof.Gen.KernelIdeal.Regions
import Idealize.ShloMosaic.Lib.StableHlo.Run
import Idealize.ShloMosaic.Lib.Pipeline.Value
import Idealize.ShloMosaic.Lib.KernelVsHost
import Idealize.ShloMosaic.Lib.ValueIdx

noncomputable section

namespace Cert.KernelIdeal.Whole

open Idealize.ShloMosaic Idealize.ShloMosaic.TcCoe Idealize.ShloMosaic.ValueIdx Idealize.ShloMosaic.StableHlo
open Idealize.SL Idealize.SL.Sem
open Cert.KernelIdeal Cert.KernelIdeal.Gen

variable [Cert.KernelIdeal.Facts]
variable {F : FTy → Type} [FloatOps F]

/-! ## Each writing stretch, from any contents -/

section Stretches
variable (W : Valuation τ sig (Elt F))

/-- The last stretch writes the source column: the padded source vector, reshaped. -/
theorem col_of : (StableHlo.after hostOps0_6 W (Proc.devRef .tc main_v4) : S1253376x1.Idx → BitVec 32)
    = shapeCast S1253376x1 (W (Proc.devRef .tc main_v2) : S1253376.Idx → BitVec 32) shapeCasts_S1253376_S1253376x1 := by
  after_results
  rfl

/-- … and the destination row: the padded destination vector, reshaped. -/
theorem row_of : (StableHlo.after hostOps0_6 W (Proc.devRef .tc main_v5) : S1x1253376.Idx → BitVec 32)
    = shapeCast S1x1253376 (W (Proc.devRef .tc main_v3) : S1253376.Idx → BitVec 32) shapeCasts_S1253376_S1x1253376 := by
  after_results
  rfl

/-- The stretch that pads the source words, with the scalar it finds in the sentinel's buffer. -/
theorem padded_src_of : (StableHlo.after hostOps0_3 W (Proc.devRef .tc main_v2) : S1253376.Idx → BitVec 32)
    = pad S1253376 ![0] ![3376] ![0] (W (Proc.devRef .tc main_arg1) : S1250000.Idx → BitVec 32)
        (W (Proc.devRef .tc main_c_0) : S_.Idx → BitVec 32) pads_S1250000_S1253376_033760 h_S_ := by
  after_results
  rfl

/-- The stretch that pads the destination words. -/
theorem padded_dst_of : (StableHlo.after hostOps0_5 W (Proc.devRef .tc main_v3) : S1253376.Idx → BitVec 32)
    = pad S1253376 ![0] ![3376] ![0] (W (Proc.devRef .tc main_arg2) : S1250000.Idx → BitVec 32)
        (W (Proc.devRef .tc main_c_1) : S_.Idx → BitVec 32) pads_S1250000_S1253376_033760 h_S_ := by
  after_results
  rfl

/-- The two stretches that write the sentinel word 50175. -/
theorem sentinel0_of : (StableHlo.after hostOps0_2 W (Proc.devRef .tc main_c_0) : S_.Idx → BitVec 32) = constantI S_ 32 50175#32 := by
  after_results
theorem sentinel1_of : (StableHlo.after hostOps0_4 W (Proc.devRef .tc main_c_1) : S_.Idx → BitVec 32) = constantI S_ 32 50175#32 := by
  after_results

end Stretches

/-! ## Across the stretches -/

variable (m : (ℓ : Loc nD τ sig) → Buf (Elt F) ℓ)

/-- The launch's source words are still there when the stretch that pads them starts: the three stretches before it
    write other buffers. -/
theorem B3_main_arg1 (c : Dev nD) : B3 m c (Proc.devRef .tc main_arg1) = m ((c : Thread nD τ).loc main_arg1) :=
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

/-- The launch's destination words are still there when the stretch that pads them starts: the five stretches before
    it write other buffers. -/
theorem B5_main_arg2 (c : Dev nD) : B5 m c (Proc.devRef .tc main_arg2) = m ((c : Thread nD τ).loc main_arg2) :=
  (StableHlo.after_of_writes_sub hostOps0_4 _ hostOps0_4_writes (by decide)).trans <|
  (StableHlo.after_of_writes_sub hostOps0_3 _ hostOps0_3_writes (by decide)).trans <|
  (StableHlo.after_of_writes_sub hostOps0_2 _ hostOps0_2_writes (by decide)).trans <|
  (StableHlo.after_of_writes_sub hostOps0_1 _ hostOps0_1_writes (by decide)).trans <|
  (StableHlo.after_of_writes_sub hostOps0 _ hostOps0_writes (by decide)).trans rfl

/-- The padded source vector is not written again before the region: the three stretches after its own write other
    buffers. -/
theorem B6_main_v2 (c : Dev nD) : B6 m c (Proc.devRef .tc main_v2) = B4 m c (Proc.devRef .tc main_v2) :=
  (StableHlo.after_of_writes_sub hostOps0_5 _ hostOps0_5_writes (by decide)).trans <|
  (StableHlo.after_of_writes_sub hostOps0_4 _ hostOps0_4_writes (by decide))

/-- The sentinel word, where the stretch that pads the source words finds it. -/
theorem B3_main_c_0 (c : Dev nD) : (B3 m c (Proc.devRef .tc main_c_0) : S_.Idx → BitVec 32) = constantI S_ 32 50175#32 :=
  sentinel0_of (B2 m c)

/-- The sentinel word, where the stretch that pads the destination words finds it. -/
theorem B5_main_c_1 (c : Dev nD) : (B5 m c (Proc.devRef .tc main_c_1) : S_.Idx → BitVec 32) = constantI S_ 32 50175#32 :=
  sentinel1_of (B4 m c)

/-! ## The padded word vectors at a position -/

/-- A vector of 1250000 words padded at the end with 3376 copies of a scalar, read at position e: the vector's word
    below 1250000, the scalar from there on. -/
theorem pad_words_apply (x : S1250000.Idx → BitVec 32) (v : S_.Idx → BitVec 32) (e : Fin 1253376) :
    pad S1253376 ![0] ![3376] ![0] x v pads_S1250000_S1253376_033760 h_S_ (ix1 e)
      = if h : e.val < 1250000 then x (ix1 ⟨e.val, h⟩) else v (Shape.Idx.first h_S_) := by
  by_cases h : e.val < 1250000
  · rw [dif_pos h]
    refine pad_apply_of_inside _ _ _ x v _ _ (ix1 e) (ix1 (⟨e.val, h⟩ : Fin 1250000)) fun a => ?_
    match a with
    | ⟨0, _⟩ => show e.val = 0 + e.val * (0 + 1); omega
  · rw [dif_neg h]
    refine pad_apply_of_not_inside _ _ _ x v _ _ (ix1 e) (0 : Fin 1) ?_
    show ¬(0 ≤ e.val ∧ (e.val - 0) % (0 + 1) = 0 ∧ (e.val - 0) / (0 + 1) < 1250000)
    intro hh; apply h; have := hh.2.2; simpa using this

/-- The padded source vector at position e. -/
theorem B4_main_v2_apply (c : Dev nD) (e : Fin 1253376) :
    (B4 m c (Proc.devRef .tc main_v2) : S1253376.Idx → BitVec 32) (ix1 e)
      = if h : e.val < 1250000 then (m ((c : Thread nD τ).loc main_arg1) : S1250000.Idx → BitVec 32) (ix1 ⟨e.val, h⟩) else 50175#32 := by
  refine (congrFun (padded_src_of (B3 m c)) (ix1 e)).trans ?_
  refine (pad_words_apply _ _ e).trans ?_
  rewrite [B3_main_arg1 m c, B3_main_c_0 m c]
  rfl

/-- The padded destination vector at position e. -/
theorem B6_main_v3_apply (c : Dev nD) (e : Fin 1253376) :
    (B6 m c (Proc.devRef .tc main_v3) : S1253376.Idx → BitVec 32) (ix1 e)
      = if h : e.val < 1250000 then (m ((c : Thread nD τ).loc main_arg2) : S1250000.Idx → BitVec 32) (ix1 ⟨e.val, h⟩) else 50175#32 := by
  refine (congrFun (padded_dst_of (B5 m c)) (ix1 e)).trans ?_
  refine (pad_words_apply _ _ e).trans ?_
  rewrite [B5_main_arg2 m c, B5_main_c_1 m c]
  rfl

/-! ## The two operands of the regions at a position -/

theorem entry_src (c : Dev nD) (e : Fin 1253376) :
    (E7 m c main_v4 : S1253376x1.Idx → BitVec 32) (ix2 e (0 : Fin 1))
      = if h : e.val < 1250000 then (m ((c : Thread nD τ).loc main_arg1) : S1250000.Idx → BitVec 32) (ix1 ⟨e.val, h⟩) else 50175#32 := by
  refine (congrFun (col_of (B6 m c)) (ix2 e (0 : Fin 1))).trans ?_
  refine (shapeCast_apply _ shapeCasts_S1253376_S1253376x1 (ix2 e (0 : Fin 1)) (ix1 e) (by
    rw [Shape.rowMajor_val_two, Shape.rowMajor_val_one]; show e.val = e.val * 1 + 0; omega)).trans ?_
  rewrite [B6_main_v2 m c]
  exact B4_main_v2_apply m c e

theorem entry_dst (c : Dev nD) (e : Fin 1253376) :
    (E7 m c main_v5 : S1x1253376.Idx → BitVec 32) (ix2 (0 : Fin 1) e)
      = if h : e.val < 1250000 then (m ((c : Thread nD τ).loc main_arg2) : S1250000.Idx → BitVec 32) (ix1 ⟨e.val, h⟩) else 50175#32 := by
  refine (congrFun (row_of (B6 m c)) (ix2 (0 : Fin 1) e)).trans ?_
  refine (shapeCast_apply _ shapeCasts_S1253376_S1x1253376 (ix2 (0 : Fin 1) e) (ix1 e) (by
    rw [Shape.rowMajor_val_two, Shape.rowMajor_val_one]; show e.val = 0 * 1253376 + e.val; omega)).trans ?_
  exact B6_main_v3_apply m c e

end Cert.KernelIdeal.Whole

end
-- ==== Proof.EntryFeat.lean ====
import proofs.«403988_j42975442764291_1_alg».proof.Proof.Fold
import proofs.«403988_j42975442764291_1_alg».proof.Proof.Gen.KernelIdeal.Regions
import Idealize.ShloMosaic.Lib.StableHlo.Run
import Idealize.ShloMosaic.Lib.KernelVsHost
import Idealize.ShloMosaic.Lib.ValueIdx
import Idealize.ShloMosaic.PureOps.Ideal

noncomputable section

namespace Cert.KernelIdeal.Whole

open Idealize.ShloMosaic Idealize.ShloMosaic.TcCoe Idealize.ShloMosaic.ValueIdx Idealize.ShloMosaic.StableHlo
open Idealize.SL Idealize.SL.Sem
open Cert.KernelIdeal Cert.KernelIdeal.Gen

/-! # The padded feature table at the first kernel's entry

Two host stretches make it: the first narrows the launch's 50000 × 64 feature table and makes the integer zero, the
second turns that zero into a float and pads the table with 176 rows of it. The five later stretches leave it alone.
Over the extended reals the narrowing is the identity and the integer zero is the number zero. -/

section Stretches
variable {F : FTy → Type} [FloatOps F]

/-- The second stretch leaves in the padded table the pad of the narrowed table it finds, by the float of the zero word it finds. -/
theorem padded_feat_of (W : Valuation τ sig (Elt F)) :
    (StableHlo.after hostOps0_1 W (Proc.devRef .tc main_v1) : S50176x64.Idx → Elt F .bf16)
      = pad S50176x64 ![0, 0] ![176, 0] ![0, 0] (W (Proc.devRef .tc main_v0) : S50000x64.Idx → Elt F .bf16)
          (sitofp .bf16 (W (Proc.devRef .tc main_c) : S_.Idx → BitVec 32)) pads_S50000x64_S50176x64_01760_000 h_S_ := by
  after_results
  rfl

/-- The first stretch leaves the narrowed table, -/
theorem cast_feat_of (W : Valuation τ sig (Elt F)) :
    (StableHlo.after hostOps0 W (Proc.devRef .tc main_v0) : S50000x64.Idx → Elt F .bf16)
      = truncf .bf16 (W (Proc.devRef .tc main_arg0) : S50000x64.Idx → Elt F .f32) bitsLt_bf16_f32 := by
  after_results

/-- and the zero word. -/
theorem zero_of (W : Valuation τ sig (Elt F)) :
    (StableHlo.after hostOps0 W (Proc.devRef .tc main_c) : S_.Idx → BitVec 32) = constantI S_ 32 0#32 := by
  after_results

variable (m : (ℓ : Loc nD τ sig) → Buf (Elt F) ℓ)

/-- The five later stretches do not write the padded table: at the kernel's entry it is as the second stretch left it. -/
theorem E7_main_v1 (c : Dev nD) : E7 m c main_v1 = B2 m c (Proc.devRef .tc main_v1) := by
  show StableHlo.after hostOps0_6 (B6 m c) (Proc.devRef .tc main_v1) = _
  refine (StableHlo.after_of_writes_sub hostOps0_6 _ hostOps0_6_writes (by decide)).trans ?_
  show StableHlo.after hostOps0_5 (B5 m c) (Proc.devRef .tc main_v1) = _
  refine (StableHlo.after_of_writes_sub hostOps0_5 _ hostOps0_5_writes (by decide)).trans ?_
  show StableHlo.after hostOps0_4 (B4 m c) (Proc.devRef .tc main_v1) = _
  refine (StableHlo.after_of_writes_sub hostOps0_4 _ hostOps0_4_writes (by decide)).trans ?_
  show StableHlo.after hostOps0_3 (B3 m c) (Proc.devRef .tc main_v1) = _
  refine (StableHlo.after_of_writes_sub hostOps0_3 _ hostOps0_3_writes (by decide)).trans ?_
  show StableHlo.after hostOps0_2 (B2 m c) (Proc.devRef .tc main_v1) = _
  refine (StableHlo.after_of_writes_sub hostOps0_2 _ hostOps0_2_writes (by decide)).trans ?_
  rfl

/-- The second stretch writes neither the narrowed table nor the zero word. -/
theorem B2_main_v0 (c : Dev nD) : B2 m c (Proc.devRef .tc main_v0) = B1 m c (Proc.devRef .tc main_v0) :=
  StableHlo.after_of_writes_sub hostOps0_1 _ hostOps0_1_writes (by decide)

/-- The padded table at the kernel's entry, as one term of the launch's feature table. -/
theorem E7_feat (c : Dev nD) :
    (E7 m c main_v1 : S50176x64.Idx → Elt F .bf16)
      = pad S50176x64 ![0, 0] ![176, 0] ![0, 0]
          (truncf .bf16 (m ((c : Thread nD τ).loc main_arg0) : S50000x64.Idx → Elt F .f32) bitsLt_bf16_f32)
          (sitofp .bf16 (constantI S_ 32 0#32)) pads_S50000x64_S50176x64_01760_000 h_S_ := by
  refine (E7_main_v1 m c).trans ?_
  refine (padded_feat_of (B1 m c)).trans ?_
  show pad S50176x64 ![0, 0] ![176, 0] ![0, 0] (StableHlo.after hostOps0 (B0 m c) (Proc.devRef .tc main_v0) : S50000x64.Idx → Elt F .bf16)
      (sitofp .bf16 (StableHlo.after hostOps0 (B0 m c) (Proc.devRef .tc main_c) : S_.Idx → BitVec 32)) pads_S50000x64_S50176x64_01760_000 h_S_ = _
  rw [cast_feat_of (B0 m c), zero_of (B0 m c)]

end Stretches

/-- ENTRY: row `n`, feature `k` of the padded table over the extended reals is the launch's feature there for a real
    node and zero for a padding row: the narrowing is the identity and the float of the zero word is zero. -/
theorem entry_feat (m : (ℓ : Loc nD τ sig) → Buf (Elt Ideal) ℓ) (c : Dev nD) (n : Fin 50176) (k : Fin 64) :
    (E7 (F := Ideal) m c main_v1 : S50176x64.Idx → EReal) (ix2 n k)
      = if h : n.val < 50000 then (m ((c : Thread nD τ).loc main_arg0) : S50000x64.Idx → EReal) (ix2 ⟨n.val, h⟩ k) else (0 : EReal) := by
  refine (congrFun (E7_feat (F := Ideal) m c) (ix2 n k)).trans ?_
  by_cases h : n.val < 50000
  · rw [dif_pos h]
    refine (pad_apply_of_inside _ _ _ _ _ _ _ (ix2 n k) (ix2 (⟨n.val, h⟩ : Fin 50000) k) fun a => ?_).trans ?_
    · match a with
      | ⟨0, _⟩ => show n.val = 0 + n.val * (0 + 1); omega
      | ⟨1, _⟩ => show k.val = 0 + k.val * (0 + 1); omega
    · rfl
  · rw [dif_neg h]
    refine (pad_apply_of_not_inside _ _ _ _ _ _ _ (ix2 n k) (0 : Fin 2) ?_).trans ?_
    · show ¬(0 ≤ n.val ∧ (n.val - 0) % (0 + 1) = 0 ∧ (n.val - 0) / (0 + 1) < 50000)
      intro hh; apply h; have := hh.2.2; simpa using this
    · show (((0#32 : BitVec 32).toInt : ℝ) : EReal) = 0
      rw [show (0#32 : BitVec 32).toInt = 0 from by decide, Int.cast_zero, EReal.coe_zero]

end Cert.KernelIdeal.Whole

end
-- ==== Proof.Gather.Pieces.lean ====
/-
  Region 0 (the gather call): the values of the pieces its body's stores leave.

  Each case's stores were found as lists of pieces; here each list's read-back is the payload of the blocks: the FIRST
  step leaves the accumulator at `zero + onehot·feature`, a MIDDLE and the LAST step at `accumulator + onehot·feature`, and
  the LAST step leaves the output block at that sum rounded to bf16. Then the same facts point by point along the grid:
  the recurrence an induction over a row's 98 steps unfolds.
-/
import proofs.«403988_j42975442764291_1_alg».proof.Proof.Gather.Frame
import Idealize.ShloMosaic.Lib.Pipeline.Value

set_option maxRecDepth 16384

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Cert.KernelIdeal.Sched

/-! ## Each found piece is a payload of the blocks

Every access of the body is of a whole block at offset zero, so a load reads the block itself and a covering store's
read-back is its payload. -/

/-- Both offsets are zero. -/
theorem hz : (![0, 0] : Fin 2 → Nat) = fun _ => 0 := funext fun a => by fin_cases a <;> rfl

/-- FIRST step: the accumulator ends at the zero block plus the step's one-hot product — the sum's load reads the zero
    block just stored. -/
theorem sout0_A_0_eq (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : cond0_0 i) (hc1 : ¬cond0_1 i)
    (x0 : Vec F S4096x1 .i32) (x1 : Vec F S512x64 .bf16) :
    sout0_A_0 c i arg2 harg2 arg3 harg3 arg4 harg4 arg5 harg5 hc0 hc1 x0 x1 = k0_pay2 i x0 (k0_pay1 (F := F)) x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S4096x64) hz, View.readCov_unit_zero (S := S4096x64) _ hz]
  simp only [View.readAt_eq_ld, harg2.read_unread, harg3.read_unread, harg5.read_unread, View.ld_unit_zero (S := S4096x1) hz, View.ld_unit_zero (S := S512x64) hz, View.ld_unit_zero (S := S4096x64) hz]

/-- MIDDLE step: the accumulator ends at what it held plus the step's one-hot product. -/
theorem sout0_B_0_eq (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : ¬cond0_1 i)
    (x0 : Vec F S4096x1 .i32) (x1 : Vec F S512x64 .bf16) (xs0 : Vec F S4096x64 .f32) :
    sout0_B_0 c i arg2 harg2 arg3 harg3 arg4 harg4 arg5 harg5 hc0 hc1 x0 x1 xs0 = k0_pay2 i x0 xs0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S4096x1) hz, View.ld_unit_zero (S := S512x64) hz, View.ld_unit_zero (S := S4096x64) hz]

/-- LAST step: the accumulator ends at what it held plus the step's one-hot product, -/
theorem sout0_C_0_eq (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) :
    sout0_C_0 c i arg2 harg2 arg3 harg3 arg4 harg4 arg5 harg5 hc0 hc1 x0 x1 xs0 = k0_pay2 i x0 xs0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S4096x1) hz, View.ld_unit_zero (S := S512x64) hz, View.ld_unit_zero (S := S4096x64) hz]

/-- and the output block at that sum rounded: the rounding's load reads the sum just stored. -/
theorem out0_C_2_eq (c : Dev nD) (i : grid0.Coords) (arg2 : Memref sig .tc .vmem S4096x1 .i32) (harg2 : arg2.IsWhole) (arg3 : Memref sig .tc .vmem S512x64 .bf16) (harg3 : arg3.IsWhole) (arg4 : Memref sig .tc .vmem S4096x64 .bf16) (harg4 : arg4.IsWhole) (arg5 : Memref sig .tc .vmem S4096x64 .f32) (harg5 : arg5.IsWhole) (hc0 : ¬cond0_0 i) (hc1 : cond0_1 i)
    (x0 : Vec F S4096x1 .i32) (x1 : Vec F S512x64 .bf16) (xs0 : Vec F S4096x64 .f32) :
    out0_C_2 c i arg2 harg2 arg3 harg3 arg4 harg4 arg5 harg5 hc0 hc1 x0 x1 xs0 = k0_pay3 (k0_pay2 i x0 xs0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readCov_unit_zero (S := S4096x64) _ hz, View.readAt_eq_ld, harg2.read_unread, harg3.read_unread, harg5.read_unread, View.ld_unit_zero (S := S4096x1) hz, View.ld_unit_zero (S := S512x64) hz, View.ld_unit_zero (S := S4096x64) hz]

section Region
variable (V : (c : Dev nD) → (b : Ref sig .tc) → Buf (Elt F) ((c : Thread nD τ).loc b))

/-! ## The recurrence of the accumulator along the grid

The two input blocks at a point, named at their literal types, and `outsAt0`'s components as one step of the payloads:
what an induction over the positions of a row unfolds. -/

/-- The index column's block at point `t`. -/
abbrev idxBlk (c : Dev nD) (t : Fin cfg0.N) : Vec F S4096x1 .i32 := iblk0 V c 0 t
/-- The feature block at point `t`. -/
abbrev featBlk (c : Dev nD) (t : Fin cfg0.N) : Vec F S512x64 .bf16 := iblk0 V c 1 t

/-- At the FIRST step of a row the accumulator is left at the zero block plus the step's one-hot product. -/
theorem acc0_first (c : Dev nD) (t : Fin cfg0.N) (h0 : t.val % 98 = 0) :
    (outsAt0 V c t.val t.isLt).2 = k0_pay2 (grid0.coords t) (idxBlk V c t) (k0_pay1 (F := F)) (featBlk V c t) := by
  have h1 : ¬t.val % 98 = 97 := by omega
  rw [outsAt0_A V c t h0 h1]; dsimp only
  exact sout0_A_0_eq c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)

/-- At any later step of a row the accumulator is left at what the point before left plus the step's one-hot product. -/
theorem acc0_next (c : Dev nD) (t : Fin cfg0.N) (h0 : ¬t.val % 98 = 0) :
    (outsAt0 V c t.val t.isLt).2
      = k0_pay2 (grid0.coords t) (idxBlk V c t) (outsAt0 V c (t.val - 1) (Nat.lt_of_le_of_lt (Nat.sub_le _ _) t.isLt)).2 (featBlk V c t) := by
  by_cases h1 : t.val % 98 = 97
  · rw [outsAt0_C V c t h0 h1]; dsimp only
    exact sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2
  · rw [outsAt0_B V c t h0 h1]; dsimp only
    exact sout0_B_0_eq c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2

/-- At the LAST step of a row the output block is left at the accumulator's final value, rounded. -/
theorem out0_last (c : Dev nD) (t : Fin cfg0.N) (h1 : t.val % 98 = 97) :
    (outsAt0 V c t.val t.isLt).1 = k0_pay3 (outsAt0 V c t.val t.isLt).2 := by
  have h0 : ¬t.val % 98 = 0 := by omega
  rw [outsAt0_C V c t h0 h1]; dsimp only
  rw [out0_C_2_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
    sout0_C_0_eq c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2]

end Region

end Cert.KernelIdeal.Gather

end
-- ==== Proof.Spec.lean ====
/-
  The function both programs compute, over the extended reals.

  A graph has 50000 nodes, each with a row of 64 features, and 1250000 edges, edge `e` running from node
  `src e` to node `dst e` (32-bit words). Every node sums the feature rows of the sources of the edges that end at
  it — `agg[n, k] = ∑ over edges e with dst e = n of feature[src e, k]` — and the sums go through one linear layer,
  `out[n, o] = (∑ k, agg[n, k] · W[o, k]) + b[o]`.

  Nothing here needs finiteness: the only laws used about these sums are that `0 · x = 0`, `1 · x = x`,
  `0 + x = x` and that a finite sum may be regrouped, all of which hold on the extended reals.
-/
import Idealize.ShloMosaic.PureOps.Ideal
import Idealize.ShloMosaic.Lib.ValueIdx

noncomputable section

namespace Cert.Spec

open Idealize.ShloMosaic Idealize.ShloMosaic.ValueIdx

/-- One entry of a one-hot mask: `1` when the word `w` is the number `n`, else `0`. -/
def hot (w : BitVec 32) (n : ℕ) : EReal := if w = BitVec.ofNat 32 n then 1 else 0

theorem hot_mul (w : BitVec 32) (n : ℕ) (x : EReal) : hot w n * x = if w = BitVec.ofNat 32 n then x else 0 := by
  unfold hot; split
  · exact one_mul x
  · exact zero_mul x

/-- The row of the node table a source word names. A word outside `[0, 50000)` is reduced into the table; every
    statement that reads a row through this assumes the word in range, where the row is the word's own number. -/
def row (w : BitVec 32) : Fin 50000 := ⟨w.toNat % 50000, Nat.mod_lt _ (by norm_num)⟩

theorem row_val_of_lt {w : BitVec 32} (h : w.toNat < 50000) : (row w).val = w.toNat := Nat.mod_eq_of_lt h

/-- Neighbour sums: node `n`'s feature `k` summed over the sources of the edges that end at `n`. -/
def agg (feature : (⟨2, ![50000, 64]⟩ : Shape).Idx → EReal) (src dst : (⟨1, ![1250000]⟩ : Shape).Idx → BitVec 32) :
    (⟨2, ![50000, 64]⟩ : Shape).Idx → EReal :=
  fun y => ∑ e : Fin 1250000,
    if dst (ix1 e) = BitVec.ofNat 32 (y 0).val then feature (ix2 (row (src (ix1 e))) (y 1)) else 0

/-- The linear layer on the neighbour sums: `(∑ k, h[n, k] · W[o, k]) + b[o]`. -/
def lin (h : (⟨2, ![50000, 64]⟩ : Shape).Idx → EReal) (W : (⟨2, ![64, 64]⟩ : Shape).Idx → EReal)
    (b : (⟨1, ![64]⟩ : Shape).Idx → EReal) : (⟨2, ![50000, 64]⟩ : Shape).Idx → EReal :=
  fun y => (∑ k : Fin 64, h (ix2 (y 0) k) * W (ix2 (y 1) k)) + b (ix1 (y 1))

/-- The whole function: neighbour sums, then the linear layer. -/
def G (feature : (⟨2, ![50000, 64]⟩ : Shape).Idx → EReal) (src dst : (⟨1, ![1250000]⟩ : Shape).Idx → BitVec 32)
    (W : (⟨2, ![64, 64]⟩ : Shape).Idx → EReal) (b : (⟨1, ![64]⟩ : Shape).Idx → EReal) :
    (⟨2, ![50000, 64]⟩ : Shape).Idx → EReal :=
  lin (agg feature src dst) W b

/-- A sum against a one-hot row picks one term: `∑ n < N, hot w n · f n = f w` when the word is below `N`. -/
theorem sum_hot_mul {N : ℕ} (hN : N ≤ 2 ^ 32) (w : BitVec 32) (hw : w.toNat < N) (f : Fin N → EReal) :
    ∑ n : Fin N, hot w n.val * f n = f ⟨w.toNat, hw⟩ := by
  rw [Finset.sum_eq_single (⟨w.toNat, hw⟩ : Fin N)]
  · rw [hot_mul, if_pos (by simp)]
  · intro n _ hne
    rw [hot_mul, if_neg]
    intro h
    apply hne
    apply Fin.ext
    have := congrArg BitVec.toNat h
    rw [BitVec.toNat_ofNat, Nat.mod_eq_of_lt (lt_of_lt_of_le n.isLt hN)] at this
    exact this.symm
  · intro h; exact absurd (Finset.mem_univ _) h

/-- A word at or past `N` (read unsigned) matches no row below `N`. -/
theorem sum_hot_mul_of_ge {N : ℕ} (hN : N ≤ 2 ^ 32) (w : BitVec 32) (hw : N ≤ w.toNat) (f : Fin N → EReal) :
    ∑ n : Fin N, hot w n.val * f n = 0 := by
  apply Finset.sum_eq_zero
  intro n _
  rw [hot_mul, if_neg]
  intro h
  have := congrArg BitVec.toNat h
  rw [BitVec.toNat_ofNat, Nat.mod_eq_of_lt (lt_of_lt_of_le n.isLt hN)] at this
  have := n.isLt
  omega

end Cert.Spec

end
-- ==== Proof.Payload.lean ====
/-
  The two kernel bodies' stored values at the ideal instance, read at one index.

  Both bodies compare a block of index words with a run of 512 consecutive node numbers (the scalar `step · 512`
  broadcast, plus an iota), turn the comparison's bit into the number 0 or 1, multiply that one-hot mask into a data
  block and add the product to the accumulator they loaded. Over the extended reals a change of float format is the
  identity, the converted bit is `Cert.Spec.hot`, and a matrix product into a zero accumulator is the plain sum over the
  contracted axis; so each stored value at `(p, q)` is the accumulator there plus one sum of `hot · data`. The scatter
  body's last store is an ordinary product of the accumulator with the weight block, with the bias row added.
-/
import proofs.«403988_j42975442764291_1_alg».proof.Proof.Gen.KernelIdeal.Skeleton
import proofs.«403988_j42975442764291_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx
open Cert.Spec (hot)

/-! ## Words -/

/-- The node number a mask column stands for: `step · 512 + n`, computed on 32-bit words, is the word of that number. -/
theorem word_mul_add (a b : ℕ) : BitVec.ofNat 32 a * 512#32 + BitVec.ofNat 32 b = BitVec.ofNat 32 (a * 512 + b) := by
  rw [BitVec.ofNat_add, BitVec.ofNat_mul]

/-- A comparison's bit, widened to a word and converted to a float, is the one-hot entry: `1` when the two words are
    equal, else `0`. -/
theorem sitofp_cmpi_eq (w x : BitVec 32) (n : ℕ) (hx : x = BitVec.ofNat 32 n) :
    FloatOps.sitofp (F := Ideal) .f32 ((IntOp.cmpi .eq w x).setWidth 32) = hot w n := by
  subst hx
  show ((((BitVec.ofBool (w == BitVec.ofNat 32 n)).setWidth 32).toInt : ℝ) : EReal) = hot w n
  unfold Cert.Spec.hot
  by_cases h : w = BitVec.ofNat 32 n
  · have e : ((BitVec.ofBool true).setWidth 32).toInt = 1 := by decide
    rw [if_pos h, beq_iff_eq.mpr h, e, Int.cast_one, EReal.coe_one]
  · have e : ((BitVec.ofBool false).setWidth 32).toInt = 0 := by decide
    rw [if_neg h, beq_eq_false_iff_ne.mpr h, e, Int.cast_zero, EReal.coe_zero]

/-! ## Layout operations read at an index -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- An integer comparison at an index compares the elements. -/
theorem cmpi_apply {s : Shape} {w : ℕ} (pr : CmpIPredicate) (x y : IVec s w) (i : s.Idx) : cmpi pr x y i = IntOp.cmpi pr (x i) (y i) := rfl
/-- An integer sum at an index adds the elements. -/
theorem addi_apply {s : Shape} {w : ℕ} (x y : IVec s w) (i : s.Idx) : addi x y i = x i + y i := rfl

/-! ## The gather body's product: a `[4096, 512]` mask times a `[512, 64]` feature block -/

theorem lhs_gather_0 (j : S4096x64.Idx) (k : dot_S4096x512_S512x64_S4096x64_1_0_0_1_n_n.contr.Idx) :
    (dot_S4096x512_S512x64_S4096x64_1_0_0_1_n_n.lhsIdx j k 0).val = (j 0).val := by
  unfold DotDims.lhsIdx
  rw [dif_neg (show ¬(0 : Fin S4096x512.rank) ∈ dot_S4096x512_S512x64_S4096x64_1_0_0_1_n_n.lhsBatch by decide), dif_pos (show (0 : Fin S4096x512.rank) ∈ dot_S4096x512_S512x64_S4096x64_1_0_0_1_n_n.lhsNonContracting by decide)]
  rfl
theorem lhs_gather_1 (j : S4096x64.Idx) (k : dot_S4096x512_S512x64_S4096x64_1_0_0_1_n_n.contr.Idx) :
    (dot_S4096x512_S512x64_S4096x64_1_0_0_1_n_n.lhsIdx j k 1).val = (k ⟨0, by decide⟩).val :=
  dot_S4096x512_S512x64_S4096x64_1_0_0_1_n_n.lhsIdx_val_of_single rfl j k
theorem rhs_gather_0 (j : S4096x64.Idx) (k : dot_S4096x512_S512x64_S4096x64_1_0_0_1_n_n.contr.Idx) :
    (dot_S4096x512_S512x64_S4096x64_1_0_0_1_n_n.rhsIdx j k 0).val = (k ⟨0, by decide⟩).val :=
  dot_S4096x512_S512x64_S4096x64_1_0_0_1_n_n.rhsIdx_val_of_single rfl j k
theorem rhs_gather_1 (j : S4096x64.Idx) (k : dot_S4096x512_S512x64_S4096x64_1_0_0_1_n_n.contr.Idx) :
    (dot_S4096x512_S512x64_S4096x64_1_0_0_1_n_n.rhsIdx j k 1).val = (j 1).val := by
  unfold DotDims.rhsIdx
  rw [dif_neg (show ¬(1 : Fin S512x64.rank) ∈ dot_S4096x512_S512x64_S4096x64_1_0_0_1_n_n.rhsBatch by decide), dif_pos (show (1 : Fin S512x64.rank) ∈ dot_S4096x512_S512x64_S4096x64_1_0_0_1_n_n.rhsNonContracting by decide)]
  rfl

/-- This product into the zero accumulator, at `(p, q)`: the sum over the 512 contracted positions `n` of the left operand at
    `(p, n)` times the right operand at `(n, q)`. -/
theorem matmul_gather_apply (A : FVec Ideal S4096x512 .bf16) (B : FVec Ideal S512x64 .bf16) (p : Fin 4096) (q : Fin 64) :
    matmul dot_S4096x512_S512x64_S4096x64_1_0_0_1_n_n none A B (constant (F := Ideal) S4096x64 .f32 0x00000000#32) (ix2 p q)
      = ∑ n : Fin 512, A (ix2 p n) * B (ix2 n q) := by
  simp only [matmul]
  rw [Ideal.matmul_constant_zero_apply, ← Equiv.sum_comp (contrEquiv1 dot_S4096x512_S512x64_S4096x64_1_0_0_1_n_n 512 rfl rfl).symm]
  refine Finset.sum_congr rfl fun n _ => ?_
  have hn := contrEquiv1_symm_val dot_S4096x512_S512x64_S4096x64_1_0_0_1_n_n 512 rfl rfl n
  have el : dot_S4096x512_S512x64_S4096x64_1_0_0_1_n_n.lhsIdx (ix2 p q) ((contrEquiv1 dot_S4096x512_S512x64_S4096x64_1_0_0_1_n_n 512 rfl rfl).symm n) = ix2 p n := funext fun a => Fin.ext (by
    match a with
    | ⟨0, _⟩ => exact lhs_gather_0 _ _
    | ⟨1, _⟩ => exact (lhs_gather_1 _ _).trans hn)
  have er : dot_S4096x512_S512x64_S4096x64_1_0_0_1_n_n.rhsIdx (ix2 p q) ((contrEquiv1 dot_S4096x512_S512x64_S4096x64_1_0_0_1_n_n 512 rfl rfl).symm n) = ix2 n q := funext fun a => Fin.ext (by
    match a with
    | ⟨0, _⟩ => exact (rhs_gather_0 _ _).trans hn
    | ⟨1, _⟩ => exact rhs_gather_1 _ _)
  rw [el, er]

/-! ## The scatter body's product: a `[512, 4096]` mask times a `[4096, 64]` message block -/

theorem lhs_scatter_0 (j : S512x64.Idx) (k : dot_S512x4096_S4096x64_S512x64_1_0_0_1_n_n.contr.Idx) :
    (dot_S512x4096_S4096x64_S512x64_1_0_0_1_n_n.lhsIdx j k 0).val = (j 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhs_scatter_1 (j : S512x64.Idx) (k : dot_S512x4096_S4096x64_S512x64_1_0_0_1_n_n.contr.Idx) :
    (dot_S512x4096_S4096x64_S512x64_1_0_0_1_n_n.lhsIdx j k 1).val = (k ⟨0, by decide⟩).val :=
  dot_S512x4096_S4096x64_S512x64_1_0_0_1_n_n.lhsIdx_val_of_single rfl j k
theorem rhs_scatter_0 (j : S512x64.Idx) (k : dot_S512x4096_S4096x64_S512x64_1_0_0_1_n_n.contr.Idx) :
    (dot_S512x4096_S4096x64_S512x64_1_0_0_1_n_n.rhsIdx j k 0).val = (k ⟨0, by decide⟩).val :=
  dot_S512x4096_S4096x64_S512x64_1_0_0_1_n_n.rhsIdx_val_of_single rfl j k
theorem rhs_scatter_1 (j : S512x64.Idx) (k : dot_S512x4096_S4096x64_S512x64_1_0_0_1_n_n.contr.Idx) :
    (dot_S512x4096_S4096x64_S512x64_1_0_0_1_n_n.rhsIdx j k 1).val = (j 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- This product into the zero accumulator, at `(p, q)`: the sum over the 4096 contracted positions `n` of the left operand at
    `(p, n)` times the right operand at `(n, q)`. -/
theorem matmul_scatter_apply (A : FVec Ideal S512x4096 .bf16) (B : FVec Ideal S4096x64 .bf16) (p : Fin 512) (q : Fin 64) :
    matmul dot_S512x4096_S4096x64_S512x64_1_0_0_1_n_n none A B (constant (F := Ideal) S512x64 .f32 0x00000000#32) (ix2 p q)
      = ∑ n : Fin 4096, A (ix2 p n) * B (ix2 n q) := by
  simp only [matmul]
  rw [Ideal.matmul_constant_zero_apply, ← Equiv.sum_comp (contrEquiv1 dot_S512x4096_S4096x64_S512x64_1_0_0_1_n_n 4096 rfl rfl).symm]
  refine Finset.sum_congr rfl fun n _ => ?_
  have hn := contrEquiv1_symm_val dot_S512x4096_S4096x64_S512x64_1_0_0_1_n_n 4096 rfl rfl n
  have el : dot_S512x4096_S4096x64_S512x64_1_0_0_1_n_n.lhsIdx (ix2 p q) ((contrEquiv1 dot_S512x4096_S4096x64_S512x64_1_0_0_1_n_n 4096 rfl rfl).symm n) = ix2 p n := funext fun a => Fin.ext (by
    match a with
    | ⟨0, _⟩ => exact lhs_scatter_0 _ _
    | ⟨1, _⟩ => exact (lhs_scatter_1 _ _).trans hn)
  have er : dot_S512x4096_S4096x64_S512x64_1_0_0_1_n_n.rhsIdx (ix2 p q) ((contrEquiv1 dot_S512x4096_S4096x64_S512x64_1_0_0_1_n_n 4096 rfl rfl).symm n) = ix2 n q := funext fun a => Fin.ext (by
    match a with
    | ⟨0, _⟩ => exact (rhs_scatter_0 _ _).trans hn
    | ⟨1, _⟩ => exact rhs_scatter_1 _ _)
  rw [el, er]

/-! ## The linear layer's product: a `[512, 64]` block of neighbour sums times the `[64, 64]` weight block -/

theorem lhs_linear_0 (j : S512x64.Idx) (k : dot_S512x64_S64x64_S512x64_1_0_0_1_n_n.contr.Idx) :
    (dot_S512x64_S64x64_S512x64_1_0_0_1_n_n.lhsIdx j k 0).val = (j 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem lhs_linear_1 (j : S512x64.Idx) (k : dot_S512x64_S64x64_S512x64_1_0_0_1_n_n.contr.Idx) :
    (dot_S512x64_S64x64_S512x64_1_0_0_1_n_n.lhsIdx j k 1).val = (k ⟨0, by decide⟩).val :=
  dot_S512x64_S64x64_S512x64_1_0_0_1_n_n.lhsIdx_val_of_single rfl j k
theorem rhs_linear_0 (j : S512x64.Idx) (k : dot_S512x64_S64x64_S512x64_1_0_0_1_n_n.contr.Idx) :
    (dot_S512x64_S64x64_S512x64_1_0_0_1_n_n.rhsIdx j k 0).val = (k ⟨0, by decide⟩).val :=
  dot_S512x64_S64x64_S512x64_1_0_0_1_n_n.rhsIdx_val_of_single rfl j k
theorem rhs_linear_1 (j : S512x64.Idx) (k : dot_S512x64_S64x64_S512x64_1_0_0_1_n_n.contr.Idx) :
    (dot_S512x64_S64x64_S512x64_1_0_0_1_n_n.rhsIdx j k 1).val = (j 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- This product into the zero accumulator, at `(p, q)`: the sum over the 64 contracted positions `n` of the left operand at
    `(p, n)` times the right operand at `(n, q)`. -/
theorem matmul_linear_apply (A : FVec Ideal S512x64 .bf16) (B : FVec Ideal S64x64 .bf16) (p : Fin 512) (q : Fin 64) :
    matmul dot_S512x64_S64x64_S512x64_1_0_0_1_n_n none A B (constant (F := Ideal) S512x64 .f32 0x00000000#32) (ix2 p q)
      = ∑ n : Fin 64, A (ix2 p n) * B (ix2 n q) := by
  simp only [matmul]
  rw [Ideal.matmul_constant_zero_apply, ← Equiv.sum_comp (contrEquiv1 dot_S512x64_S64x64_S512x64_1_0_0_1_n_n 64 rfl rfl).symm]
  refine Finset.sum_congr rfl fun n _ => ?_
  have hn := contrEquiv1_symm_val dot_S512x64_S64x64_S512x64_1_0_0_1_n_n 64 rfl rfl n
  have el : dot_S512x64_S64x64_S512x64_1_0_0_1_n_n.lhsIdx (ix2 p q) ((contrEquiv1 dot_S512x64_S64x64_S512x64_1_0_0_1_n_n 64 rfl rfl).symm n) = ix2 p n := funext fun a => Fin.ext (by
    match a with
    | ⟨0, _⟩ => exact lhs_linear_0 _ _
    | ⟨1, _⟩ => exact (lhs_linear_1 _ _).trans hn)
  have er : dot_S512x64_S64x64_S512x64_1_0_0_1_n_n.rhsIdx (ix2 p q) ((contrEquiv1 dot_S512x64_S64x64_S512x64_1_0_0_1_n_n 64 rfl rfl).symm n) = ix2 n q := funext fun a => Fin.ext (by
    match a with
    | ⟨0, _⟩ => exact (rhs_linear_0 _ _).trans hn
    | ⟨1, _⟩ => exact rhs_linear_1 _ _)
  rw [el, er]

/-! ## The stores that do not build a mask -/

/-- The gather body's first-step store is the zero block. -/
theorem pay1_zero0 (y : S4096x64.Idx) : k0_pay1 (F := Ideal) y = 0 := by
  unfold k0_pay1
  show shapeCast S4096x64 (broadcast S4096x64 (Scalar.ofBits (F := Ideal) .f32 0x00000000#32)) shapeCasts_S4096x64_S4096x64 y = 0
  rw [shapeCast_self]
  exact Ideal.ofBits_zero_f32

/-- The gather body's last-step store is its accumulator: the narrowing of the format changes nothing. -/
theorem pay3_apply0 (v26 : Vec Ideal S4096x64 .f32) (y : S4096x64.Idx) : k0_pay3 (F := Ideal) v26 y = v26 y := rfl

/-- The scatter body's first-step store is the zero block. -/
theorem pay1_zero1 (y : S512x64.Idx) : k1_pay1 (F := Ideal) y = 0 := by
  unfold k1_pay1
  show shapeCast S512x64 (broadcast S512x64 (Scalar.ofBits (F := Ideal) .f32 0x00000000#32)) shapeCasts_S512x64_S512x64 y = 0
  rw [shapeCast_self]
  exact Ideal.ofBits_zero_f32

/-- The scatter body's last-step store: row `r` of the accumulator times column `o` of the weight block, plus the bias row's
    entry `o`. -/
theorem pay3_apply1 (v26 : Vec Ideal S512x64 .f32) (v28 : Vec Ideal S64x64 .f32) (v32 : Vec Ideal S1x64 .f32) (r : Fin 512) (o : Fin 64) :
    k1_pay3 (F := Ideal) v26 v28 v32 (ix2 r o) = (∑ k : Fin 64, v26 (ix2 r k) * v28 (ix2 k o)) + v32 (ix2 0 o) := by
  unfold k1_pay3
  show matmul dot_S512x64_S64x64_S512x64_1_0_0_1_n_n none (truncf .bf16 (v26 : FVec Ideal S512x64 .f32) bitsLt_bf16_f32)
        (truncf .bf16 (shapeCast S64x64 (v28 : FVec Ideal S64x64 .f32) shapeCasts_S64x64_S64x64) bitsLt_bf16_f32)
        (constant (F := Ideal) S512x64 .f32 0x00000000#32) (ix2 r o)
      + broadcastTo S512x64 (shapeCast S1x64 (v32 : FVec Ideal S1x64 .f32) shapeCasts_S1x64_S1x64) broadcasts_S1x64_S512x64 (ix2 r o) = _
  rw [matmul_linear_apply, shapeCast_self, shapeCast_self, broadcastTo_1b_ab_apply]
  rfl

/-! ## The masked stores -/

/-- The gather body's mask: entry `(p, n)` compares row `p` of the index column with the node number `step · 512 + n`. -/
def mask0 (i : grid0.Coords) (v7 : IVec S4096x1 32) : FVec Ideal S4096x512 .bf16 :=
  truncf .bf16 (sitofp .f32 (extui 32 (cmpi .eq
    (broadcastTo S4096x512 (shapeCast S4096x1 v7 shapeCasts_S4096x1_S4096x1) broadcasts_S4096x1_S4096x512)
    (broadcastTo S4096x512 (addi (broadcast S1x512 (Scalar.muli (BitVec.ofNat 32 (i 1).val) 512#32))
      (iota .tc S1x512 32 [1] iota_S1x512_d1_w32)) broadcasts_S1x512_S4096x512)) natLt_1_32)) bitsLt_bf16_f32

/-- Its entry `(p, n)` is the one-hot entry of row `p`'s word at node `step · 512 + n`. -/
theorem mask0_apply (i : grid0.Coords) (v7 : IVec S4096x1 32) (p : Fin 4096) (n : Fin 512) :
    mask0 i v7 (ix2 p n) = hot (v7 (ix2 p 0)) ((i 1).val * 512 + n.val) := by
  show FloatOps.sitofp (F := Ideal) .f32 ((IntOp.cmpi .eq
      (broadcastTo S4096x512 (shapeCast S4096x1 v7 shapeCasts_S4096x1_S4096x1) broadcasts_S4096x1_S4096x512 (ix2 p n))
      (broadcastTo S4096x512 (addi (broadcast S1x512 (Scalar.muli (BitVec.ofNat 32 (i 1).val) 512#32))
        (iota .tc S1x512 32 [1] iota_S1x512_d1_w32)) broadcasts_S1x512_S4096x512 (ix2 p n))).setWidth 32) = _
  rw [shapeCast_self, broadcastTo_a1_ab_apply, broadcastTo_1b_ab_apply]
  refine sitofp_cmpi_eq _ _ _ ?_
  rw [addi_apply, iota_single_apply]
  exact word_mul_add _ _

/-- The gather body's every-step store at `(p, q)`: the accumulator there plus, over the step's 512 nodes `n`, the
    one-hot entry of row `p`'s word at node `step · 512 + n` times the feature block's entry `(n, q)`. -/
theorem pay2_apply0 (i : grid0.Coords) (v7 : Vec Ideal S4096x1 .i32) (v15 : Vec Ideal S4096x64 .f32) (v16 : Vec Ideal S512x64 .bf16) (p : Fin 4096) (q : Fin 64) :
    k0_pay2 (F := Ideal) i v7 v15 v16 (ix2 p q) = v15 (ix2 p q) + ∑ n : Fin 512, hot (v7 (ix2 p 0)) ((i 1).val * 512 + n.val) * v16 (ix2 n q) := by
  unfold k0_pay2
  show shapeCast S4096x64 (addf (v15 : FVec Ideal S4096x64 .f32)
      (matmul dot_S4096x512_S512x64_S4096x64_1_0_0_1_n_n none (mask0 i v7)
        (shapeCast S512x64 (v16 : FVec Ideal S512x64 .bf16) shapeCasts_S512x64_S512x64)
        (constant (F := Ideal) S4096x64 .f32 0x00000000#32))) shapeCasts_S4096x64_S4096x64 (ix2 p q) = _
  rw [shapeCast_self, shapeCast_self, addf_apply, matmul_gather_apply]
  refine congrArg (v15 (ix2 p q) + ·) (Finset.sum_congr rfl fun n _ => ?_)
  rw [mask0_apply]

/-- The scatter body's mask: entry `(r, e)` compares edge `e` of the destination row with the node number `block · 512 + r`. -/
def mask1 (i : grid1.Coords) (v7 : IVec S1x4096 32) : FVec Ideal S512x4096 .bf16 :=
  truncf .bf16 (sitofp .f32 (extui 32 (cmpi .eq
    (broadcastTo S512x4096 (shapeCast S1x4096 v7 shapeCasts_S1x4096_S1x4096) broadcasts_S1x4096_S512x4096)
    (broadcastTo S512x4096 (addi (broadcast S512x1 (Scalar.muli (BitVec.ofNat 32 (i 0).val) 512#32))
      (iota .tc S512x1 32 [0] iota_S512x1_d0_w32)) broadcasts_S512x1_S512x4096)) natLt_1_32)) bitsLt_bf16_f32

/-- Its entry `(r, e)` is the one-hot entry of edge `e`'s word at node `block · 512 + r`. -/
theorem mask1_apply (i : grid1.Coords) (v7 : IVec S1x4096 32) (r : Fin 512) (e : Fin 4096) :
    mask1 i v7 (ix2 r e) = hot (v7 (ix2 0 e)) ((i 0).val * 512 + r.val) := by
  show FloatOps.sitofp (F := Ideal) .f32 ((IntOp.cmpi .eq
      (broadcastTo S512x4096 (shapeCast S1x4096 v7 shapeCasts_S1x4096_S1x4096) broadcasts_S1x4096_S512x4096 (ix2 r e))
      (broadcastTo S512x4096 (addi (broadcast S512x1 (Scalar.muli (BitVec.ofNat 32 (i 0).val) 512#32))
        (iota .tc S512x1 32 [0] iota_S512x1_d0_w32)) broadcasts_S512x1_S512x4096 (ix2 r e))).setWidth 32) = _
  rw [shapeCast_self, broadcastTo_1b_ab_apply, broadcastTo_a1_ab_apply]
  refine sitofp_cmpi_eq _ _ _ ?_
  rw [addi_apply, iota_single_apply]
  exact word_mul_add _ _

/-- The scatter body's every-step store at `(r, q)`: the accumulator there plus, over the step's 4096 edges `e`, the
    one-hot entry of edge `e`'s destination word at node `block · 512 + r` times the message block's entry `(e, q)`. -/
theorem pay2_apply1 (i : grid1.Coords) (v7 : Vec Ideal S1x4096 .i32) (v15 : Vec Ideal S512x64 .f32) (v16 : Vec Ideal S4096x64 .bf16) (r : Fin 512) (q : Fin 64) :
    k1_pay2 (F := Ideal) i v7 v15 v16 (ix2 r q) = v15 (ix2 r q) + ∑ e : Fin 4096, hot (v7 (ix2 0 e)) ((i 0).val * 512 + r.val) * v16 (ix2 e q) := by
  unfold k1_pay2
  show shapeCast S512x64 (addf (v15 : FVec Ideal S512x64 .f32)
      (matmul dot_S512x4096_S4096x64_S512x64_1_0_0_1_n_n none (mask1 i v7)
        (shapeCast S4096x64 (v16 : FVec Ideal S4096x64 .bf16) shapeCasts_S4096x64_S4096x64)
        (constant (F := Ideal) S512x64 .f32 0x00000000#32))) shapeCasts_S512x64_S512x64 (ix2 r q) = _
  rw [shapeCast_self, shapeCast_self, addf_apply, matmul_scatter_apply]
  refine congrArg (v15 (ix2 r q) + ·) (Finset.sum_congr rfl fun e _ => ?_)
  rw [mask1_apply]

end Cert.KernelIdeal.Payload

end
-- ==== Proof.Gather.Value.lean ====
/-
  Region 0 (the gather call): its value over the extended reals.

  Row `e` of the region's result is the one-hot row of edge `e`'s source word against the (padded) feature table:
  `result[e, q] = ∑ n < 50176, [src e = n] · feature[n, q]`. The grid runs 306 rows of 98 reduction steps; step `s` of row `r`
  adds, for each of the row's 4096 edges, the 512 terms of node numbers `512 s … 512 s + 511`. So after step `s` the
  accumulator holds the terms below `512 (s + 1)` (induction on the position), after the last step all 98 · 512 = 50176
  of them, and that is what the row's one write-back puts into rows `4096 r … 4096 r + 4095` of the result; the 306 rows
  cover the array. Over the extended reals the rounding to bf16 is the identity and the zero block is `0`.
-/
import proofs.«403988_j42975442764291_1_alg».proof.Proof.Gather.Pieces
import proofs.«403988_j42975442764291_1_alg».proof.Proof.Spec
import proofs.«403988_j42975442764291_1_alg».proof.Proof.Payload
import Idealize.ShloMosaic.Lib.Pipeline.Value
import Idealize.ShloMosaic.Lib.ValueIdx

set_option maxRecDepth 16384

noncomputable section

namespace Cert.KernelIdeal.Gather

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Sched Cert.KernelIdeal.Payload Cert.Spec
open scoped BigOperators

-- the TensorCore's buffer contents when the region is entered, over the extended reals
variable (V : (c : Dev nD) → (b : Ref sig .tc) → Buf (Elt Ideal) ((c : Thread nD τ).loc b))

/-! ## The two arrays, read at natural numbers -/

/-- The index array: one 32-bit word per (padded) edge. -/
abbrev srcArr (c : Dev nD) : S1253376x1.Idx → BitVec 32 := V c main_v4
/-- The (padded) feature table: one row of 64 per node. -/
abbrev featArr (c : Dev nD) : S50176x64.Idx → EReal := V c main_v1

/-- WHAT THE REGION COMPUTES: row `e` of the result is the one-hot row of edge `e`'s word against the feature table,
    `∑ n < 50176, [src e = n] · feature[n, ·]`. -/
abbrev G0 (c : Dev nD) : S1253376x64.Idx → EReal :=
  fun y => ∑ n : Fin 50176, hot (srcArr V c (ix2 (y 0) 0)) n.val * featArr V c (ix2 n (y 1))

/-- Edge `e`'s word, for any natural `e` (zero past the array: never read there). -/
def srcAt (c : Dev nD) (e : ℕ) : BitVec 32 := if h : e < 1253376 then srcArr V c (ix2 ⟨e, h⟩ 0) else 0
/-- Entry `(k, q)` of the feature table, for any natural `k` (zero past the table: never read there). -/
def featAt (c : Dev nD) (k : ℕ) (q : Fin 64) : EReal := if h : k < 50176 then featArr V c (ix2 ⟨k, h⟩ q) else 0
/-- One term of edge `e`'s one-hot row against column `q`: `[src e = k] · feature[k, q]`. -/
def term (c : Dev nD) (e : ℕ) (q : Fin 64) (k : ℕ) : EReal := hot (srcAt V c e) k * featAt V c k q

/-- `G0` at an index whose coordinates are `e` and `q`: the sum of the terms below 50176. -/
theorem G0_apply (c : Dev nD) (y : S1253376x64.Idx) (e : ℕ) (q : Fin 64) (he : (y 0).val = e) (hq : (y 1).val = q.val) :
    G0 V c y = ∑ k ∈ Finset.range 50176, term V c e q k := by
  have hy0 : e < 1253376 := he ▸ (y 0).isLt
  have e0 : (y 0 : Fin 1253376) = ⟨e, hy0⟩ := Fin.ext he
  have e1 : (y 1 : Fin 64) = q := Fin.ext hq
  rw [← Fin.sum_univ_eq_sum_range (fun k => term V c e q k) 50176]
  refine Finset.sum_congr rfl fun n _ => ?_
  unfold term srcAt featAt
  rw [dif_pos hy0, dif_pos n.isLt, e0, e1]
  rfl

/-! ## The blocks, read off the arrays

A block's coordinate in its array is its block index times the block's extent plus the coordinate inside the block; the
index column follows the row `t / 98` of the grid, the feature block the step `t % 98`. -/

theorem idxBlk_apply (c : Dev nD) (t : Fin cfg0.N) (p : Fin 4096) :
    idxBlk V c t (ix2 p 0) = srcAt V c ((t.val / 98) * 4096 + p.val) := by
  have hN : t.val < 29988 := lt_of_lt_of_eq t.isLt (show cfg0.N = 29988 from N_0)
  have hb : (t.val / 98) * 4096 + p.val < 1253376 := by have := p.isLt; omega
  have i0 : win0_0.index t 0 = t.val / 98 := congrFun (index0_0 t) 0
  have i1 : win0_0.index t 1 = 0 := congrFun (index0_0 t) 1
  unfold srcAt
  rw [dif_pos hb]
  show V c main_v4 (((cfg0.win 0).blk t).view.emb (ix2 p 0)) = V c main_v4 (ix2 ⟨(t.val / 98) * 4096 + p.val, hb⟩ 0)
  congr 1
  funext a
  apply Fin.ext
  match a with
  | ⟨0, _⟩ => show win0_0.index t 0 * 4096 + 1 * p.val = (t.val / 98) * 4096 + p.val; rw [i0]; omega
  | ⟨1, _⟩ => show win0_0.index t 1 * 1 + 1 * 0 = 0; rw [i1]

theorem featBlk_apply (c : Dev nD) (t : Fin cfg0.N) (n : Fin 512) (q : Fin 64) :
    featBlk V c t (ix2 n q) = featAt V c ((t.val % 98) * 512 + n.val) q := by
  have hb : (t.val % 98) * 512 + n.val < 50176 := by have := n.isLt; omega
  have i0 : win0_1.index t 0 = t.val % 98 := congrFun (index0_1 t) 0
  have i1 : win0_1.index t 1 = 0 := congrFun (index0_1 t) 1
  unfold featAt
  rw [dif_pos hb]
  show V c main_v1 (((cfg0.win 1).blk t).view.emb (ix2 n q)) = V c main_v1 (ix2 ⟨(t.val % 98) * 512 + n.val, hb⟩ q)
  congr 1
  funext a
  apply Fin.ext
  match a with
  | ⟨0, _⟩ => show win0_1.index t 0 * 512 + 1 * n.val = (t.val % 98) * 512 + n.val; rw [i0]; omega
  | ⟨1, _⟩ => show win0_1.index t 1 * 64 + 1 * q.val = q.val; rw [i1]; omega

/-! ## The row invariant -/

/-- The step's one-hot product at `(p, q)`: the 512 terms of the step's node numbers. -/
theorem addend_eq (c : Dev nD) (t : Fin cfg0.N) (p : Fin 4096) (q : Fin 64) :
    ∑ n : Fin 512, hot (idxBlk V c t (ix2 p 0)) ((grid0.coords t 1).val * 512 + n.val) * featBlk V c t (ix2 n q)
      = ∑ x ∈ Finset.range 512, term V c ((t.val / 98) * 4096 + p.val) q ((t.val % 98) * 512 + x) := by
  rw [← Fin.sum_univ_eq_sum_range (fun x => term V c ((t.val / 98) * 4096 + p.val) q ((t.val % 98) * 512 + x)) 512]
  refine Finset.sum_congr rfl fun n _ => ?_
  rw [idxBlk_apply V c t p, featBlk_apply V c t n q, coords0_1 t]
  rfl

/-- The terms below `(s + 1) · 512` are those below `s · 512` and the next 512. -/
theorem range_block (f : ℕ → EReal) (s : ℕ) :
    ∑ k ∈ Finset.range ((s + 1) * 512), f k = ∑ k ∈ Finset.range (s * 512), f k + ∑ x ∈ Finset.range 512, f (s * 512 + x) := by
  rw [show (s + 1) * 512 = s * 512 + 512 from by omega, Finset.sum_range_add]

/-- At the first step of a row the accumulator holds the first 512 terms: zero plus the step's product. -/
theorem acc_first (c : Dev nD) (t : Fin cfg0.N) (h0 : t.val % 98 = 0) (p : Fin 4096) (q : Fin 64) :
    (outsAt0 V c t.val t.isLt).2 (ix2 p q)
      = ∑ k ∈ Finset.range ((t.val % 98 + 1) * 512), term V c ((t.val / 98) * 4096 + p.val) q k := by
  refine (congrFun (acc0_first V c t h0) (ix2 p q)).trans ?_
  refine (pay2_apply0 (grid0.coords t) (idxBlk V c t) (k0_pay1 (F := Ideal)) (featBlk V c t) p q).trans ?_
  rw [pay1_zero0, zero_add, addend_eq V c t p q, range_block, h0]
  simp only [Nat.zero_mul, Finset.range_zero, Finset.sum_empty, zero_add]

/-- At a later step the accumulator gains the step's 512 terms. -/
theorem acc_next (c : Dev nD) (t : Fin cfg0.N) (h0 : ¬t.val % 98 = 0) (p : Fin 4096) (q : Fin 64)
    (ih : (outsAt0 V c (t.val - 1) (Nat.lt_of_le_of_lt (Nat.sub_le _ _) t.isLt)).2 (ix2 p q)
      = ∑ k ∈ Finset.range (((t.val - 1) % 98 + 1) * 512), term V c (((t.val - 1) / 98) * 4096 + p.val) q k) :
    (outsAt0 V c t.val t.isLt).2 (ix2 p q)
      = ∑ k ∈ Finset.range ((t.val % 98 + 1) * 512), term V c ((t.val / 98) * 4096 + p.val) q k := by
  have hm : (t.val - 1) % 98 + 1 = t.val % 98 := by omega
  have hd : (t.val - 1) / 98 = t.val / 98 := by omega
  rw [hm, hd] at ih
  refine (congrFun (acc0_next V c t h0) (ix2 p q)).trans ?_
  refine (pay2_apply0 (grid0.coords t) (idxBlk V c t) (outsAt0 V c (t.val - 1) (Nat.lt_of_le_of_lt (Nat.sub_le _ _) t.isLt)).2 (featBlk V c t) p q).trans ?_
  rw [ih, addend_eq V c t p q, range_block]

/-- THE ROW INVARIANT: after position `n` — step `n % 98` of row `n / 98` — the accumulator holds at `(p, q)` the terms of
    edge `(n / 98) · 4096 + p` below `(n % 98 + 1) · 512`. By induction on the position. -/
theorem acc0_eq (c : Dev nD) : ∀ (n : ℕ) (hn : n < cfg0.N) (p : Fin 4096) (q : Fin 64),
    (outsAt0 V c n hn).2 (ix2 p q) = ∑ k ∈ Finset.range ((n % 98 + 1) * 512), term V c ((n / 98) * 4096 + p.val) q k
  | 0, hn, p, q => acc_first V c ⟨0, hn⟩ (Nat.zero_mod _) p q
  | n + 1, hn, p, q => by
    by_cases h0 : (n + 1) % 98 = 0
    · exact acc_first V c ⟨n + 1, hn⟩ h0 p q
    · exact acc_next V c ⟨n + 1, hn⟩ h0 p q (acc0_eq c n (Nat.lt_of_succ_lt hn) p q)

/-! ## From the blocks to the array -/

/-- The output window's blocks tile the result array, so what a point writes back is all of what the body left, -/
theorem cut0_2_apply (t : Fin cfg0.N) (X : Vec Ideal S4096x64 .bf16) (j : S4096x64.Idx) :
    (cfg0.win 2).cut (grid0.coords t) X j = X j := rfl

/-- and a function on the result array, read through point `t`'s block, is the function at the embedded index. -/
theorem read0_2_apply (t : Fin cfg0.N) (G : S1253376x64.Idx → EReal) (j : S4096x64.Idx) :
    ((cfg0.win 2).blk t).view.read (Elt Ideal) G j = G (((cfg0.win 2).blk t).view.emb j) := rfl

/-- WHAT A LAST STEP WRITES BACK is its block of `G0`: the accumulator then holds all 98 · 512 = 50176 terms, and the
    rounding is the identity on the extended reals. -/
theorem flushed0_eq (c : Dev nD) (t : Fin cfg0.N) (hf : (cfg0.win 2).flush t = true) :
    (dat0 V c).flushed 2 t = ((cfg0.win 2).blk t).view.read (Elt Ideal) (G0 V c) := by
  have h1 : t.val % 98 = 97 := (flush0_2 t).mp hf
  have i0 : win0_2.index t 0 = t.val / 98 := congrFun (index0_2 t) 0
  have i1 : win0_2.index t 1 = 0 := congrFun (index0_2 t) 1
  show (cfg0.win 2).cut (grid0.coords t) ((dat0 V c).after 2 t) = _
  rw [after0_2, out0_last V c t h1]
  funext j
  obtain ⟨p, q, rfl⟩ : ∃ (p : Fin 4096) (q : Fin 64), j = ix2 p q := ⟨j 0, j 1, eq_ix2 j⟩
  refine (cut0_2_apply t _ (ix2 p q)).trans ?_
  refine Eq.trans ?_ (read0_2_apply t (G0 V c) (ix2 p q)).symm
  refine (pay3_apply0 _ _).trans ?_
  rw [acc0_eq V c t.val t.isLt p q, h1]
  refine (G0_apply V c _ ((t.val / 98) * 4096 + p.val) q ?_ ?_).symm
  · show win0_2.index t 0 * 4096 + 1 * p.val = (t.val / 98) * 4096 + p.val; rw [i0]; omega
  · show win0_2.index t 1 * 64 + 1 * q.val = q.val; rw [i1]; omega

/-- An index of the result array is in point `t`'s block iff each coordinate is in the block's range on its axis. -/
theorem mem_blk0_2 (t : Fin cfg0.N) (i : S1253376x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v6).slice (win0_2.rect t)).set ↔ _
  rw [View.set_slice_whole, Rect.mem_set_unit]
  exact Iff.rfl

/-- Row `e` of the result array lies in the block written back at the last step of grid row `e / 4096`. -/
theorem cover0 (i : S1253376x64.Idx) : ∃ t : Fin cfg0.N, (cfg0.win 2).flush t = true ∧ i ∈ ((cfg0.win 2).blk t).view.set := by
  have hi0 : (i 0).val < 1253376 := (i 0).isLt
  have hi1 : (i 1).val < 64 := (i 1).isLt
  have hN : cfg0.N = 29988 := N_0
  let t : Fin cfg0.N := ⟨((i 0).val / 4096) * 98 + 97, by rw [hN]; omega⟩
  have ht : t.val = ((i 0).val / 4096) * 98 + 97 := rfl
  have i0 : win0_2.index t 0 = t.val / 98 := congrFun (index0_2 t) 0
  have i1 : win0_2.index t 1 = 0 := congrFun (index0_2 t) 1
  refine ⟨t, (flush0_2 t).mpr (by rw [ht]; omega), ?_⟩
  rw [mem_blk0_2]
  intro a
  match a with
  | ⟨0, _⟩ => show win0_2.index t 0 * 4096 ≤ (i 0).val ∧ (i 0).val < win0_2.index t 0 * 4096 + 4096; rw [i0, ht]; omega
  | ⟨1, _⟩ => show win0_2.index t 1 * 64 ≤ (i 1).val ∧ (i 1).val < win0_2.index t 1 * 64 + 64; rw [i1]; omega

/-- THE VALUE OF THE REGION: the result array ends holding, row by row, the one-hot row of the edge's word against the
    feature table. -/
theorem value0 (c : Dev nD) : (dat0 (F := Ideal) V c).arrAt 2 cfg0.N = G0 V c :=
  (dat0 V c).arrAt_eq_of_cover 2 (G0 V c) (flushed0_eq V c) (cover0)

/-- The same at explicit coordinates: entry `(e, k)` of the result is edge `e`'s one-hot row against column `k` of the
    feature table. -/
theorem value0_apply (c : Dev nD) (e : Fin 1253376) (k : Fin 64) :
    ((dat0 (F := Ideal) V c).arrAt 2 cfg0.N : S1253376x64.Idx → EReal) (ix2 e k)
      = ∑ n : Fin 50176, hot ((V c main_v4 : S1253376x1.Idx → BitVec 32) (ix2 e 0)) n.val * (V c main_v1 : S50176x64.Idx → EReal) (ix2 n k) :=
  congrFun (value0 V c) (ix2 e k)

end Cert.KernelIdeal.Gather

end
-- ==== Proof.Scatter.Pieces.lean ====
import proofs.«403988_j42975442764291_1_alg».proof.Proof.Scatter.Frame
import Idealize.ShloMosaic.Lib.Pipeline.Value

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched

variable {F : FTy → Type} [FloatOps F]

local notation "𝕄" => MT nD τ sig Unit (Elt F) ℕ (UR sig nD τ) ℕ

/-! # The second pallas_call: what each control case leaves, as payloads of the blocks

Every store of the body writes a whole buffer and every load reads one, so the pieces a case's run found read back as
the payload of the last store, over the loaded contents themselves. -/

/-- The zero offsets, however they are spelt. -/
theorem hz2 : (![0, 0] : Fin 2 → ℕ) = fun _ => 0 := funext fun a => by fin_cases a <;> rfl

/-- CASE FIRST leaves in the accumulator the update of the zero block: the zeros are stored, read back, and the product
    of the one-hot mask with the data block is added to them. -/
theorem sout1_A_0_eq (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : cond1_0 i) (hc1 : ¬cond1_1 i)
    (x0 : Vec F S1x4096 .i32) (x1 : Vec F S4096x64 .bf16) (x2 : Vec F S64x64 .f32) (x3 : Vec F S1x64 .f32) :
    sout1_A_0 c i arg2 harg2 arg3 harg3 arg4 harg4 arg5 harg5 arg6 harg6 arg7 harg7 hc0 hc1 x0 x1 x2 x3 = k1_pay2 i x0 (k1_pay1 (F := F)) x1 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S512x64) hz2, View.readCov_unit_zero (S := S512x64) _ hz2]
  simp only [View.readAt_eq_ld, harg2.read_unread, harg3.read_unread, harg4.read_unread, harg5.read_unread, harg7.read_unread,
    View.ld_unit_zero (S := S1x4096) hz2, View.ld_unit_zero (S := S4096x64) hz2, View.ld_unit_zero (S := S64x64) hz2,
    View.ld_unit_zero (S := S1x64) hz2, View.ld_unit_zero (S := S512x64) hz2]

/-- CASE MID leaves in the accumulator the update of what it held. -/
theorem sout1_B_0_eq (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : ¬cond1_1 i)
    (x0 : Vec F S1x4096 .i32) (x1 : Vec F S4096x64 .bf16) (x2 : Vec F S64x64 .f32) (x3 : Vec F S1x64 .f32) (xs0 : Vec F S512x64 .f32) :
    sout1_B_0 c i arg2 harg2 arg3 harg3 arg4 harg4 arg5 harg5 arg6 harg6 arg7 harg7 hc0 hc1 x0 x1 x2 x3 xs0 = k1_pay2 i x0 xs0 x1 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero (S := S512x64) hz2]
  simp only [View.readAt_eq_ld, harg2.read_unread, harg3.read_unread, harg4.read_unread, harg5.read_unread, harg7.read_unread,
    View.ld_unit_zero (S := S1x4096) hz2, View.ld_unit_zero (S := S4096x64) hz2, View.ld_unit_zero (S := S64x64) hz2,
    View.ld_unit_zero (S := S1x64) hz2, View.ld_unit_zero (S := S512x64) hz2]

/-- CASE LAST leaves in the accumulator the update of what it held, -/
theorem sout1_C_0_eq (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) :
    sout1_C_0 c i arg2 harg2 arg3 harg3 arg4 harg4 arg5 harg5 arg6 harg6 arg7 harg7 hc0 hc1 x0 x1 x2 x3 xs0 = k1_pay2 i x0 xs0 x1 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S512x64) hz2]
  simp only [View.readAt_eq_ld, harg2.read_unread, harg3.read_unread, harg4.read_unread, harg5.read_unread, harg7.read_unread,
    View.ld_unit_zero (S := S1x4096) hz2, View.ld_unit_zero (S := S4096x64) hz2, View.ld_unit_zero (S := S64x64) hz2,
    View.ld_unit_zero (S := S1x64) hz2, View.ld_unit_zero (S := S512x64) hz2]

/-- and in the output's buffer the linear layer of that update: the accumulator is read back after its store. -/
theorem out1_C_4_eq (c : Dev nD) (i : grid1.Coords) (arg2 : Memref sig .tc .vmem S1x4096 .i32) (harg2 : arg2.IsWhole) (arg3 : Memref sig .tc .vmem S4096x64 .bf16) (harg3 : arg3.IsWhole) (arg4 : Memref sig .tc .vmem S64x64 .f32) (harg4 : arg4.IsWhole) (arg5 : Memref sig .tc .vmem S1x64 .f32) (harg5 : arg5.IsWhole) (arg6 : Memref sig .tc .vmem S512x64 .f32) (harg6 : arg6.IsWhole) (arg7 : Memref sig .tc .vmem S512x64 .f32) (harg7 : arg7.IsWhole) (hc0 : ¬cond1_0 i) (hc1 : cond1_1 i)
    (x0 : Vec F S1x4096 .i32) (x1 : Vec F S4096x64 .bf16) (x2 : Vec F S64x64 .f32) (x3 : Vec F S1x64 .f32) (xs0 : Vec F S512x64 .f32) :
    out1_C_4 c i arg2 harg2 arg3 harg3 arg4 harg4 arg5 harg5 arg6 harg6 arg7 harg7 hc0 hc1 x0 x1 x2 x3 xs0 = k1_pay3 (k1_pay2 i x0 xs0 x1) x2 x3 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero (S := S512x64) hz2, View.readCov_unit_zero (S := S512x64) _ hz2]
  simp only [View.readAt_eq_ld, harg2.read_unread, harg3.read_unread, harg4.read_unread, harg5.read_unread, harg7.read_unread,
    View.ld_unit_zero (S := S1x4096) hz2, View.ld_unit_zero (S := S4096x64) hz2, View.ld_unit_zero (S := S64x64) hz2,
    View.ld_unit_zero (S := S1x64) hz2, View.ld_unit_zero (S := S512x64) hz2]

/-! ## Point by point -/

section Region
variable (V : (c : Dev nD) → (b : Ref sig .tc) → Buf (Elt F) ((c : Thread nD τ).loc b))

/-- The four input blocks at point `t`, at their literal types: the destination words of 4096 edges, their 4096 message
    rows, the transposed weight matrix and the bias row. -/
abbrev dstBlk (c : Dev nD) (t : Fin cfg1.N) : Vec F S1x4096 .i32 := iblk1 V c 0 t
abbrev msgBlk (c : Dev nD) (t : Fin cfg1.N) : Vec F S4096x64 .bf16 := iblk1 V c 1 t
abbrev wtBlk (c : Dev nD) (t : Fin cfg1.N) : Vec F S64x64 .f32 := iblk1 V c 2 t
abbrev bBlk (c : Dev nD) (t : Fin cfg1.N) : Vec F S1x64 .f32 := iblk1 V c 3 t

/-- At the first step of a row the accumulator ends at the update of the zero block. -/
theorem acc1_first (c : Dev nD) (t : Fin cfg1.N) (h0 : t.val % 306 = 0) :
    (outsAt1 V c t.val t.isLt).2 = k1_pay2 (grid1.coords t) (dstBlk V c t) (k1_pay1 (F := F)) (msgBlk V c t) := by
  have h1 : ¬t.val % 306 = 305 := by omega
  rw [outsAt1_A V c t h0 h1]; dsimp only
  exact sout1_A_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- At every later step it ends at the update of what the step before left. -/
theorem acc1_next (c : Dev nD) (t : Fin cfg1.N) (h0 : ¬t.val % 306 = 0) :
    (outsAt1 V c t.val t.isLt).2
      = k1_pay2 (grid1.coords t) (dstBlk V c t) (outsAt1 V c (t.val - 1) (Nat.lt_of_le_of_lt (Nat.sub_le _ _) t.isLt)).2 (msgBlk V c t) := by
  by_cases h1 : t.val % 306 = 305
  · rw [outsAt1_C V c t h0 h1]; dsimp only
    exact sout1_C_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]; dsimp only
    exact sout1_B_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- At the last step of a row the output's buffer ends at the linear layer of the accumulator as that step leaves it. -/
theorem out1_last (c : Dev nD) (t : Fin cfg1.N) (h1 : t.val % 306 = 305) :
    (outsAt1 V c t.val t.isLt).1 = k1_pay3 (outsAt1 V c t.val t.isLt).2 (wtBlk V c t) (bBlk V c t) := by
  have h0 : ¬t.val % 306 = 0 := by omega
  rw [outsAt1_C V c t h0 h1]; dsimp only
  rw [out1_C_4_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
    sout1_C_0_eq (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2]

end Region

end Cert.KernelIdeal.Scatter

end
-- ==== Proof.Scatter.Value.lean ====
import proofs.«403988_j42975442764291_1_alg».proof.Proof.Scatter.Pieces
import proofs.«403988_j42975442764291_1_alg».proof.Proof.Spec
import proofs.«403988_j42975442764291_1_alg».proof.Proof.Payload
import Idealize.ShloMosaic.Lib.Pipeline.Value
import Idealize.ShloMosaic.Lib.ValueIdx

set_option maxRecDepth 16384

noncomputable section

namespace Cert.KernelIdeal.Scatter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Sched Cert.KernelIdeal.Payload
open Idealize.ShloMosaic.ValueIdx
open Cert.Spec (hot)

local notation "𝕄" => MT nD τ sig Unit (Elt Ideal) ℕ (UR sig nD τ) ℕ

/-! # The value of the second pallas_call over the extended reals

Entered with the destination words (one row of 1253376), the messages (1253376 rows of 64), the transposed weight
matrix and the bias row, the call leaves in its result array, at node `n` and output feature `o`,
`(∑ k, (∑ e, hot (dst e) n · msgs[e, k]) · Wᵀ[k, o]) + b[o]`: every node's messages summed, then the linear layer.
The accumulator after step `s` of node block `ρ` holds the partial sums over the first `(s + 1) · 4096` edges. -/

section Region
variable (V : (c : Dev nD) → (b : Ref sig .tc) → Buf (Elt Ideal) ((c : Thread nD τ).loc b))

/-- The four arrays the call reads, at their literal types. -/
abbrev dstArr (c : Dev nD) : Vec Ideal S1x1253376 .i32 := V c main_v5
abbrev msgArr (c : Dev nD) : Vec Ideal S1253376x64 .bf16 := V c main_v6
abbrev wtArr (c : Dev nD) : Vec Ideal S64x64 .f32 := V c main_v7
abbrev bArr (c : Dev nD) : Vec Ideal S1x64 .f32 := V c main_v8

/-- Destination word `n` of the padded edge list, and entry `(n, q)` of the messages, as total functions of the edge
    number (past the end, where nothing reads them, `0`). -/
def dstW (c : Dev nD) (n : ℕ) : BitVec 32 := if h : n < 1253376 then dstArr V c (ix2 (0 : Fin 1) (⟨n, h⟩ : Fin 1253376)) else 0
def msgW (c : Dev nD) (n : ℕ) (q : Fin 64) : EReal := if h : n < 1253376 then msgArr V c (ix2 (⟨n, h⟩ : Fin 1253376) q) else 0

/-! ## The blocks as parts of the arrays -/

/-- The block of destination words at point `t` is words `(t % 306) · 4096 …` of the row. -/
theorem dst_read (c : Dev nD) (t : Fin cfg1.N) (x : S1x4096.Idx) (k : S1x1253376.Idx)
    (hk0 : (k 0).val = (x 0).val) (hk1 : (k 1).val = (t.val % 306) * 4096 + (x 1).val) :
    dstBlk V c t x = dstArr V c k := by
  have hi0 : win1_0.index t 0 = 0 := by rw [index1_0]; rfl
  have hi1 : win1_0.index t 1 = t.val % 306 := by rw [index1_0]; rfl
  show ((cfg1.win 0).blk t).view.read (Elt Ideal) (V c (Pipeline.arrRef spec1 0)) x = _
  rw [View.read_apply]
  show V c main_v5 _ = V c main_v5 _
  congr 1
  funext a
  apply Fin.ext
  match a with
  | ⟨0, _⟩ => show win1_0.index t 0 * 1 + 1 * (x 0).val = (k 0).val; rw [hi0, hk0]; omega
  | ⟨1, _⟩ => show win1_0.index t 1 * 4096 + 1 * (x 1).val = (k 1).val; rw [hi1, hk1]; omega

/-- The block of messages at point `t` is rows `(t % 306) · 4096 …` of the array. -/
theorem msg_read (c : Dev nD) (t : Fin cfg1.N) (x : S4096x64.Idx) (k : S1253376x64.Idx)
    (hk0 : (k 0).val = (t.val % 306) * 4096 + (x 0).val) (hk1 : (k 1).val = (x 1).val) :
    msgBlk V c t x = msgArr V c k := by
  have hi0 : win1_1.index t 0 = t.val % 306 := by rw [index1_1]; rfl
  have hi1 : win1_1.index t 1 = 0 := by rw [index1_1]; rfl
  show ((cfg1.win 1).blk t).view.read (Elt Ideal) (V c (Pipeline.arrRef spec1 1)) x = _
  rw [View.read_apply]
  show V c main_v6 _ = V c main_v6 _
  congr 1
  funext a
  apply Fin.ext
  match a with
  | ⟨0, _⟩ => show win1_1.index t 0 * 4096 + 1 * (x 0).val = (k 0).val; rw [hi0, hk0]; omega
  | ⟨1, _⟩ => show win1_1.index t 1 * 64 + 1 * (x 1).val = (k 1).val; rw [hi1, hk1]; omega

/-- The weight block is the whole matrix, -/
theorem wt_read (c : Dev nD) (t : Fin cfg1.N) (x : S64x64.Idx) : wtBlk V c t x = wtArr V c x := by
  show ((cfg1.win 2).blk t).view.read (Elt Ideal) (V c (Pipeline.arrRef spec1 2)) x = _
  rw [View.read_apply]
  show V c main_v7 _ = V c main_v7 _
  congr 1
  funext a
  apply Fin.ext
  match a with
  | ⟨0, _⟩ => show win1_2.index t 0 * 64 + 1 * (x 0).val = (x 0).val; rw [show win1_2.index t 0 = 0 from rfl]; omega
  | ⟨1, _⟩ => show win1_2.index t 1 * 64 + 1 * (x 1).val = (x 1).val; rw [show win1_2.index t 1 = 0 from rfl]; omega

/-- and the bias block the whole row. -/
theorem b_read (c : Dev nD) (t : Fin cfg1.N) (x : S1x64.Idx) : bBlk V c t x = bArr V c x := by
  show ((cfg1.win 3).blk t).view.read (Elt Ideal) (V c (Pipeline.arrRef spec1 3)) x = _
  rw [View.read_apply]
  show V c main_v8 _ = V c main_v8 _
  congr 1
  funext a
  apply Fin.ext
  match a with
  | ⟨0, _⟩ => show win1_3.index t 0 * 1 + 1 * (x 0).val = (x 0).val; rw [show win1_3.index t 0 = 0 from rfl]; omega
  | ⟨1, _⟩ => show win1_3.index t 1 * 64 + 1 * (x 1).val = (x 1).val; rw [show win1_3.index t 1 = 0 from rfl]; omega

/-- Word `e` of the block at point `t` is word `(t % 306) · 4096 + e` of the list; likewise the message rows. -/
theorem dstBlk_W (c : Dev nD) (t : Fin cfg1.N) (e : Fin 4096) :
    dstBlk V c t (ix2 (0 : Fin 1) e) = dstW V c ((t.val % 306) * 4096 + e.val) := by
  have hlt : (t.val % 306) * 4096 + e.val < 1253376 := by have := e.isLt; have := Nat.mod_lt t.val (show 306 > 0 by norm_num); omega
  unfold dstW
  rw [dif_pos hlt]
  exact dst_read V c t (ix2 (0 : Fin 1) e) (ix2 (0 : Fin 1) (⟨_, hlt⟩ : Fin 1253376)) rfl rfl

theorem msgBlk_W (c : Dev nD) (t : Fin cfg1.N) (e : Fin 4096) (q : Fin 64) :
    (msgBlk V c t (ix2 e q) : EReal) = msgW V c ((t.val % 306) * 4096 + e.val) q := by
  have hlt : (t.val % 306) * 4096 + e.val < 1253376 := by have := e.isLt; have := Nat.mod_lt t.val (show 306 > 0 by norm_num); omega
  unfold msgW
  rw [dif_pos hlt]
  exact msg_read V c t (ix2 e q) (ix2 (⟨_, hlt⟩ : Fin 1253376) q) rfl rfl

/-! ## The accumulator, step by step -/

/-- `outsAt1` depends on the position's number only. -/
theorem outsAt1_congr (c : Dev nD) {n n' : ℕ} (e : n = n') (h : n < cfg1.N) (h' : n' < cfg1.N) :
    outsAt1 V c n h = outsAt1 V c n' h' := by subst e; rfl

/-- Edge `m`'s contribution to feature `q` of node `N`: its message entry if it ends at `N`, else zero. -/
def term (c : Dev nD) (N : ℕ) (q : Fin 64) (m : ℕ) : EReal := hot (dstW V c m) N * msgW V c m q

/-- One step's product of the one-hot mask with the message block, at an entry: the contributions of the step's 4096
    edges. -/
theorem block_sum (c : Dev nD) (t : Fin cfg1.N) (N : ℕ) (q : Fin 64) :
    (∑ e : Fin 4096, hot (dstBlk V c t (ix2 (0 : Fin 1) e)) N * (msgBlk V c t (ix2 e q) : EReal))
      = ∑ x ∈ Finset.range 4096, term V c N q ((t.val % 306) * 4096 + x) := by
  rw [Finset.sum_range]
  refine Finset.sum_congr rfl fun e _ => ?_
  rw [dstBlk_W, msgBlk_W]; rfl

/-- THE ROW INVARIANT. After step `s` of node block `ρ` the accumulator holds, at row `r` and feature `q`, the
    contributions to node `ρ · 512 + r` of the first `(s + 1) · 4096` edges: at step 0 the zero block plus the first
    block's, at every later step what the step before left plus this block's. -/
theorem acc_inv (c : Dev nD) (ρ : ℕ) : ∀ (s : ℕ) (hs : s < 306) (h : ρ * 306 + s < cfg1.N) (r : Fin 512) (q : Fin 64),
    ((outsAt1 V c (ρ * 306 + s) h).2 (ix2 r q) : EReal)
      = ∑ m ∈ Finset.range ((s + 1) * 4096), term V c (ρ * 512 + r.val) q m
  | 0, hs, h, r, q => by
    have h0 : (⟨ρ * 306 + 0, h⟩ : Fin cfg1.N).val % 306 = 0 := by dsimp only; omega
    have e1 : (ρ * 306 + 0) / 306 = ρ := by omega
    have e2 : (ρ * 306 + 0) % 306 = 0 := by omega
    refine (congrFun (acc1_first V c ⟨ρ * 306 + 0, h⟩ h0) (ix2 r q)).trans ?_
    refine (pay2_apply1 (grid1.coords (⟨ρ * 306 + 0, h⟩ : Fin cfg1.N)) (dstBlk V c ⟨ρ * 306 + 0, h⟩) (k1_pay1 (F := Ideal)) (msgBlk V c ⟨ρ * 306 + 0, h⟩) r q).trans ?_
    rw [pay1_zero1, zero_add, coords1_0, block_sum]
    show ∑ x ∈ Finset.range 4096, term V c ((ρ * 306 + 0) / 306 * 512 + r.val) q ((ρ * 306 + 0) % 306 * 4096 + x) = _
    rw [e1, e2]
    simp only [Nat.zero_mul, Nat.zero_add, Nat.one_mul]
  | s + 1, hs, h, r, q => by
    have h0 : ¬(⟨ρ * 306 + (s + 1), h⟩ : Fin cfg1.N).val % 306 = 0 := by dsimp only; omega
    have e1 : (ρ * 306 + (s + 1)) / 306 = ρ := by omega
    have e2 : (ρ * 306 + (s + 1)) % 306 = s + 1 := by omega
    have hp : ρ * 306 + s < cfg1.N := by omega
    refine (congrFun (acc1_next V c ⟨ρ * 306 + (s + 1), h⟩ h0) (ix2 r q)).trans ?_
    refine (pay2_apply1 (grid1.coords (⟨ρ * 306 + (s + 1), h⟩ : Fin cfg1.N)) (dstBlk V c ⟨ρ * 306 + (s + 1), h⟩)
      (outsAt1 V c ((⟨ρ * 306 + (s + 1), h⟩ : Fin cfg1.N).val - 1) (Nat.lt_of_le_of_lt (Nat.sub_le _ _) (⟨ρ * 306 + (s + 1), h⟩ : Fin cfg1.N).isLt)).2 (msgBlk V c ⟨ρ * 306 + (s + 1), h⟩) r q).trans ?_
    rw [outsAt1_congr V c (show (⟨ρ * 306 + (s + 1), h⟩ : Fin cfg1.N).val - 1 = ρ * 306 + s from by dsimp only; omega) _ hp]
    rw [acc_inv c ρ s (by omega) hp r q, coords1_0, block_sum]
    show _ + ∑ x ∈ Finset.range 4096, term V c ((ρ * 306 + (s + 1)) / 306 * 512 + r.val) q ((ρ * 306 + (s + 1)) % 306 * 4096 + x) = _
    rw [e1, e2, show (s + 1 + 1) * 4096 = (s + 1) * 4096 + 4096 from by ring, Finset.sum_range_add]

/-- After the last step all 306 · 4096 = 1253376 edges have contributed. -/
theorem full_sum (c : Dev nD) (N : ℕ) (q : Fin 64) :
    ∑ m ∈ Finset.range ((305 + 1) * 4096), term V c N q m
      = ∑ e : Fin 1253376, hot (dstArr V c (ix2 (0 : Fin 1) e)) N * (msgArr V c (ix2 e q) : EReal) := by
  rw [show (305 + 1) * 4096 = 1253376 from by norm_num, Finset.sum_range]
  refine Finset.sum_congr rfl fun e _ => ?_
  show hot (dstW V c e.val) N * msgW V c e.val q = _
  unfold dstW msgW
  rw [dif_pos e.isLt, dif_pos e.isLt]

/-! ## The result array -/

/-- What the result array ends holding: at node `y 0` and output feature `y 1`, the node's summed messages through the
    linear layer. -/
def G1 (c : Dev nD) : Vec Ideal S50176x64 .f32 := fun y =>
  (∑ k : Fin 64, (∑ e : Fin 1253376, hot (dstArr V c (ix2 (0 : Fin 1) e)) (y 0).val * (msgArr V c (ix2 e k) : EReal))
      * (wtArr V c (ix2 k (y 1)) : EReal))
    + (bArr V c (ix2 (0 : Fin 1) (y 1)) : EReal)

/-- `G1` at an index whose coordinates are known. -/
theorem G1_apply (c : Dev nD) (n : ℕ) (o : Fin 64) (k : S50176x64.Idx) (hk0 : (k 0).val = n) (hk1 : k 1 = o) :
    G1 V c k = (∑ q : Fin 64, (∑ e : Fin 1253376, hot (dstArr V c (ix2 (0 : Fin 1) e)) n * (msgArr V c (ix2 e q) : EReal))
        * (wtArr V c (ix2 q o) : EReal)) + (bArr V c (ix2 (0 : Fin 1) o) : EReal) := by
  unfold G1; rw [hk0, hk1]

/-- At the last step of node block `t / 306` the output's buffer holds that block of `G1`: the accumulator is complete
    (`acc_inv` at step 305, `full_sum`), and the body stores its product with the weight matrix plus the bias row. -/
theorem out_read (c : Dev nD) (t : Fin cfg1.N) (h1 : t.val % 306 = 305) (x : S512x64.Idx) (k : S50176x64.Idx)
    (hk0 : (k 0).val = (t.val / 306) * 512 + (x 0).val) (hk1 : (k 1).val = (x 1).val) :
    ((outsAt1 V c t.val t.isLt).1 x : EReal) = G1 V c k := by
  obtain ⟨r, o, rfl⟩ : ∃ (r : Fin 512) (o : Fin 64), x = ix2 r o := ⟨x 0, x 1, eq_ix2 x⟩
  have hN : t.val < 29988 := lt_of_lt_of_eq t.isLt N_1
  have ht : t.val = t.val / 306 * 306 + 305 := by omega
  have hlt : t.val / 306 * 306 + 305 < cfg1.N := by rw [← ht]; exact t.isLt
  have hacc : ∀ q : Fin 64, ((outsAt1 V c t.val t.isLt).2 (ix2 r q) : EReal)
      = ∑ e : Fin 1253376, hot (dstArr V c (ix2 (0 : Fin 1) e)) (t.val / 306 * 512 + r.val) * (msgArr V c (ix2 e q) : EReal) := fun q => by
    rw [outsAt1_congr V c ht t.isLt hlt, acc_inv V c (t.val / 306) 305 (by norm_num) hlt r q, full_sum]
  have hsum : (∑ q : Fin 64, ((outsAt1 V c t.val t.isLt).2 (ix2 r q) : EReal) * (wtBlk V c t (ix2 q o) : EReal))
      = ∑ q : Fin 64, (∑ e : Fin 1253376, hot (dstArr V c (ix2 (0 : Fin 1) e)) (t.val / 306 * 512 + r.val) * (msgArr V c (ix2 e q) : EReal))
          * (wtArr V c (ix2 q o) : EReal) :=
    Finset.sum_congr rfl fun q _ => by rw [hacc q, wt_read]
  refine (congrFun (out1_last V c t h1) (ix2 r o)).trans ?_
  refine (pay3_apply1 (outsAt1 V c t.val t.isLt).2 (wtBlk V c t) (bBlk V c t) r o).trans ?_
  rw [hsum, b_read]
  exact (G1_apply V c (t.val / 306 * 512 + r.val) o k hk0 (Fin.ext hk1)).symm

/-- A write-back of the output's buffer writes the buffer's contents (the window is uncut), and a block of an array read
    back is the array at the block's entries: both by unfolding, stated over any contents. -/
theorem cut_apply4 (t : Fin cfg1.N) (X : S512x64.Idx → EReal) (j : S512x64.Idx) :
    (cfg1.win 4).cut (grid1.coords t) X j = X j := rfl
theorem read_apply4 (t : Fin cfg1.N) (G : S50176x64.Idx → EReal) (j : S512x64.Idx) :
    ((cfg1.win 4).blk t).view.read (Elt Ideal) G j = G (((cfg1.win 4).blk t).view.emb j) := rfl

/-- The block a flushing point writes back is that block of `G1`. -/
theorem flushed_eq1 (c : Dev nD) (t : Fin cfg1.N) (hf : (cfg1.win 4).flush t = true) :
    (dat1 V c).flushed 4 t = ((cfg1.win 4).blk t).view.read (Elt Ideal) (G1 V c) := by
  have h1 : t.val % 306 = 305 := (flush1_4 t).mp hf
  have hi0 : win1_4.index t 0 = t.val / 306 := by rw [index1_4]; rfl
  have hi1 : win1_4.index t 1 = 0 := by rw [index1_4]; rfl
  show (cfg1.win 4).cut (grid1.coords t) ((dat1 V c).after 4 t) = _
  rw [after1_4]
  funext x
  refine (cut_apply4 t (outsAt1 V c t.val t.isLt).1 x).trans ?_
  refine Eq.trans ?_ (read_apply4 t (G1 V c) x).symm
  refine out_read V c t h1 x (((cfg1.win 4).blk t).view.emb x) ?_ ?_
  · refine (win1_4.rect_emb_val t x 0).trans ?_
    rw [hi0]; rfl
  · refine (win1_4.rect_emb_val t x 1).trans ?_
    rw [hi1]; show 0 * 64 + (x 1).val = (x 1).val; omega

/-- Every entry of the result array lies in the block some flushing point writes back: row `n` in the block of the last
    step of node block `n / 512`. -/
theorem cover1 (c : Dev nD) (i : ((cfg1.win 4).arr.view.loc ((c : Dev nD).tc : Thread nD τ)).2.ty.Idx) :
    ∃ t : Fin cfg1.N, (cfg1.win 4).flush t = true ∧ i ∈ ((cfg1.win 4).blk t).view.set := by
  have h0 : (i 0 : ℕ) < 50176 := (i 0).isLt
  have h1 : (i 1 : ℕ) < 64 := (i 1).isLt
  have hN : cfg1.N = 29988 := N_1
  have hlt : (i 0 : ℕ) / 512 * 306 + 305 < cfg1.N := by rw [hN]; omega
  refine ⟨⟨(i 0 : ℕ) / 512 * 306 + 305, hlt⟩, (flush1_4 _).mpr (by dsimp only; omega), ?_⟩
  have hi0 : win1_4.index ⟨(i 0 : ℕ) / 512 * 306 + 305, hlt⟩ 0 = (i 0 : ℕ) / 512 := by
    rw [index1_4]; show ((i 0 : ℕ) / 512 * 306 + 305) / 306 = _; omega
  have hi1 : win1_4.index ⟨(i 0 : ℕ) / 512 * 306 + 305, hlt⟩ 1 = 0 := by rw [index1_4]; rfl
  show i ∈ ((View.whole main_v9).slice (win1_4.rect ⟨(i 0 : ℕ) / 512 * 306 + 305, hlt⟩)).set
  rw [View.set_slice_whole, Rect.mem_set_unit]
  intro a
  match a with
  | ⟨0, _⟩ =>
    show win1_4.index ⟨(i 0 : ℕ) / 512 * 306 + 305, hlt⟩ 0 * 512 ≤ (i 0 : ℕ) ∧ (i 0 : ℕ) < win1_4.index ⟨(i 0 : ℕ) / 512 * 306 + 305, hlt⟩ 0 * 512 + 512
    rw [hi0]; omega
  | ⟨1, _⟩ =>
    show win1_4.index ⟨(i 0 : ℕ) / 512 * 306 + 305, hlt⟩ 1 * 64 ≤ (i 1 : ℕ) ∧ (i 1 : ℕ) < win1_4.index ⟨(i 0 : ℕ) / 512 * 306 + 305, hlt⟩ 1 * 64 + 64
    rw [hi1]; omega

/-- THE VALUE of the call: its result array ends holding `G1`. -/
theorem value1 (c : Dev nD) : (dat1 (F := Ideal) V c).arrAt 4 cfg1.N = G1 V c :=
  (dat1 V c).arrAt_eq_of_cover 4 (G1 V c) (flushed_eq1 V c) (cover1 c)

/-- The same with `G1` written out. -/
theorem value1' (c : Dev nD) : (dat1 (F := Ideal) V c).arrAt 4 cfg1.N
    = fun y : S50176x64.Idx => (∑ k : Fin 64, (∑ e : Fin 1253376, hot ((V c main_v5 : Vec Ideal S1x1253376 .i32) (ix2 (0 : Fin 1) e)) (y 0).val
          * ((V c main_v6 : Vec Ideal S1253376x64 .bf16) (ix2 e k) : EReal)) * ((V c main_v7 : Vec Ideal S64x64 .f32) (ix2 k (y 1)) : EReal))
        + ((V c main_v8 : Vec Ideal S1x64 .f32) (ix2 (0 : Fin 1) (y 1)) : EReal) :=
  value1 V c

/-- The same at explicit coordinates: node `n`, output feature `o`. -/
theorem value1_apply (c : Dev nD) (n : Fin 50176) (o : Fin 64) :
    (dat1 (F := Ideal) V c).arrAt 4 cfg1.N (ix2 n o)
      = (∑ k : Fin 64, (∑ e : Fin 1253376, hot ((V c main_v5 : Vec Ideal S1x1253376 .i32) (ix2 (0 : Fin 1) e)) n.val
            * ((V c main_v6 : Vec Ideal S1253376x64 .bf16) (ix2 e k) : EReal)) * ((V c main_v7 : Vec Ideal S64x64 .f32) (ix2 k o) : EReal))
          + ((V c main_v8 : Vec Ideal S1x64 .f32) (ix2 (0 : Fin 1) o) : EReal) :=
  congrFun (value1 V c) (ix2 n o)

end Region

end Cert.KernelIdeal.Scatter

end
-- ==== Proof.Algebra.lean ====
/-
  The kernel's arithmetic is the specification's.

  The kernel works on padded operands: the feature table with 176 zero rows appended (50176 rows), and the two edge
  vectors with 3376 entries appended (1253376 edges), every appended entry the sentinel node 50175, a zero row. It
  forms `msgs[e, k] = ∑ n < 50176, hot (srcp e) n · featp[n, k]`, then
  `h[n, k] = ∑ e < 1253376, hot (dstp e) n · msgs[e, k]`, then `(∑ k, h[n, k] · Wᵀ[k, o]) + b[o]`.
  A sum against a one-hot row is the one row it names; a source word in `[0, 50000)` names its own row of the
  unpadded table; an appended edge names the zero row 50175, so its message is zero and it adds nothing to any
  node. What is left is `Cert.Spec.G`. Only `0 · x = 0`, `1 · x = x` and regrouping of finite sums are used.
-/
import proofs.«403988_j42975442764291_1_alg».proof.Proof.Spec

noncomputable section

namespace Cert.Spec

open Idealize.ShloMosaic Idealize.ShloMosaic.ValueIdx

variable (feature : (⟨2, ![50000, 64]⟩ : Shape).Idx → EReal) (src dst : (⟨1, ![1250000]⟩ : Shape).Idx → BitVec 32)
  (W : (⟨2, ![64, 64]⟩ : Shape).Idx → EReal) (b : (⟨1, ![64]⟩ : Shape).Idx → EReal)
  (srcp dstp : Fin 1253376 → BitVec 32) (featp : Fin 50176 → Fin 64 → EReal)

/-- The message of edge `e`: the source's feature row for a real edge, zero for an appended one. -/
theorem msgs_eq (hsrc : ∀ e : Fin 1250000, (src (ix1 e)).toNat < 50000)
    (hsrcp : ∀ e : Fin 1253376, srcp e = if h : e.val < 1250000 then src (ix1 ⟨e.val, h⟩) else 50175#32)
    (hfeatp : ∀ (n : Fin 50176) (k : Fin 64), featp n k = if h : n.val < 50000 then feature (ix2 ⟨n.val, h⟩ k) else 0)
    (e : Fin 1253376) (k : Fin 64) :
    ∑ n : Fin 50176, hot (srcp e) n.val * featp n k
      = if h : e.val < 1250000 then feature (ix2 (row (src (ix1 ⟨e.val, h⟩))) k) else 0 := by
  by_cases h : e.val < 1250000
  · have hw : (srcp e).toNat < 50176 := by rw [hsrcp e, dif_pos h]; exact lt_trans (hsrc ⟨e.val, h⟩) (by norm_num)
    rw [sum_hot_mul (by norm_num) (srcp e) hw (fun n => featp n k), dif_pos h, hfeatp]
    have hlt : (srcp e).toNat < 50000 := by rw [hsrcp e, dif_pos h]; exact hsrc ⟨e.val, h⟩
    rw [dif_pos hlt]
    congr 2
    apply Fin.ext
    show (srcp e).toNat = (row (src (ix1 ⟨e.val, h⟩))).val
    rw [row_val_of_lt (hsrc ⟨e.val, h⟩), hsrcp e, dif_pos h]
  · have he : srcp e = 50175#32 := by rw [hsrcp e, dif_neg h]
    have hw : (srcp e).toNat < 50176 := by rw [he]; decide
    rw [sum_hot_mul (by norm_num) (srcp e) hw (fun n => featp n k), dif_neg h, hfeatp]
    have hge : ¬ (srcp e).toNat < 50000 := by rw [he]; decide
    rw [dif_neg hge]

/-- A sum over the padded edges whose appended terms vanish is the sum over the real edges. -/
theorem sum_padded (g : Fin 1253376 → EReal) (hg : ∀ e : Fin 1253376, ¬ e.val < 1250000 → g e = 0) :
    ∑ e : Fin 1253376, g e = ∑ e : Fin 1250000, g ⟨e.val, lt_trans e.isLt (by norm_num)⟩ := by
  have hsplit := Fin.sum_univ_add (a := 1250000) (b := 3376) (fun e : Fin (1250000 + 3376) => g ⟨e.val, e.isLt⟩)
  have hz : ∑ e : Fin 3376, g ⟨(Fin.natAdd 1250000 e).val, (Fin.natAdd 1250000 e).isLt⟩ = 0 :=
    Finset.sum_eq_zero fun e _ => hg _ (by show ¬ (1250000 + e.val < 1250000); omega)
  rw [hz, add_zero] at hsplit
  exact hsplit

/-- The neighbour sums the kernel accumulates are the specification's. -/
theorem agg_eq (hsrc : ∀ e : Fin 1250000, (src (ix1 e)).toNat < 50000)
    (hsrcp : ∀ e : Fin 1253376, srcp e = if h : e.val < 1250000 then src (ix1 ⟨e.val, h⟩) else 50175#32)
    (hdstp : ∀ e : Fin 1253376, dstp e = if h : e.val < 1250000 then dst (ix1 ⟨e.val, h⟩) else 50175#32)
    (hfeatp : ∀ (n : Fin 50176) (k : Fin 64), featp n k = if h : n.val < 50000 then feature (ix2 ⟨n.val, h⟩ k) else 0)
    (n : Fin 50000) (k : Fin 64) :
    ∑ e : Fin 1253376, hot (dstp e) n.val * (∑ n' : Fin 50176, hot (srcp e) n'.val * featp n' k)
      = agg feature src dst (ix2 n k) := by
  rw [sum_padded (fun e => hot (dstp e) n.val * (∑ n' : Fin 50176, hot (srcp e) n'.val * featp n' k))
    (fun e he => by
      show hot (dstp e) n.val * (∑ n' : Fin 50176, hot (srcp e) n'.val * featp n' k) = 0
      rw [msgs_eq feature src srcp featp hsrc hsrcp hfeatp e k, dif_neg he, mul_zero])]
  unfold agg
  refine Finset.sum_congr rfl fun e _ => ?_
  have he : (⟨e.val, lt_trans e.isLt (by norm_num)⟩ : Fin 1253376).val < 1250000 := e.isLt
  show hot (dstp ⟨e.val, _⟩) n.val * (∑ n' : Fin 50176, hot (srcp ⟨e.val, _⟩) n'.val * featp n' k) = _
  rw [msgs_eq feature src srcp featp hsrc hsrcp hfeatp ⟨e.val, _⟩ k, dif_pos he, hot_mul, hdstp, dif_pos he]

/-- The kernel's result at a node below 50000 is the specification's. -/
theorem kernel_eq_G (hsrc : ∀ e : Fin 1250000, (src (ix1 e)).toNat < 50000)
    (hsrcp : ∀ e : Fin 1253376, srcp e = if h : e.val < 1250000 then src (ix1 ⟨e.val, h⟩) else 50175#32)
    (hdstp : ∀ e : Fin 1253376, dstp e = if h : e.val < 1250000 then dst (ix1 ⟨e.val, h⟩) else 50175#32)
    (hfeatp : ∀ (n : Fin 50176) (k : Fin 64), featp n k = if h : n.val < 50000 then feature (ix2 ⟨n.val, h⟩ k) else 0)
    (n : Fin 50000) (o : Fin 64) :
    (∑ k : Fin 64, (∑ e : Fin 1253376, hot (dstp e) n.val * (∑ n' : Fin 50176, hot (srcp e) n'.val * featp n' k)) * W (ix2 o k))
        + b (ix1 o)
      = G feature src dst W b (ix2 n o) := by
  unfold G lin
  refine congrArg (· + b (ix1 o)) (Finset.sum_congr rfl fun k _ => ?_)
  rw [agg_eq feature src dst srcp dstp featp hsrc hsrcp hdstp hfeatp n k]

end Cert.Spec

end
-- ==== Proof.Result.lean ====
/-
  The result of the idealized kernel program is the specification's function of the arguments.

  Region 1 finds: the destination words as region 0 found them (no stretch in between writes them, and they are no
  array of region 0), the messages at what region 0's pipeline left, the weight transposed, the bias as a row. The
  program's result is the first 50000 rows of region 1's output. With the two regions' arrays read as sums against
  one-hot rows, and the padded operands read back to the arguments, this is `Cert.Spec.kernel_eq_G`.
-/
import proofs.«403988_j42975442764291_1_alg».proof.Proof.Whole
import proofs.«403988_j42975442764291_1_alg».proof.Proof.EntryValues
import proofs.«403988_j42975442764291_1_alg».proof.Proof.EntryFeat
import proofs.«403988_j42975442764291_1_alg».proof.Proof.Gather.Value
import proofs.«403988_j42975442764291_1_alg».proof.Proof.Scatter.Value
import proofs.«403988_j42975442764291_1_alg».proof.Proof.Algebra
import Idealize.ShloMosaic.Lib.Pipeline.Value
import Idealize.ShloMosaic.Lib.ValueIdx
import Idealize.ShloMosaic.Lib.StableHlo.Run

set_option maxRecDepth 16384

noncomputable section

namespace Cert.KernelIdeal.Whole

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Gather Cert.KernelIdeal.Scatter

variable {F : FTy → Type} [FloatOps F]
variable (m : (ℓ : Loc nD τ sig) → Buf (Elt F) ℓ) (c : Dev nD)

/-! ## What region 1 finds, and the final slice (at any instance) -/

/-- A buffer none of the first seven stretches writes holds its launch contents when region 0 is entered. -/
theorem B7_of_untouched (b : Ref sig .tc)
    (h0 : b ∉ hostOps0_W) (h1 : b ∉ hostOps0_1_W) (h2 : b ∉ hostOps0_2_W) (h3 : b ∉ hostOps0_3_W) (h4 : b ∉ hostOps0_4_W)
    (h5 : b ∉ hostOps0_5_W) (h6 : b ∉ hostOps0_6_W) :
    B7 m c (Proc.devRef .tc b) = m ((c : Thread nD τ).loc b) :=
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- The destination row region 1 reads is the one prepared before region 0. -/
theorem E9_dst : E9 m c main_v5 = E7 m c main_v5 :=
  (StableHlo.after_of_writes_sub hostOps1 _ hostOps1_writes (by decide)).trans (B8_of_ne m c main_v5 (by decide))

/-- The messages region 1 reads are what region 0's pipeline left in its output array. -/
theorem E9_msgs : E9 m c main_v6 = (dat0 (E7 m) c).arrAt 2 cfg0.N :=
  (StableHlo.after_of_writes_sub hostOps1 _ hostOps1_writes (by decide)).trans (B8_arr m c 2)

/-- The weight region 1 reads is the argument transposed. -/
theorem E9_wt (k o : Fin 64) : E9 m c main_v7 (ix2 k o) = m ((c : Thread nD τ).loc main_arg3) (ix2 o k) := by
  have e : E9 m c main_v7 = transpose S64x64 [1, 0] (B8 m c (Proc.devRef .tc main_arg3)) transposes_S64x64_S64x64_1_0 := by
    show StableHlo.after hostOps1 (B8 m c) (Proc.devRef .tc main_v7) = _
    after_results
  rw [e, B8_of_ne m c main_arg3 (by decide),
    B7_of_untouched m c main_arg3 (by decide) (by decide) (by decide) (by decide) (by decide) (by decide) (by decide)]
  exact transpose_apply _ _ transposes_S64x64_S64x64_1_0 (ix2 k o) (ix2 o k) (fun b => by
    match b with
    | ⟨0, _⟩ => rfl
    | ⟨1, _⟩ => rfl)

/-- The bias region 1 reads is the argument as a row. -/
theorem E9_bias (o : Fin 64) : E9 m c main_v8 (ix2 0 o) = m ((c : Thread nD τ).loc main_arg4) (ix1 o) := by
  have e : E9 m c main_v8 = shapeCast S1x64 (B8 m c (Proc.devRef .tc main_arg4)) shapeCasts_S64_S1x64 := by
    show StableHlo.after hostOps1 (B8 m c) (Proc.devRef .tc main_v8) = _
    after_results
    rfl
  rw [e, B8_of_ne m c main_arg4 (by decide),
    B7_of_untouched m c main_arg4 (by decide) (by decide) (by decide) (by decide) (by decide) (by decide) (by decide)]
  exact shapeCast_apply _ shapeCasts_S64_S1x64 (ix2 0 o) (ix1 o) (by
    rw [Shape.rowMajor_val_one, Shape.rowMajor_val_two]; simp)

/-- The program's result is the first 50000 rows of what region 1's pipeline left in its output array. -/
theorem result_apply (n : Fin 50000) (o : Fin 64) :
    B11 m c (Proc.devRef .tc main_v10) (ix2 n o)
      = (dat1 (E9 m) c).arrAt 4 cfg1.N (ix2 ⟨n.val, lt_trans n.isLt (by norm_num)⟩ o) := by
  have e : B11 m c (Proc.devRef .tc main_v10)
      = extractStridedSlice S50000x64 ![0, 0] (B10 m c (Proc.devRef .tc main_v9)) slices_S50176x64_S50000x64_0_0 := by
    show StableHlo.after hostOps2 (B10 m c) (Proc.devRef .tc main_v10) = _
    after_results
  rw [e, show B10 m c (Proc.devRef .tc main_v9) = (dat1 (E9 m) c).arrAt 4 cfg1.N from B10_arr m c 4]
  exact extractStridedSlice_apply _ _ slices_S50176x64_S50000x64_0_0 (ix2 n o) (ix2 ⟨n.val, lt_trans n.isLt (by norm_num)⟩ o) (fun a => by
    match a with
    | ⟨0, _⟩ => simp
    | ⟨1, _⟩ => simp)

/-! ## The result is the specification's function (the ideal instance) -/

section Ideal

variable (m : (ℓ : Loc nD τ sig) → Buf (Elt Ideal) ℓ) (c : Dev nD)

/-- Under the source range the kernel program's result buffer ends holding `Cert.Spec.G` of the arguments: region 1's
    array is the linear layer over sums against the destination's one-hot rows of region 0's array, which is sums
    against the source's one-hot rows of the padded feature table; the padded operands read back to the arguments. -/
theorem result_eq_G (hsrc : ∀ e : Fin 1250000, (m ((c : Thread nD τ).loc main_arg1) (ix1 e)).toNat < 50000) :
    B11 (F := Ideal) m c (Proc.devRef .tc main_v10)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  funext y
  obtain ⟨n, o, rfl⟩ : ∃ (n : Fin 50000) (o : Fin 64), y = ix2 n o := ⟨y 0, y 1, eq_ix2 y⟩
  refine (result_apply m c n o).trans ?_
  refine (value1_apply (E9 m) c ⟨n.val, lt_trans n.isLt (by norm_num)⟩ o).trans ?_
  refine Eq.trans ?_ (Cert.Spec.kernel_eq_G (m ((c : Thread nD τ).loc main_arg0)) (m ((c : Thread nD τ).loc main_arg1))
    (m ((c : Thread nD τ).loc main_arg2)) (m ((c : Thread nD τ).loc main_arg3)) (m ((c : Thread nD τ).loc main_arg4))
    (fun e => E7 m c main_v4 (ix2 e 0)) (fun e => E7 m c main_v5 (ix2 0 e)) (fun n' k => E7 m c main_v1 (ix2 n' k))
    hsrc (fun e => entry_src m c e) (fun e => entry_dst m c e) (fun n' k => entry_feat m c n' k) n o)
  refine congrArg₂ (· + ·) (Finset.sum_congr rfl fun k _ => congrArg₂ (· * ·) (Finset.sum_congr rfl fun e _ => ?_) (E9_wt m c k o))
    (E9_bias m c o)
  refine congrArg₂ (· * ·) (congrArg (fun w => Cert.Spec.hot w n.val) (congrFun (E9_dst m c) (ix2 0 e))) ?_
  exact (congrFun (E9_msgs m c) (ix2 e k)).trans (value0_apply (E7 m) c e k)

end Ideal

end Cert.KernelIdeal.Whole

end
-- ==== Proof.LibMaskedSelect.lean ====
/-
  General lemmas for a row-wise selection written as a masked sum, none of them about a particular program.

  * `broadcastTo_a1_ab_apply`: a column [a, 1] broadcast to [a, b] reads, at (p, c), the column's entry p — the
    keepdims form a per-row weight is spread over a row in.
  * `Host.reduce_andi_of_all`: a reduce by `and` from an initial 1 over an array of 1s is 1 (the converse of
    Lib/ReduceAll.lean's `Host.reduce_andi_eq_one`): how an in-range test that is true everywhere reads after `jnp.all`
    along an axis.
  * `toNat_lt_of_sge_slt`: a 32-bit word that compares signed ≥ 0 and signed < n (n below 2³¹) has unsigned value below n:
    what the two comparisons of an index-range precondition say of the word.
  * `eq_ofNat_of_toNat_lt`: such a word is the word of an index below n.
-/
import Idealize.ShloMosaic.Lib.ReduceAll
import Idealize.ShloMosaic.Lib.ValueIdx
import Idealize.ShloMosaic.Lib.Pipeline.Value
import Idealize.ShloMosaic.Lib.StableHlo.Predicate

namespace Idealize.ShloMosaic.MaskedSelect

open Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a (List.mem_cons_self ..)]
    decide

/-- A `stablehlo.reduce` by `and` whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A word that is signed ≥ 0 and signed < n, for n below 2³¹, is below n read unsigned. -/
theorem toNat_lt_of_sge_slt (v : BitVec 32) (n : ℕ) (hn : n < 2 ^ 31) (h0 : IntOp.cmpi .sge v 0#32 = 1#1)
    (h1 : IntOp.cmpi .slt v (BitVec.ofNat 32 n) = 1#1) : v.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

/-- A word whose unsigned value is below n is the word of some index below n. -/
theorem eq_ofNat_of_toNat_lt (v : BitVec 32) (n : ℕ) (h : v.toNat < n) : ∃ e : Fin n, v = BitVec.ofNat 32 e.val :=
  ⟨⟨v.toNat, h⟩, BitVec.eq_of_toNat_eq (by rw [BitVec.toNat_ofNat]; exact (Nat.mod_eq_of_lt v.isLt).symm)⟩

end Idealize.ShloMosaic.MaskedSelect
-- ==== Proof.SrcRange.lean ====
/-
  The source-range conjunct of the precondition, read back.

  The precondition's last conjunct says that every source word is signed at least 0 and signed below 50000, reduced
  by "and" over all 1250000 edges. Where the whole predicate is 1, each edge's two comparisons are 1, and a 32-bit word
  that is signed non-negative and signed below 50000 has unsigned value below 50000.
-/
import proofs.«403988_j42975442764291_1_alg».proof.Proof.Gen.Pre_finite_inputs
import proofs.«403988_j42975442764291_1_alg».proof.Proof.LibMaskedSelect
import Idealize.ShloMosaic.Lib.ReduceAll
import Idealize.ShloMosaic.Lib.ValueIdx
import Idealize.ShloMosaic.Lib.StableHlo.Predicate

namespace Cert.SrcRange

open Idealize.ShloMosaic Cert.Pre_finite_inputs

/-- The rank-0 index set has one element. -/
instance subsingleton_scalar_idx : Subsingleton S_.Idx := ⟨fun a b => funext fun d => d.elim0⟩

/-- A scalar constant broadcast over the edge axis reads the constant at every edge. -/
theorem bcast_const_apply [Cert.Pre_finite_inputs.Facts] (w : BitVec 32) (j : S1250000.Idx) :
    broadcastInDim S1250000 ![] Facts.bcast_S_S1250000 (constantI S_ 32 w) j = w :=
  StableHlo.Predicate.bcast_scalar Facts.bcast_S_S1250000 Facts.h_S_ (constantI S_ 32 w) j

/-- Where the precondition holds, every source word is below 50000 read unsigned. -/
theorem src_lt_of_pre {F : FTy → Type} [FloatOps F] [Cert.Pre_finite_inputs.Facts] (x0 : FVec F Cert.Pre_finite_inputs.S50000x64 .f32) (x1 x2 : IVec Cert.Pre_finite_inputs.S1250000 32) (x3 : FVec F Cert.Pre_finite_inputs.S64x64 .f32) (x4 : FVec F Cert.Pre_finite_inputs.S64 .f32)
    (h : Cert.Pre_finite_inputs.fn (F := F) x0 x1 x2 x3 x4 = (fun _ => 1#1)) :
    ∀ e : Fin 1250000, (x1 (Idealize.ShloMosaic.ValueIdx.ix1 e)).toNat < 50000 := by
  intro e
  have h0 := congrFun h ValueIdx.ix0
  dsimp only [fn, fn_part1] at h0
  -- the outer "and": the float conjuncts, and the reduced range test
  obtain ⟨_, hall⟩ := IntOp.andi_eq_one.1 h0
  -- the reduce by "and" over all edges is 1, so the test is 1 at edge e
  have he := Host.reduce_andi_all _ _ _ _ _ hall (ValueIdx.ix1 e)
  -- the test at e is the "and" of the two comparisons
  obtain ⟨hge, hlt⟩ := IntOp.andi_eq_one.1 he
  have hge' : IntOp.cmpi .sge (x1 (ValueIdx.ix1 e)) 0#32 = 1#1 := by
    rw [← bcast_const_apply 0#32 (ValueIdx.ix1 e)]; exact hge
  have hlt' : IntOp.cmpi .slt (x1 (ValueIdx.ix1 e)) (BitVec.ofNat 32 50000) = 1#1 := by
    rw [show BitVec.ofNat 32 50000 = 50000#32 from rfl, ← bcast_const_apply 50000#32 (ValueIdx.ix1 e)]; exact hlt
  exact MaskedSelect.toNat_lt_of_sge_slt _ 50000 (by norm_num) hge' hlt'

end Cert.SrcRange
-- ==== Proof.RefValue.lean ====
/-
  The reference program's result is the specification `Cert.Spec.G`, under the precondition that every source word
  is below 50000 read unsigned.

  The reference normalises the source words (a negative word gets 50000 added), gathers the feature rows they name,
  adds each gathered row into the row of a zero array that the edge's destination word names, and applies the linear
  layer. Of its operations two read an operand at a position that depends on another operand's values: the gather and
  the accumulating scatter. Both are read here at an index, by opening their index maps on this program's literal
  dimension numbers:

  * the gather at (e, k) is the feature table at (row, k), the row being the start index of edge e read signed and
    clamped into [0, 49999];
  * update (e, k) of the scatter lands on (n, k') exactly when the destination word of edge e has signed value n and
    k = k'; an update whose row would fall outside the table is dropped. So the scatter's sum over all updates that
    land on (n, k') is the sum over edges e of "the update at (e, k') if the destination of e is n, else 0".

  For a source word below 50000 the normalisation, the signed reading and the clamp all leave its number as it is, and
  for n below 50000 a word has signed value n exactly when it is the word of n. With `0 + x = x` that is the neighbour
  sum `Cert.Spec.agg`; the product with the transposed weights and the broadcast bias are `Cert.Spec.lin`.
-/
import proofs.«403988_j42975442764291_1_alg».proof.Proof.Gen.ReferenceIdeal.Read
import proofs.«403988_j42975442764291_1_alg».proof.Proof.Spec
import Idealize.ShloMosaic.Lib.ValueIdx
import Idealize.ShloMosaic.Lib.IdealHost
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx

variable [Cert.ReferenceIdeal.Facts]

/-! ## The gather at an index -/

/-- The gather read at (e, k): the operand's row at the start index of edge e, read signed and clamped into
    [0, 49999], at column k. -/
theorem gather_apply {α : Type} {w : Nat} (x : S50000x64.Idx → α) (idx : IVec S1250000x1 w) (e : Fin 1250000) (k : Fin 64) :
    Host.gather gather_S50000x64_S1250000x1_S1250000x64_1_0_n_n_0_1_164 x idx (ix2 e k)
      = x (ix2 (⟨min (idx (ix2 e (0 : Fin 1))).toInt.toNat 49999, by omega⟩ : Fin 50000) k) := by
  unfold Host.gather
  congr 1
  funext a
  refine Fin.ext ?_
  match a with
  | ⟨0, _⟩ =>
    -- axis 0 is collapsed and named by the start index map: the clamped start, no batch and no offset coordinate
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S1250000x1_S1250000x64_1_0_n_n_0_1_164.startIndexMap from List.mem_singleton.mpr rfl)]
    have hsi : gather_S50000x64_S1250000x1_S1250000x64_1_0_n_n_0_1_164.siIdx (ix2 e k) ⟨List.idxOf (0 : Fin 2) gather_S50000x64_S1250000x1_S1250000x64_1_0_n_n_0_1_164.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: start 0, no batch coordinate, the result's column
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start
    rw [dif_neg (show ¬ (1 : Fin 2) ∈ gather_S50000x64_S1250000x1_S1250000x64_1_0_n_n_0_1_164.startIndexMap by decide)]
    simp only [Nat.add_zero, Nat.zero_add]
    unfold GatherDims.offCoord
    rw [dif_pos (show (1 : Fin 2) ∈ gather_S50000x64_S1250000x1_S1250000x64_1_0_n_n_0_1_164.sKept by decide)]
    rfl

/-! ## The accumulating scatter at an index -/

/-- Where update (e, k) lands: on row (signed value of the scatter index of edge e), column k, when that row is inside
    the operand; nowhere otherwise. So it lands on (n, k') exactly when the signed index is n and k = k'. -/
theorem resultIdx?_eq_some_iff {w : Nat} (idx : IVec S1250000x1 w) (e : Fin 1250000) (k : Fin 64) (n : Fin 50000) (k' : Fin 64) :
    scatter_S50000x64_S1250000x1_S1250000x64_1_0_0_1.resultIdx? (ix2 e k) idx = some (ix2 n k')
      ↔ (idx (ix2 e (0 : Fin 1))).toInt = (n.val : Int) ∧ k = k' := by
  -- the window's start and the window coordinate on each operand axis
  have hstart0 : scatter_S50000x64_S1250000x1_S1250000x64_1_0_0_1.start (ix2 e k) idx 0 = (idx (ix2 e (0 : Fin 1))).toInt := by
    unfold ScatterDims.start
    rw [dif_pos (show (0 : Fin 2) ∈ scatter_S50000x64_S1250000x1_S1250000x64_1_0_0_1.scatterDimsToOperandDims from List.mem_singleton.mpr rfl)]
    have hsi : scatter_S50000x64_S1250000x1_S1250000x64_1_0_0_1.siIdx (ix2 e k) ⟨List.idxOf (0 : Fin 2) scatter_S50000x64_S1250000x1_S1250000x64_1_0_0_1.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hstart1 : scatter_S50000x64_S1250000x1_S1250000x64_1_0_0_1.start (ix2 e k) idx 1 = 0 := by
    unfold ScatterDims.start
    rw [dif_neg (show ¬ (1 : Fin 2) ∈ scatter_S50000x64_S1250000x1_S1250000x64_1_0_0_1.scatterDimsToOperandDims by decide)]
  have hwin0 : scatter_S50000x64_S1250000x1_S1250000x64_1_0_0_1.window (ix2 e k) 0 = 0 := by
    unfold ScatterDims.window
    rw [dif_neg (show ¬ (0 : Fin 2) ∈ scatter_S50000x64_S1250000x1_S1250000x64_1_0_0_1.sKept by decide)]
  have hwin1 : scatter_S50000x64_S1250000x1_S1250000x64_1_0_0_1.window (ix2 e k) 1 = k.val := by
    unfold ScatterDims.window
    rw [dif_pos (show (1 : Fin 2) ∈ scatter_S50000x64_S1250000x1_S1250000x64_1_0_0_1.sKept by decide)]
    rfl
  unfold ScatterDims.resultIdx?
  split
  · rename_i h
    rw [Option.some.injEq]
    constructor
    · intro hi
      have h0 := congrArg (fun f => ((f 0 : Fin 50000).val : Int)) hi
      have h1 := congrArg (fun f => (f 1 : Fin 64).val) hi
      simp only at h0 h1
      have hh0 := (h 0).1
      rw [hstart0, hwin0] at hh0 h0
      rw [hstart1, hwin1] at h1
      refine ⟨?_, Fin.ext ?_⟩
      · have : ((((idx (ix2 e (0 : Fin 1))).toInt + ((0 : Nat) : Int)).toNat : Nat) : Int) = (n.val : Int) := h0
        omega
      · have : ((0 : Int) + (k.val : Int)).toNat = k'.val := h1
        omega
    · rintro ⟨hn, hk⟩
      funext a
      refine Fin.ext ?_
      match a with
      | ⟨0, _⟩ =>
        show (scatter_S50000x64_S1250000x1_S1250000x64_1_0_0_1.start (ix2 e k) idx 0 + (scatter_S50000x64_S1250000x1_S1250000x64_1_0_0_1.window (ix2 e k) 0 : Int)).toNat = n.val
        rw [hstart0, hwin0, hn]; omega
      | ⟨1, _⟩ =>
        show (scatter_S50000x64_S1250000x1_S1250000x64_1_0_0_1.start (ix2 e k) idx 1 + (scatter_S50000x64_S1250000x1_S1250000x64_1_0_0_1.window (ix2 e k) 1 : Int)).toNat = k'.val
        rw [hstart1, hwin1, hk]; omega
  · rename_i h
    constructor
    · intro hi; exact absurd hi (by simp)
    · rintro ⟨hn, hk⟩
      exfalso; apply h
      intro a
      match a with
      | ⟨0, _⟩ =>
        show 0 ≤ scatter_S50000x64_S1250000x1_S1250000x64_1_0_0_1.start (ix2 e k) idx 0 + (scatter_S50000x64_S1250000x1_S1250000x64_1_0_0_1.window (ix2 e k) 0 : Int) ∧ scatter_S50000x64_S1250000x1_S1250000x64_1_0_0_1.start (ix2 e k) idx 0 + (scatter_S50000x64_S1250000x1_S1250000x64_1_0_0_1.window (ix2 e k) 0 : Int) < ((50000 : Nat) : Int)
        rw [hstart0, hwin0, hn]; have := n.isLt; omega
      | ⟨1, _⟩ =>
        show 0 ≤ scatter_S50000x64_S1250000x1_S1250000x64_1_0_0_1.start (ix2 e k) idx 1 + (scatter_S50000x64_S1250000x1_S1250000x64_1_0_0_1.window (ix2 e k) 1 : Int) ∧ scatter_S50000x64_S1250000x1_S1250000x64_1_0_0_1.start (ix2 e k) idx 1 + (scatter_S50000x64_S1250000x1_S1250000x64_1_0_0_1.window (ix2 e k) 1 : Int) < ((64 : Nat) : Int)
        rw [hstart1, hwin1]; have := k.isLt; omega

/-- The accumulating scatter at an element: the operand there plus the sum of the updates that land there. -/
theorem scatterAdd_eq_filter {w : Nat} (x : FVec Ideal S50000x64 .f32) (idx : IVec S1250000x1 w) (upd : FVec Ideal S1250000x64 .f32)
    (i : S50000x64.Idx) :
    Host.scatterAdd scatter_S50000x64_S1250000x1_S1250000x64_1_0_0_1 x idx upd i
      = x i + ∑ j ∈ Finset.univ.filter (fun j => scatter_S50000x64_S1250000x1_S1250000x64_1_0_0_1.resultIdx? j idx = some i), upd j := rfl

/-- The accumulating scatter read at (n, k'): the operand there plus, over the edges whose scatter index has signed
    value n, the update at (edge, k'). The sum over update positions (e, k) is the double sum over e and k, and the
    condition "k = k'" leaves one term of the inner sum. -/
theorem scatterAdd_apply {w : Nat} (x : FVec Ideal S50000x64 .f32) (idx : IVec S1250000x1 w) (upd : FVec Ideal S1250000x64 .f32)
    (n : Fin 50000) (k' : Fin 64) :
    Host.scatterAdd scatter_S50000x64_S1250000x1_S1250000x64_1_0_0_1 x idx upd (ix2 n k')
      = x (ix2 n k') + ∑ e : Fin 1250000, if (idx (ix2 e (0 : Fin 1))).toInt = (n.val : Int) then upd (ix2 e k') else 0 := by
  refine (scatterAdd_eq_filter x idx upd (ix2 n k')).trans ?_
  refine congrArg (fun s => x (ix2 n k') + s) ?_
  refine (Finset.sum_filter _ _).trans ?_
  refine (sum_idx2 _).trans ?_
  refine Finset.sum_congr rfl fun e _ => ?_
  simp only [resultIdx?_eq_some_iff]
  by_cases hn : (idx (ix2 e (0 : Fin 1))).toInt = (n.val : Int)
  · simp only [hn, true_and, if_true]
    exact (Finset.sum_ite_eq' Finset.univ k' (fun k => upd (ix2 e k))).trans (if_pos (Finset.mem_univ _))
  · simp only [hn, false_and, if_false]
    exact Finset.sum_const_zero

/-! ## Words -/

/-- A 32-bit word has signed value n, for n below 50000, exactly when it is the word of n. -/
theorem toInt_eq_iff (v : BitVec 32) (n : Fin 50000) : v.toInt = (n.val : Int) ↔ v = BitVec.ofNat 32 n.val := by
  have hn : n.val < 2 ^ 31 := lt_trans n.isLt (by norm_num)
  constructor
  · intro h
    apply BitVec.eq_of_toInt_eq
    rw [StableHlo.Predicate.toInt_ofNat_small n.val hn]; exact h
  · intro h
    rw [h, StableHlo.Predicate.toInt_ofNat_small n.val hn]

/-- The position [e, 0] of the start-index array reads position [e] of the word vector it was broadcast from. -/
theorem idx_main_v5_ix2 (e : Fin 1250000) : idx_main_v5 (ix2 e (0 : Fin 1)) = ix1 e := by
  funext a; match a with | ⟨0, _⟩ => rfl

theorem idx_main_v8_ix2 (e : Fin 1250000) : idx_main_v8 (ix2 e (0 : Fin 1)) = ix1 e := by
  funext a; match a with | ⟨0, _⟩ => rfl

/-! ## The specification at an index built from its coordinates -/

/-- The neighbour sum at (n, k). -/
theorem agg_ix2 (x0 : (⟨S50000x64, .f32⟩ : BufTy).Contents (Elt Ideal)) (x1 x2 : (⟨S1250000, .i32⟩ : BufTy).Contents (Elt Ideal))
    (n : Fin 50000) (k : Fin 64) :
    Cert.Spec.agg x0 x1 x2 (ix2 n k)
      = ∑ e : Fin 1250000, if x2 (ix1 e) = BitVec.ofNat 32 n.val then x0 (ix2 (Cert.Spec.row (x1 (ix1 e))) k) else 0 := rfl

/-- The whole function at (n, o). -/
theorem G_ix2 (x0 : (⟨S50000x64, .f32⟩ : BufTy).Contents (Elt Ideal)) (x1 x2 : (⟨S1250000, .i32⟩ : BufTy).Contents (Elt Ideal))
    (x3 : (⟨S64x64, .f32⟩ : BufTy).Contents (Elt Ideal)) (x4 : (⟨S64, .f32⟩ : BufTy).Contents (Elt Ideal)) (n : Fin 50000) (o : Fin 64) :
    Cert.Spec.G x0 x1 x2 x3 x4 (ix2 n o)
      = (∑ k : Fin 64, Cert.Spec.agg x0 x1 x2 (ix2 n k) * x3 (ix2 o k)) + x4 (ix1 o) := rfl

/-! ## The reference's stages at an index -/

/-- The normalised source word of edge e is the word itself when it is below 50000 read unsigned: it is not negative
    read signed, so the select keeps it. -/
theorem val_main_v4_of_lt (x1 : (⟨S1250000, .i32⟩ : BufTy).Contents (Elt Ideal)) (e : Fin 1250000)
    (h : (x1 (ix1 e)).toNat < 50000) : val_main_v4 (F := Ideal) x1 (ix1 e) = x1 (ix1 e) := by
  rw [val_main_v4_apply, val_main_v1_apply, val_main_v0_apply, val_main_c_apply]
  have hc : IntOp.cmpi .slt (x1 (ix1 e)) 0#32 = 0#1 := by
    apply eq_zero_of_ne_one
    rw [StableHlo.Predicate.slt_iff_toNat (by omega) (by decide)]
    exact Nat.not_lt_zero _
  rw [hc, select_zero]

/-- The gathered message of edge e at column k is the feature table at the row the source word names. -/
theorem val_main_v6_apply (x0 : (⟨S50000x64, .f32⟩ : BufTy).Contents (Elt Ideal)) (x1 : (⟨S1250000, .i32⟩ : BufTy).Contents (Elt Ideal))
    (e : Fin 1250000) (k : Fin 64) (h : (x1 (ix1 e)).toNat < 50000) :
    val_main_v6 (F := Ideal) x0 x1 (ix2 e k) = x0 (ix2 (Cert.Spec.row (x1 (ix1 e))) k) := by
  unfold val_main_v6
  rw [gather_apply]
  refine congrArg (fun r : Fin 50000 => x0 (ix2 r k)) (Fin.ext ?_)
  show min (val_main_v5 (F := Ideal) x1 (ix2 e (0 : Fin 1))).toInt.toNat 49999 = (Cert.Spec.row (x1 (ix1 e))).val
  rw [val_main_v5_apply, idx_main_v5_ix2, val_main_v4_of_lt x1 e h, Cert.Spec.row_val_of_lt h,
    StableHlo.Predicate.toInt_eq_toNat_of_lt (by omega), Int.toNat_natCast]
  omega

/-- The zero array the scatter starts from. -/
theorem val_main_v7_eq_zero (i : S50000x64.Idx) : val_main_v7 (F := Ideal) i = 0 := by
  rw [val_main_v7_apply, val_main_cst_apply]
  exact Ideal.ofBits_zero_f32

/-- The scatter's result is the neighbour sum. -/
theorem val_main_v9_apply (x0 : (⟨S50000x64, .f32⟩ : BufTy).Contents (Elt Ideal)) (x1 x2 : (⟨S1250000, .i32⟩ : BufTy).Contents (Elt Ideal))
    (hsrc : ∀ e : Fin 1250000, (x1 (ix1 e)).toNat < 50000) (n : Fin 50000) (k : Fin 64) :
    val_main_v9 (F := Ideal) x0 x1 x2 (ix2 n k) = Cert.Spec.agg x0 x1 x2 (ix2 n k) := by
  unfold val_main_v9
  rewrite [scatterAdd_apply, val_main_v7_eq_zero, zero_add, agg_ix2]
  refine Finset.sum_congr rfl fun e _ => ?_
  refine if_congr ?_ (val_main_v6_apply x0 x1 e k (hsrc e)) rfl
  rewrite [val_main_v8_apply, idx_main_v8_ix2]
  exact toInt_eq_iff _ n

/-! ## The whole reference -/

theorem ref_eq_G (x0 : (⟨Cert.ReferenceIdeal.S50000x64, .f32⟩ : BufTy).Contents (Elt Ideal)) (x1 x2 : (⟨Cert.ReferenceIdeal.S1250000, .i32⟩ : BufTy).Contents (Elt Ideal)) (x3 : (⟨Cert.ReferenceIdeal.S64x64, .f32⟩ : BufTy).Contents (Elt Ideal)) (x4 : (⟨Cert.ReferenceIdeal.S64, .f32⟩ : BufTy).Contents (Elt Ideal))
    (hsrc : ∀ e : Fin 1250000, (x1 (Idealize.ShloMosaic.ValueIdx.ix1 e)).toNat < 50000) :
    Cert.ReferenceIdeal.Read.val_main_v14 (F := Ideal) x0 x1 x2 x3 x4 = Cert.Spec.G x0 x1 x2 x3 x4 := by
  funext i
  obtain ⟨n, o, rfl⟩ : ∃ (n : Fin 50000) (o : Fin 64), i = ix2 n o := ⟨i 0, i 1, eq_ix2 i⟩
  -- the product with the transposed weights, over the neighbour sums
  have h11 : val_main_v11 (F := Ideal) x0 x1 x2 x3 (ix2 n o) = ∑ k : Fin 64, Cert.Spec.agg x0 x1 x2 (ix2 n k) * x3 (ix2 o k) := by
    refine (val_main_v11_apply x0 x1 x2 x3 (ix2 n o)).trans ?_
    refine Finset.sum_congr rfl fun k _ => ?_
    have hl : lidx_main_v11 (ix2 n o) k = ix2 n k := by
      funext a; match a with
      | ⟨0, _⟩ => rfl
      | ⟨1, _⟩ => rfl
    have hr : idx_main_v10 (ridx_main_v11 (ix2 n o) k) = ix2 o k := by
      funext a; match a with
      | ⟨0, _⟩ => rfl
      | ⟨1, _⟩ => rfl
    rewrite [hl, val_main_v9_apply x0 x1 x2 hsrc n k, val_main_v10_apply, hr]
    rfl
  -- the bias, broadcast along the rows
  have h13 : val_main_v13 (F := Ideal) x4 (ix2 n o) = x4 (ix1 o) := by
    refine (val_main_v13_apply x4 (ix2 n o)).trans ((val_main_v12_apply x4 _).trans (congrArg x4 ?_))
    funext a; match a with
    | ⟨0, _⟩ => rfl
  refine (val_main_v14_apply x0 x1 x2 x3 x4 (ix2 n o)).trans ?_
  rewrite [Ideal.addf_def, h11, h13]
  exact (G_ix2 x0 x1 x2 x3 x4 n o).symm

end Cert.ReferenceIdeal.RefValue

end
-- ==== Proof.lean ====
/-
  The certificate: the one-hot gather / scatter-add kernel and the plain gather, segment-sum, linear reference
  compute one function over the extended reals.

  Both kernel programs (the word-level one and its idealization: one printed text, the ideal pass rewrote nothing)
  run to the end, fault nowhere and leave their arguments unchanged: the run of the eleven stretches of @main over
  each kernel region's proof data (`Whole.frame`). The reference is a straight line of host operations: its
  generated run. Under the precondition — every float input finite, every source word in `[0, 50000)` — the
  idealized kernel's result buffer ends at `Cert.Spec.G` of the arguments (`Whole.result_eq_G`), and so does
  the reference's (`RefValue.ref_eq_G`); only the source range is used, no finiteness law is needed.
-/
import proofs.«403988_j42975442764291_1_alg».proof.Defs
import proofs.«403988_j42975442764291_1_alg».proof.Proof.Gen.Kernel
import proofs.«403988_j42975442764291_1_alg».proof.Proof.Gen.KernelIdeal
import proofs.«403988_j42975442764291_1_alg».proof.Proof.Gen.ReferenceIdeal
import proofs.«403988_j42975442764291_1_alg».proof.Proof.Gen.Pre_finite_inputs
import proofs.«403988_j42975442764291_1_alg».proof.Proof.Gen.ReferenceIdeal.Run
import proofs.«403988_j42975442764291_1_alg».proof.Proof.Gen.ReferenceIdeal.Read
import proofs.«403988_j42975442764291_1_alg».proof.Proof.Whole
import proofs.«403988_j42975442764291_1_alg».proof.Proof.Bits.Whole
import proofs.«403988_j42975442764291_1_alg».proof.Proof.Result
import proofs.«403988_j42975442764291_1_alg».proof.Proof.SrcRange
import proofs.«403988_j42975442764291_1_alg».proof.Proof.RefValue
import proofs.«403988_j42975442764291_1_alg».proof.Proof.Spec
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs to the end and leaves its arguments unchanged. -/
theorem frame_p : Cert.frame_Kernel := fun m ρ _ => Cert.Kernel.Whole.frame (F := Bits) m ρ

/-- So does its idealization. -/
theorem frame_pi : Cert.frame_KernelIdeal := fun m ρ _ => Cert.KernelIdeal.Whole.frame (F := Ideal) m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments, the idealized kernel and the idealized reference both run, and end with
    equal results: each is `Cert.Spec.G` of the arguments — the kernel's by the run of its eleven stretches read back
    through the two regions' one-hot sums, the reference's by its generated run read as the specification; the source
    range is what the precondition adds to finiteness. -/
theorem algebraic : Cert.algebraic_KernelIdeal_ReferenceIdeal := by
  intro m ρ m' ρ' hpre hagree
  have hsrc : ∀ (c : Dev Cert.KernelIdeal.nD) (e : Fin 1250000),
      (m ((c.tc : Thread Cert.KernelIdeal.nD Cert.KernelIdeal.τ).loc Cert.KernelIdeal.main_arg1) (Idealize.ShloMosaic.ValueIdx.ix1 e)).toNat < 50000 :=
    fun c => Cert.SrcRange.src_lt_of_pre _ _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_eq_G m c (hsrc c)), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v14_eq _ _ _ _ _)).trans ?_
    rw [(hagree c).1, (hagree c).2.1, (hagree c).2.2.1, (hagree c).2.2.2.1, (hagree c).2.2.2.2]
    exact Cert.ReferenceIdeal.RefValue.ref_eq_G _ _ _ _ _ (hsrc c)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
